-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S4096x64 : Shape := ⟨2, ![4096, 64]⟩
abbrev S2048x128 : Shape := ⟨2, ![2048, 128]⟩
abbrev S4096x16 : Shape := ⟨2, ![4096, 16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  main_v23

def fn {F : FTy → Type} [FloatOps F] (main_arg0 : FVec F S100000x64 .f32) (main_arg1 : FVec F S4096x64 .f32) (main_arg2 : FVec F S4096x64 .f32) (main_arg3 : FVec F S2048x128 .f32) (main_arg4 : FVec F S2048x128 .f32) (main_arg5 : IVec S4096x16 32) (main_arg6 : IVec S4096x16 32) (main_arg7 : IVec S4096x16 32) (main_arg8 : IVec S4096x16 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_v13 main_v16
-- ==== Kernel.lean ====
abbrev S100000x64 : Shape := ⟨2, ![100000, 64]⟩
abbrev S4096x64 : Shape := ⟨2, ![4096, 64]⟩
abbrev S2048x128 : Shape := ⟨2, ![2048, 128]⟩
abbrev S4096x16 : Shape := ⟨2, ![4096, 16]⟩
abbrev S1024 : Shape := ⟨1, ![1024]⟩
abbrev S_ : Shape := ⟨0, ![]⟩
abbrev S4096x16x1 : Shape := ⟨3, ![4096, 16, 1]⟩
abbrev S4096x16x64 : Shape := ⟨3, ![4096, 16, 64]⟩
abbrev S4096x1024 : Shape := ⟨2, ![4096, 1024]⟩
abbrev S1024x1 : Shape := ⟨2, ![1024, 1]⟩
abbrev S1024x128 : Shape := ⟨2, ![1024, 128]⟩
abbrev S4096x128 : Shape := ⟨2, ![4096, 128]⟩
abbrev S256x64 : Shape := ⟨2, ![256, 64]⟩
abbrev S256x128 : Shape := ⟨2, ![256, 128]⟩
abbrev S64x4096 : Shape := ⟨2, ![64, 4096]⟩
abbrev S256x4096 : Shape := ⟨2, ![256, 4096]⟩
abbrev S256 : Shape := ⟨1, ![256]⟩
abbrev S256x1 : Shape := ⟨2, ![256, 1]⟩
abbrev S256x1024 : Shape := ⟨2, ![256, 1024]⟩

abbrev nBuf : Space → Nat
  | .hbm => 88
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S4096x64, .f32⟩
  | .hbm, ⟨2, _⟩ => ⟨S4096x64, .f32⟩
  | .hbm, ⟨3, _⟩ => ⟨S2048x128, .f32⟩
  | .hbm, ⟨4, _⟩ => ⟨S2048x128, .f32⟩
  | .hbm, ⟨5, _⟩ => ⟨S4096x16, .i32⟩
  | .hbm, ⟨6, _⟩ => ⟨S4096x16, .i32⟩
  | .hbm, ⟨7, _⟩ => ⟨S4096x16, .i32⟩
  | .hbm, ⟨8, _⟩ => ⟨S4096x16, .i32⟩
  | .hbm, ⟨9, _⟩ => ⟨S1024, .i32⟩
  | .hbm, ⟨10, _⟩ => ⟨S1024, .i1⟩
  | .hbm, ⟨11, _⟩ => ⟨S1024, .i32⟩
  | .hbm, ⟨12, _⟩ => ⟨S1024, .i1⟩
  | .hbm, ⟨13, _⟩ => ⟨S1024, .i1⟩
  | .hbm, ⟨14, _⟩ => ⟨S1024, .i1⟩
  | .hbm, ⟨15, _⟩ => ⟨S100000x64, .bf16⟩
  | .hbm, ⟨16, _⟩ => ⟨S4096x64, .bf16⟩
  | .hbm, ⟨17, _⟩ => ⟨S4096x64, .bf16⟩
  | .hbm, ⟨18, _⟩ => ⟨S_, .i32⟩
  | .hbm, ⟨19, _⟩ => ⟨S4096x16, .i32⟩
  | .hbm, ⟨20, _⟩ => ⟨S4096x16, .i1⟩
  | .hbm, ⟨21, _⟩ => ⟨S_, .i32⟩
  | .hbm, ⟨22, _⟩ => ⟨S4096x16, .i32⟩
  | .hbm, ⟨23, _⟩ => ⟨S4096x16, .i32⟩
  | .hbm, ⟨24, _⟩ => ⟨S4096x16, .i32⟩
  | .hbm, ⟨25, _⟩ => ⟨S4096x16x1, .i32⟩
  | .hbm, ⟨26, _⟩ => ⟨S4096x16x64, .bf16⟩
  | .hbm, ⟨27, _⟩ => ⟨S_, .i32⟩
  | .hbm, ⟨28, _⟩ => ⟨S4096x16, .i32⟩
  | .hbm, ⟨29, _⟩ => ⟨S4096x16, .i1⟩
  | .hbm, ⟨30, _⟩ => ⟨S_, .i32⟩
  | .hbm, ⟨31, _⟩ => ⟨S4096x16, .i32⟩
  | .hbm, ⟨32, _⟩ => ⟨S4096x16, .i32⟩
  | .hbm, ⟨33, _⟩ => ⟨S4096x16, .i32⟩
  | .hbm, ⟨34, _⟩ => ⟨S4096x16x1, .i32⟩
  | .hbm, ⟨35, _⟩ => ⟨S4096x16x64, .bf16⟩
  | .hbm, ⟨36, _⟩ => ⟨S_, .i32⟩
  | .hbm, ⟨37, _⟩ => ⟨S4096x16, .i32⟩
  | .hbm, ⟨38, _⟩ => ⟨S4096x16, .i1⟩
  | .hbm, ⟨39, _⟩ => ⟨S_, .i32⟩
  | .hbm, ⟨40, _⟩ => ⟨S4096x16, .i32⟩
  | .hbm, ⟨41, _⟩ => ⟨S4096x16, .i32⟩
  | .hbm, ⟨42, _⟩ => ⟨S4096x16, .i32⟩
  | .hbm, ⟨43, _⟩ => ⟨S4096x16x1, .i32⟩
  | .hbm, ⟨44, _⟩ => ⟨S4096x16x64, .bf16⟩
  | .hbm, ⟨45, _⟩ => ⟨S_, .i32⟩
  | .hbm, ⟨46, _⟩ => ⟨S4096x16, .i32⟩
  | .hbm, ⟨47, _⟩ => ⟨S4096x16, .i1⟩
  | .hbm, ⟨48, _⟩ => ⟨S_, .i32⟩
  | .hbm, ⟨49, _⟩ => ⟨S4096x16, .i32⟩
  | .hbm, ⟨50, _⟩ => ⟨S4096x16, .i32⟩
  | .hbm, ⟨51, _⟩ => ⟨S4096x16, .i32⟩
  | .hbm, ⟨52, _⟩ => ⟨S4096x16x1, .i32⟩
  | .hbm, ⟨53, _⟩ => ⟨S4096x16x64, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x128, .f32⟩
  | .hbm, ⟨64, _⟩ => ⟨S1024x128, .bf16⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S1024x1, .i32⟩
  | .hbm, ⟨70, _⟩ => ⟨S1024x128, .f32⟩
  | .hbm, ⟨71, _⟩ => ⟨S1024x128, .bf16⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1024x1, .i32⟩
  | .hbm, ⟨77, _⟩ => ⟨S1024x128, .f32⟩
  | .hbm, ⟨78, _⟩ => ⟨S1024x128, .bf16⟩
  | .hbm, ⟨79, _⟩ => ⟨S_, .i32⟩
  | .hbm, ⟨80, _⟩ => ⟨S1024, .i32⟩
  | .hbm, ⟨81, _⟩ => ⟨S1024, .i32⟩
  | .hbm, ⟨82, _⟩ => ⟨S1024, .i32⟩
  | .hbm, ⟨83, _⟩ => ⟨S1024x1, .i32⟩
  | .hbm, ⟨84, _⟩ => ⟨S1024x128, .f32⟩
  | .hbm, ⟨85, _⟩ => ⟨S1024x128, .bf16⟩
  | .hbm, ⟨86, _⟩ => ⟨S4096x128, .f32⟩
  | .hbm, ⟨87, _⟩ => ⟨S4096x128, .f32⟩
  | .local _ .vmem, ⟨0, _⟩ => ⟨S256x64, .bf16⟩
  | .local _ .vmem, ⟨1, _⟩ => ⟨S256x64, .bf16⟩
  | .local _ .vmem, ⟨2, _⟩ => ⟨S4096x64, .bf16⟩
  | .local _ .vmem, ⟨3, _⟩ => ⟨S4096x1024, .bf16⟩
  | .local _ .vmem, ⟨4, _⟩ => ⟨S4096x1024, .bf16⟩
  | .local _ .vmem, ⟨5, _⟩ => ⟨S1024x128, .bf16⟩
  | .local _ .vmem, ⟨6, _⟩ => ⟨S1024x128, .bf16⟩
  | .local _ .vmem, ⟨7, _⟩ => ⟨S256x128, .f32⟩
  | .local _ .vmem, ⟨8, _⟩ => ⟨S256x128, .f32⟩
  | .local _ .vmem, ⟨9, _⟩ => ⟨S256x64, .bf16⟩
  | .local _ .vmem, ⟨10, _⟩ => ⟨S256x64, .bf16⟩
  | .local _ .vmem, ⟨11, _⟩ => ⟨S4096x64, .bf16⟩
  | .local _ .vmem, ⟨12, _⟩ => ⟨S4096x1024, .bf16⟩
  | .local _ .vmem, ⟨13, _⟩ => ⟨S4096x1024, .bf16⟩
  | .local _ .vmem, ⟨14, _⟩ => ⟨S1024x128, .bf16⟩
  | .local _ .vmem, ⟨15, _⟩ => ⟨S1024x128, .bf16⟩
  | .local _ .vmem, ⟨16, _⟩ => ⟨S256x128, .f32⟩
  | .local _ .vmem, ⟨17, _⟩ => ⟨S256x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_5 : Ref sig .tc := ⟨.hbm, 18, rfl⟩
abbrev main_v3 : Ref sig .tc := ⟨.hbm, 19, rfl⟩
abbrev main_v4 : Ref sig .tc := ⟨.hbm, 20, rfl⟩
abbrev main_c_6 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_7 : Ref sig .tc := ⟨.hbm, 27, rfl⟩
abbrev main_v10 : Ref sig .tc := ⟨.hbm, 28, rfl⟩
abbrev main_v11 : Ref sig .tc := ⟨.hbm, 29, rfl⟩
abbrev main_c_8 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_9 : Ref sig .tc := ⟨.hbm, 36, rfl⟩
abbrev main_v17 : Ref sig .tc := ⟨.hbm, 37, rfl⟩
abbrev main_v18 : Ref sig .tc := ⟨.hbm, 38, rfl⟩
abbrev main_c_10 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_11 : Ref sig .tc := ⟨.hbm, 45, rfl⟩
abbrev main_v24 : Ref sig .tc := ⟨.hbm, 46, rfl⟩
abbrev main_v25 : Ref sig .tc := ⟨.hbm, 47, rfl⟩
abbrev main_c_12 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_13 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  shapeCasts_S4096x16x64_S4096x1024 : S4096x16x64.ShapeCasts S4096x1024
  bcast_S_S1024 : S_.BroadcastsInDim S1024 (![] : Fin 0 → Fin S1024.rank)
  bcast_S1024_S1024x1_0 : S1024.BroadcastsInDim S1024x1 (![0] : Fin 1 → Fin S1024x1.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  transposes_S4096x64_p1_0_S64x4096 : S4096x64.Transposes [1, 0] S64x4096
  reduces_S256x4096_S256 : S256x4096.Reduces [1] S256
  shapeCasts_S256_S256x1 : S256.ShapeCasts S256x1
  broadcasts_S256x1_S256x4096 : S256x1.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S256x1_S256x128 : S256x1.Broadcasts S256x128
  inb_S256x128_S256x128_0_0 : ∀ a, (![0, 0] : Fin 2 → Nat) a + S256x128.size a ≤ S256x128.size a
  h_S256x128 : 0 < S256x128.numel
  gather_S100000x64_S4096x16x1_S4096x16x64_2_0_n_n_0_2_164_wf : GatherDims.WF S100000x64 S4096x16x1 S4096x16x64 [2] [0] [] [0] [] 2 ![1, 64]
  gather_S4096x64_S4096x16x1_S4096x16x64_2_0_n_n_0_2_164_wf : GatherDims.WF S4096x64 S4096x16x1 S4096x16x64 [2] [0] [] [0] [] 2 ![1, 64]
  gather_S2048x128_S1024x1_S1024x128_1_0_n_n_0_1_1128_wf : GatherDims.WF S2048x128 S1024x1 S1024x128 [1] [0] [] [0] [] 1 ![1, 128]
  dot_S256x64_S64x4096_S256x4096_1_0_0_1_n_n_wf : DotDims.WF S256x64 S64x4096 S256x4096 [1] [0] [0] [1] [] []
  dot_S256x4096_S4096x1024_S256x1024_1_0_0_1_n_n_wf : DotDims.WF S256x4096 S4096x1024 S256x1024 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .bf16 = 32 ∨ (Rect.block (s := S4096x64) S256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S4096x128.size a
  hwx0_6 : ∀ i : grid0.Coords, EltTy.bits .f32 = 32 ∨ (Rect.block (s := S4096x128) S256x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S4096x64.size a
  hwx1_0 : ∀ i : grid1.Coords, EltTy.bits .bf16 = 32 ∨ (Rect.block (s := S4096x64) S256x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .bf16 = 32 ∨ (Rect.block (s := S4096x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .bf16 = 32 ∨ (Rect.block (s := S1024x128) S1024x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .bf16 = 32 ∨ (Rect.block (s := S1024x128) S1024x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S4096x128.size a
  hwx1_6 : ∀ i : grid1.Coords, EltTy.bits .f32 = 32 ∨ (Rect.block (s := S4096x128) S256x128.size (cc1_transform_6 i) (hinb1_6 i)).WholeWords (EltTy.packing .f32)

variable [Facts₀]

def gather_S100000x64_S4096x16x1_S4096x16x64_2_0_n_n_0_2_164 : GatherDims S100000x64 S4096x16x1 S4096x16x64 where
  offsetDims := [2]
  collapsedSliceDims := [0]
  operandBatchingDims := []
  startIndicesBatchingDims := []
  startIndexMap := [0]
  indexVectorDim := 2
  sliceSizes := ![1, 64]
  wf := gather_S100000x64_S4096x16x1_S4096x16x64_2_0_n_n_0_2_164_wf
def gather_S4096x64_S4096x16x1_S4096x16x64_2_0_n_n_0_2_164 : GatherDims S4096x64 S4096x16x1 S4096x16x64 where
  offsetDims := [2]
  collapsedSliceDims := [0]
  operandBatchingDims := []
  startIndicesBatchingDims := []
  startIndexMap := [0]
  indexVectorDim := 2
  sliceSizes := ![1, 64]
  wf := gather_S4096x64_S4096x16x1_S4096x16x64_2_0_n_n_0_2_164_wf
def gather_S2048x128_S1024x1_S1024x128_1_0_n_n_0_1_1128 : GatherDims S2048x128 S1024x1 S1024x128 where
  offsetDims := [1]
  collapsedSliceDims := [0]
  operandBatchingDims := []
  startIndicesBatchingDims := []
  startIndexMap := [0]
  indexVectorDim := 1
  sliceSizes := ![1, 128]
  wf := gather_S2048x128_S1024x1_S1024x128_1_0_n_n_0_1_1128_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v1) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S4096x64 : Shape := ⟨2, ![4096, 64]⟩
abbrev S2048x128 : Shape := ⟨2, ![2048, 128]⟩
abbrev S4096x16 : Shape := ⟨2, ![4096, 16]⟩
abbrev S_ : Shape := ⟨0, ![]⟩
abbrev S4096x16x1 : Shape := ⟨3, ![4096, 16, 1]⟩
abbrev S4096x16x64 : Shape := ⟨3, ![4096, 16, 64]⟩
abbrev S4096x16x128 : Shape := ⟨3, ![4096, 16, 128]⟩
abbrev S4096x2048 : Shape := ⟨2, ![4096, 2048]⟩
abbrev S4096x4096 : Shape := ⟨2, ![4096, 4096]⟩
abbrev S4096 : Shape := ⟨1, ![4096]⟩
abbrev S4096x1 : Shape := ⟨2, ![4096, 1]⟩
abbrev S4096x128 : Shape := ⟨2, ![4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S4096x64, .f32⟩
  | .hbm, ⟨2, _⟩ => ⟨S4096x64, .f32⟩
  | .hbm, ⟨3, _⟩ => ⟨S2048x128, .f32⟩
  | .hbm, ⟨4, _⟩ => ⟨S2048x128, .f32⟩
  | .hbm, ⟨5, _⟩ => ⟨S4096x16, .i32⟩
  | .hbm, ⟨6, _⟩ => ⟨S4096x16, .i32⟩
  | .hbm, ⟨7, _⟩ => ⟨S4096x16, .i32⟩
  | .hbm, ⟨8, _⟩ => ⟨S4096x16, .i32⟩
  | .hbm, ⟨9, _⟩ => ⟨S_, .i32⟩
  | .hbm, ⟨10, _⟩ => ⟨S4096x16, .i32⟩
  | .hbm, ⟨11, _⟩ => ⟨S4096x16, .i1⟩
  | .hbm, ⟨12, _⟩ => ⟨S_, .i32⟩
  | .hbm, ⟨13, _⟩ => ⟨S4096x16, .i32⟩
  | .hbm, ⟨14, _⟩ => ⟨S4096x16, .i32⟩
  | .hbm, ⟨15, _⟩ => ⟨S4096x16, .i32⟩
  | .hbm, ⟨16, _⟩ => ⟨S4096x16x1, .i32⟩
  | .hbm, ⟨17, _⟩ => ⟨S4096x16x64, .f32⟩
  | .hbm, ⟨18, _⟩ => ⟨S_, .i32⟩
  | .hbm, ⟨19, _⟩ => ⟨S4096x16, .i32⟩
  | .hbm, ⟨20, _⟩ => ⟨S4096x16, .i1⟩
  | .hbm, ⟨21, _⟩ => ⟨S_, .i32⟩
  | .hbm, ⟨22, _⟩ => ⟨S4096x16, .i32⟩
  | .hbm, ⟨23, _⟩ => ⟨S4096x16, .i32⟩
  | .hbm, ⟨24, _⟩ => ⟨S4096x16, .i32⟩
  | .hbm, ⟨25, _⟩ => ⟨S4096x16x1, .i32⟩
  | .hbm, ⟨26, _⟩ => ⟨S4096x16x64, .f32⟩
  | .hbm, ⟨27, _⟩ => ⟨S_, .i32⟩
  | .hbm, ⟨28, _⟩ => ⟨S4096x16, .i32⟩
  | .hbm, ⟨29, _⟩ => ⟨S4096x16, .i1⟩
  | .hbm, ⟨30, _⟩ => ⟨S_, .i32⟩
  | .hbm, ⟨31, _⟩ => ⟨S4096x16, .i32⟩
  | .hbm, ⟨32, _⟩ => ⟨S4096x16, .i32⟩
  | .hbm, ⟨33, _⟩ => ⟨S4096x16, .i32⟩
  | .hbm, ⟨34, _⟩ => ⟨S4096x16x1, .i32⟩
  | .hbm, ⟨35, _⟩ => ⟨S4096x16x64, .f32⟩
  | .hbm, ⟨36, _⟩ => ⟨S_, .i32⟩
  | .hbm, ⟨37, _⟩ => ⟨S4096x16, .i32⟩
  | .hbm, ⟨38, _⟩ => ⟨S4096x16, .i1⟩
  | .hbm, ⟨39, _⟩ => ⟨S_, .i32⟩
  | .hbm, ⟨40, _⟩ => ⟨S4096x16, .i32⟩
  | .hbm, ⟨41, _⟩ => ⟨S4096x16, .i32⟩
  | .hbm, ⟨42, _⟩ => ⟨S4096x16, .i32⟩
  | .hbm, ⟨43, _⟩ => ⟨S4096x16x1, .i32⟩
  | .hbm, ⟨44, _⟩ => ⟨S4096x16x64, .f32⟩
  | .hbm, ⟨45, _⟩ => ⟨S4096x16x128, .f32⟩
  | .hbm, ⟨46, _⟩ => ⟨S4096x2048, .f32⟩
  | .hbm, ⟨47, _⟩ => ⟨S4096x16x128, .f32⟩
  | .hbm, ⟨48, _⟩ => ⟨S4096x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x4096, .f32⟩
  | .hbm, ⟨69, _⟩ => ⟨S4096x4096, .f32⟩
  | .hbm, ⟨70, _⟩ => ⟨S4096x2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x4096, .f32⟩
  | .hbm, ⟨91, _⟩ => ⟨S4096x4096, .f32⟩
  | .hbm, ⟨92, _⟩ => ⟨S4096x2048, .f32⟩
  | .hbm, ⟨93, _⟩ => ⟨S4096x128, .f32⟩
  | .hbm, ⟨94, _⟩ => ⟨S_, .f32⟩
  | .hbm, ⟨95, _⟩ => ⟨S4096x128, .f32⟩
  | .hbm, ⟨96, _⟩ => ⟨S4096x128, .f32⟩
  | .hbm, ⟨97, _⟩ => ⟨S4096x128, .f32⟩
  | .hbm, ⟨98, _⟩ => ⟨S_, .f32⟩
  | .hbm, ⟨99, _⟩ => ⟨S4096x128, .f32⟩
  | .hbm, ⟨100, _⟩ => ⟨S4096x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call0_cst : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_call1_cst : Ref sig .tc := ⟨.hbm, 98, rfl⟩
abbrev main_call1_v0 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  concatenates_S4096x16x64_S4096x16x64_S4096x16x128_d2 : Shape.Concatenates [S4096x16x64, S4096x16x64] S4096x16x128 2
  shapeCasts_S4096x16x128_S4096x2048 : S4096x16x128.ShapeCasts S4096x2048
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x128 : S_.BroadcastsInDim S4096x128 (![] : Fin 0 → Fin S4096x128.rank)
  gather_S100000x64_S4096x16x1_S4096x16x64_2_0_n_n_0_2_164_wf : GatherDims.WF S100000x64 S4096x16x1 S4096x16x64 [2] [0] [] [0] [] 2 ![1, 64]
  gather_S4096x64_S4096x16x1_S4096x16x64_2_0_n_n_0_2_164_wf : GatherDims.WF S4096x64 S4096x16x1 S4096x16x64 [2] [0] [] [0] [] 2 ![1, 64]
  dot_S4096x64_S4096x64_S4096x4096_1_1_0_0_n_n_wf : DotDims.WF S4096x64 S4096x64 S4096x4096 [1] [1] [0] [0] [] []
  dot_S4096x4096_S4096x2048_S4096x2048_1_0_0_1_n_n_wf : DotDims.WF S4096x4096 S4096x2048 S4096x2048 [1] [0] [0] [1] [] []
  dot_S4096x2048_S2048x128_S4096x128_1_0_0_1_n_n_wf : DotDims.WF S4096x2048 S2048x128 S4096x128 [1] [0] [0] [1] [] []

variable [Facts₀]

def gather_S100000x64_S4096x16x1_S4096x16x64_2_0_n_n_0_2_164 : GatherDims S100000x64 S4096x16x1 S4096x16x64 where
  offsetDims := [2]
  collapsedSliceDims := [0]
  operandBatchingDims := []
  startIndicesBatchingDims := []
  startIndexMap := [0]
  indexVectorDim := 2
  sliceSizes := ![1, 64]
  wf := gather_S100000x64_S4096x16x1_S4096x16x64_2_0_n_n_0_2_164_wf
def gather_S4096x64_S4096x16x1_S4096x16x64_2_0_n_n_0_2_164 : GatherDims S4096x64 S4096x16x1 S4096x16x64 where
  offsetDims := [2]
  collapsedSliceDims := [0]
  operandBatchingDims := []
  startIndicesBatchingDims := []
  startIndexMap := [0]
  indexVectorDim := 2
  sliceSizes := ![1, 64]
  wf := gather_S4096x64_S4096x16x1_S4096x16x64_2_0_n_n_0_2_164_wf
def dot_S4096x64_S4096x64_S4096x4096_1_1_0_0_n_n : DotDims S4096x64 S4096x64 S4096x4096 where
  lhsContracting := [1]
  rhsContracting := [1]
  lhsNonContracting := [0]
  rhsNonContracting := [0]
  lhsBatch := []
  rhsBatch := []
  wf := dot_S4096x64_S4096x64_S4096x4096_1_1_0_0_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf

class Facts : Prop extends Facts₀ where

variable [Facts]
-- ==== Proof.K.Body.lean ====
/-
  The attention-projection kernel body on whole staging buffers: what its one store leaves in the output
  buffer, as a function of the six blocks it loads, and the body's triple in the program logic.
  Both pallas_calls run the same body text (one for the user rows, one for the item rows).
-/
import proofs.«416793_j57088705298647_3_alg».proof.Proof.Gen.Kernel.Launch
import proofs.«416793_j57088705298647_3_alg».proof.Proof.Gen.Kernel.Skeleton
import proofs.«416793_j57088705298647_3_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: every access is a whole buffer -/

abbrev rQ : Rect S256x64 := Rect.unit (s := S256x64) ![0, 0] S256x64.size inb_S256x64_S256x64_0_0
abbrev rK : Rect S4096x64 := Rect.unit (s := S4096x64) ![0, 0] S4096x64.size inb_S4096x64_S4096x64_0_0
abbrev rV : Rect S4096x1024 := Rect.unit (s := S4096x1024) ![0, 0] S4096x1024.size inb_S4096x1024_S4096x1024_0_0
abbrev rW : Rect S1024x128 := Rect.unit (s := S1024x128) ![0, 0] S1024x128.size inb_S1024x128_S1024x128_0_0
abbrev rO : Rect S256x128 := Rect.unit (s := S256x128) ![0, 0] S256x128.size inb_S256x128_S256x128_0_0

/-- The output buffer after the body of pallas_call 0: its single whole-buffer store of the payload of the six loads. -/
def out0 (x0 : Vec F S256x64 .bf16) (x1 : Vec F S4096x64 .bf16) (x2 x3 : Vec F S4096x1024 .bf16)
    (x4 x5 : Vec F S1024x128 .bf16) : Vec F S256x128 .f32 :=
  View.canon [⟨rO, k0_pay1 (View.ld x0 rQ) (View.ld x1 rK) (View.ld x2 rV) (View.ld x3 rV) (View.ld x4 rW) (View.ld x5 rW)⟩]

/-- The same for pallas_call 1. -/
def out1 (x0 : Vec F S256x64 .bf16) (x1 : Vec F S4096x64 .bf16) (x2 x3 : Vec F S4096x1024 .bf16)
    (x4 x5 : Vec F S1024x128 .bf16) : Vec F S256x128 .f32 :=
  View.canon [⟨rO, k1_pay1 (View.ld x0 rQ) (View.ld x1 rK) (View.ld x2 rV) (View.ld x3 rV) (View.ld x4 rW) (View.ld x5 rW)⟩]

/-- The one store covers the output buffer. -/
theorem coverO (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

set_option maxHeartbeats 1000000 in
/-- The body of pallas_call 0 on whole staging memrefs: the six inputs at contents x0..x5 and the output at anything;
    it ends with the inputs as they were and the output at out0 of the inputs. -/
theorem sound_kernel0 (c : Dev nD) (E : Set ℕ) (i : grid0.Coords)
    (a1 : Memref sig .tc .vmem S256x64 .bf16) (h1 : a1.IsWhole) (a2 : Memref sig .tc .vmem S4096x64 .bf16) (h2 : a2.IsWhole)
    (a3 : Memref sig .tc .vmem S4096x1024 .bf16) (h3 : a3.IsWhole) (a4 : Memref sig .tc .vmem S4096x1024 .bf16) (h4 : a4.IsWhole)
    (a5 : Memref sig .tc .vmem S1024x128 .bf16) (h5 : a5.IsWhole) (a6 : Memref sig .tc .vmem S1024x128 .bf16) (h6 : a6.IsWhole)
    (a7 : Memref sig .tc .vmem S256x128 .f32) (h7 : a7.IsWhole)
    (x0 : Vec F S256x64 .bf16) (x1 : Vec F S4096x64 .bf16) (x2 x3 : Vec F S4096x1024 .bf16) (x4 x5 : Vec F S1024x128 .bf16)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out0 x0 x1 x2 x3 x4 x5)) -∗ K ⟨⟩))
      ⊢ wp frame (wpE (defs₀ (F := F)) Variants.none c none) E (cc0__attn_proj_kernel i a1 h1 a2 h2 a3 h3 a4 h4 a5 h5 a6 h6 a7 h7) K := by
  simp only [cc0__attn_proj_kernel_eq_skeleton]; unfold cc0__attn_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

set_option maxHeartbeats 1000000 in
/-- The same for pallas_call 1. -/
theorem sound_kernel1 (c : Dev nD) (E : Set ℕ) (i : grid1.Coords)
    (a1 : Memref sig .tc .vmem S256x64 .bf16) (h1 : a1.IsWhole) (a2 : Memref sig .tc .vmem S4096x64 .bf16) (h2 : a2.IsWhole)
    (a3 : Memref sig .tc .vmem S4096x1024 .bf16) (h3 : a3.IsWhole) (a4 : Memref sig .tc .vmem S4096x1024 .bf16) (h4 : a4.IsWhole)
    (a5 : Memref sig .tc .vmem S1024x128 .bf16) (h5 : a5.IsWhole) (a6 : Memref sig .tc .vmem S1024x128 .bf16) (h6 : a6.IsWhole)
    (a7 : Memref sig .tc .vmem S256x128 .f32) (h7 : a7.IsWhole)
    (x0 : Vec F S256x64 .bf16) (x1 : Vec F S4096x64 .bf16) (x2 x3 : Vec F S4096x1024 .bf16) (x4 x5 : Vec F S1024x128 .bf16)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out1 x0 x1 x2 x3 x4 x5)) -∗ K ⟨⟩))
      ⊢ wp frame (wpE (defs₀ (F := F)) Variants.none c none) E (cc1__attn_proj_kernel i a1 h1 a2 h2 a3 h3 a4 h4 a5 h5 a6 h6 a7 h7) K := by
  simp only [cc1__attn_proj_kernel_eq_skeleton]; unfold cc1__attn_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.Kernel.Hand

end
-- ==== Proof.K.Region.lean ====
/-
  Per pallas_call, at a parameter V (the core's buffer contents when the region is entered): each window's block
  at a grid point, the pipeline's proof data, and the body obligation. Window 0 (a block of 256 rows of the row
  table) and window 1 (the whole row table) read ONE array; each holds half of its share.
-/
import proofs.«416793_j57088705298647_3_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # pallas_call 0 at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core c: arrays as the region finds them; each input's buffer left at its block,
    the output's at out0 of the six input blocks; the two windows that read the row table (0: a row block, 1: the whole
    table) each hold HALF of that array's share, every other window its array's whole share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0 (iblk0 V c 0 t) (iblk0 V c 1 t) (iblk0 V c 2 t) (iblk0 V c 3 t) (iblk0 V c 4 t) (iblk0 V c 5 t) := by dsimp only [dat0]

/-- Nothing is owed, and the shares are as stated. -/
theorem owed0 (c : Dev nD) (t) : (dat0 V c).owed t = 0 := rfl
theorem q0_0 (c : Dev nD) : (dat0 V c).q 0 = fullShare.left := rfl
theorem q0_1 (c : Dev nD) : (dat0 V c).q 1 = fullShare.right := rfl

/-- An input window whose body leaves its block in place holds that block at every point: where it is not fetched its
    block index has not moved, so the buffer still holds the block it was given at the first point. Stated for any proof
    data whose array is V's and whose body leaves the block; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point t: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block, so the body's triple applies at the six blocks; the
    output buffer's previous contents are forgotten; the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-! # pallas_call 1 at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core c: arrays as the region finds them; each input's buffer left at its block,
    the output's at out1 of the six input blocks; the two windows that read the row table (0: a row block, 1: the whole
    table) each hold HALF of that array's share, every other window its array's whole share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1 (iblk1 V c 0 t) (iblk1 V c 1 t) (iblk1 V c 2 t) (iblk1 V c 3 t) (iblk1 V c 4 t) (iblk1 V c 5 t) := by dsimp only [dat1]

/-- Nothing is owed, and the shares are as stated. -/
theorem owed1 (c : Dev nD) (t) : (dat1 V c).owed t = 0 := rfl
theorem q1_0 (c : Dev nD) : (dat1 V c).q 0 = fullShare.left := rfl
theorem q1_1 (c : Dev nD) : (dat1 V c).q 1 = fullShare.right := rfl

/-- An input window whose body leaves its block in place holds that block at every point: where it is not fetched its
    block index has not moved, so the buffer still holds the block it was given at the first point. Stated for any proof
    data whose array is V's and whose body leaves the block; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: every input buffer holds its block, so the body's triple applies at the six blocks; the
    output buffer's previous contents are forgotten; the invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Vals.lean ====
/-
  The core's buffer contents at every segment boundary of @main, as a fold from the launch memory:
  the 60 host operations of the first stretch, the 17 of the second (region 0 is entered from there), region 0's
  exit (only its output array has changed), region 1's exit (likewise). No host operation runs between or after
  the two regions.
-/
import proofs.«416793_j57088705298647_3_alg».proof.Proof.K.Region
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after main_part0_ops0 (W0 m ρ c)
/-- After the second stretch: region 0's entry. -/
abbrev W2 : Dev nD → Valuation τ sig (Elt F) := fun c => StableHlo.after main_part1_ops0 (W1 m ρ c)
/-- The same read at the TensorCore's references (what region 0's proof data take). -/
abbrev V2 : (c : Dev nD) → (b : Ref sig .tc) → Buf (Elt F) ((c : Thread nD τ).loc b) := fun c b => W2 m ρ c b
/-- Region 0's exit and region 1's entry: its output array at what the write-backs leave, everything else as entered. -/
def W3 (c : Dev nD) : Valuation τ sig (Elt F) :=
  Function.update (W2 m ρ c) (Proc.devRef .tc main_v59) ((dat0 (V2 m ρ) c).arrAt 6 cfg0.N)
abbrev V3 : (c : Dev nD) → (b : Ref sig .tc) → Buf (Elt F) ((c : Thread nD τ).loc b) := fun c b => W3 m ρ c b
/-- Region 1's exit: the state @main returns in. -/
def W4 (c : Dev nD) : Valuation τ sig (Elt F) :=
  Function.update (W3 m ρ c) (Proc.devRef .tc main_v60) ((dat1 (V3 m ρ) c).arrAt 6 cfg1.N)
abbrev V4 : (c : Dev nD) → (b : Ref sig .tc) → Buf (Elt F) ((c : Thread nD τ).loc b) := fun c b => W4 m ρ c b

theorem W3_out (c : Dev nD) : W3 m ρ c (Proc.devRef .tc main_v59) = (dat0 (V2 m ρ) c).arrAt 6 cfg0.N := by
  unfold W3; exact Function.update_self ..
theorem W3_of_ne (c : Dev nD) (b : Ref sig .tc) (hb : b ≠ main_v59) :
    W3 m ρ c (Proc.devRef .tc b) = W2 m ρ c (Proc.devRef .tc b) := by
  unfold W3; exact Function.update_of_ne (StableHlo.devRef_ne_of_ne hb) ..
theorem W4_out (c : Dev nD) : W4 m ρ c (Proc.devRef .tc main_v60) = (dat1 (V3 m ρ) c).arrAt 6 cfg1.N := by
  unfold W4; exact Function.update_self ..
theorem W4_of_ne (c : Dev nD) (b : Ref sig .tc) (hb : b ≠ main_v60) :
    W4 m ρ c (Proc.devRef .tc b) = W3 m ρ c (Proc.devRef .tc b) := by
  unfold W4; exact Function.update_of_ne (StableHlo.devRef_ne_of_ne hb) ..

end Cert.Kernel.Hand

end
-- ==== Proof.K.Run.lean ====
/-
  The launch: @main as two host segments and two kernel regions over the thread state "every unscoped buffer at the
  boundary's contents", and the resulting run: every weakly fair execution terminates, nothing faulting, in a state
  whose unscoped buffers hold the last boundary's contents.
-/
import proofs.«416793_j57088705298647_3_alg».proof.Proof.K.Vals
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The proof data family and the thread state -/

/-- No pipeline has a prefetched table. -/
abbrev adm : (p : Fin 2) → (pcfgs (F := F) p).Adm := fun p => (cfgs p).toPCfg_adm
/-- Each pipeline's proof data at its region's entry contents, by a literal match on the pipeline's index. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor

/-- The last thread state without the debt: every unscoped buffer at W4, the generator register at some state. -/
abbrev Tₙ (c : Dev nD) : sProp 𝕄 := iprop(StableHlo.held (c : Thread nD τ) (Pipeline.ucRefs τ sig) (W4 m ρ c) ∗ ∃ r, prngReg c r)

/-! ## Region 0: one array behind two windows

Windows 0 and 1 of pipeline 0 read the row table main_v1; each holds half of its share. The launch hands the core
that buffer once, whole: at entry its points-to is split along the share, at exit the halves (still at the entry
contents: an input array is never written) are joined again. -/

/-- The distinct buffers behind pipeline 0's seven windows. -/
theorem img0 : Finset.univ.image (Pipeline.arrRef spec0)
    = [main_v1, main_v31, main_v32, main_v40, main_v46, main_v59].toFinset := by decide

/-- Those buffers, each whole at V, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v1) ↦{fullShare} V main_v1) ∗ (((c : Thread nD τ).loc main_v31) ↦{fullShare} V main_v31)
        ∗ (((c : Thread nD τ).loc main_v32) ↦{fullShare} V main_v32) ∗ (((c : Thread nD τ).loc main_v40) ↦{fullShare} V main_v40)
        ∗ (((c : Thread nD τ).loc main_v46) ↦{fullShare} V main_v46) ∗ (((c : Thread nD τ).loc main_v59) ↦{fullShare} V main_v59)) := by
  unfold Pipeline.arrBufs
  exact bigSep_eq_bigSepL_of_eq [main_v1, main_v31, main_v32, main_v40, main_v46, main_v59] img0 (by decide) _

/-- Each of pipeline 0's arrays is a whole buffer: the windowed arrays at contents G, each over all its elements. -/
theorem arrays0_univ (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = bigSep Finset.univ fun w : Fin cfg0.W => ((cfg0.win w).arr.view.loc (c : Thread nD τ) ↦{(dat0 V c).share w} G w : sProp 𝕄) := by
  unfold Dat.arrays
  exact bigSep_congr fun w _ => by rw [(arr_whole0 w).set_eq_univ]

/-- The shares: halves of the row table's for windows 0 and 1, the whole share for every other window. -/
theorem share0_0 (c : Dev nD) (V : (c : Dev nD) → (b : Ref sig .tc) → Buf (Elt F) ((c : Thread nD τ).loc b)) :
    (dat0 V c).share 0 = fullShare.left := rfl
theorem share0_1 (c : Dev nD) (V : (c : Dev nD) → (b : Ref sig .tc) → Buf (Elt F) ((c : Thread nD τ).loc b)) :
    (dat0 V c).share 1 = fullShare.right := rfl
theorem share0_2 (c : Dev nD) (V : (c : Dev nD) → (b : Ref sig .tc) → Buf (Elt F) ((c : Thread nD τ).loc b)) :
    (dat0 V c).share 2 = fullShare := rfl
theorem share0_3 (c : Dev nD) (V : (c : Dev nD) → (b : Ref sig .tc) → Buf (Elt F) ((c : Thread nD τ).loc b)) :
    (dat0 V c).share 3 = fullShare := rfl
theorem share0_4 (c : Dev nD) (V : (c : Dev nD) → (b : Ref sig .tc) → Buf (Elt F) ((c : Thread nD τ).loc b)) :
    (dat0 V c).share 4 = fullShare := rfl
theorem share0_5 (c : Dev nD) (V : (c : Dev nD) → (b : Ref sig .tc) → Buf (Elt F) ((c : Thread nD τ).loc b)) :
    (dat0 V c).share 5 = fullShare := rfl
theorem share0_6 (c : Dev nD) (V : (c : Dev nD) → (b : Ref sig .tc) → Buf (Elt F) ((c : Thread nD τ).loc b)) :
    (dat0 V c).share 6 = fullShare := rfl

/-- Pipeline 0's windowed arrays at contents G, window by window. -/
theorem arrays0_eq (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_v1) ↦{fullShare.left} G 0) ∗ (((c : Thread nD τ).loc main_v1) ↦{fullShare.right} G 1)
        ∗ (((c : Thread nD τ).loc main_v31) ↦{fullShare} G 2) ∗ (((c : Thread nD τ).loc main_v32) ↦{fullShare} G 3)
        ∗ (((c : Thread nD τ).loc main_v40) ↦{fullShare} G 4) ∗ (((c : Thread nD τ).loc main_v46) ↦{fullShare} G 5)
        ∗ (((c : Thread nD τ).loc main_v59) ↦{fullShare} G 6)) := by
  rw [arrays0_univ, bigSep_W0]
  rfl

/-- The core's unscoped buffers at contents V: the buffers behind pipeline 0's arrays, and the rest. -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

/-- ENTRY of region 0: the core's unscoped buffers at V are pipeline 0's arrays at the entry contents, the row
    table's points-to split along its share between windows 0 and 1, and the unscoped rest. -/
theorem entry0 (V : (c : Dev nD) → (b : Ref sig .tc) → Buf (Elt F) ((c : Thread nD τ).loc b)) (c : Dev nD) :
    (unscopedBufs c (V c) : sProp 𝕄)
      ⊢ iprop((dat0 V c).arrays (fun w => (dat0 V c).arrAt w 0) ∗ Pipeline.unscopedRest spec0 c (V c)) := by
  rw [split0, arrBufs0_eq, arrays0_eq]
  iintro ⟨⟨H1, H31, H32, H40, H46, H59⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H31]; · iexact H31
    isplitl [H32]; · iexact H32
    isplitl [H40]; · iexact H40
    isplitl [H46]; · iexact H46
    iexact H59
  iexact Hrest

set_option maxHeartbeats 4000000 in
/-- EXIT of region 0: the input windows' arrays are as entered (the two halves of the row table's points-to hold
    the same contents and join), the output array holds what the write-backs left; with the rest, these are the
    core's unscoped buffers at any contents V' that has the output array there and agrees with V elsewhere. -/
theorem exit0 (V : (c : Dev nD) → (b : Ref sig .tc) → Buf (Elt F) ((c : Thread nD τ).loc b)) (c : Dev nD)
    (V' : (b : Ref sig .tc) → Buf (Elt F) ((c : Thread nD τ).loc b))
    (hout : V' main_v59 = (dat0 V c).arrAt 6 cfg0.N) (hrest : ∀ b, b ≠ main_v59 → V' b = V c b) :
    iprop((dat0 V c).arrays (fun w => (dat0 V c).arrAt w cfg0.N) ∗ Pipeline.unscopedRest spec0 c (V c))
      ⊢ (unscopedBufs c V' : sProp 𝕄) := by
  have hR : (Pipeline.unscopedRest spec0 c V' : sProp 𝕄) = Pipeline.unscopedRest spec0 c (V c) := by
    unfold Pipeline.unscopedRest
    refine bigSep_congr fun b hb => ?_
    rw [hrest b fun e => (Finset.mem_sdiff.mp hb).2 (e ▸ Finset.mem_image.mpr ⟨6, Finset.mem_univ _, rfl⟩)]
  rw [split0, hR, arrBufs0_eq, arrays0_eq, hrest main_v1 (by decide), hrest main_v31 (by decide), hrest main_v32 (by decide),
    hrest main_v40 (by decide), hrest main_v46 (by decide), hout,
    (dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl]
  iintro ⟨⟨A0, A1, A2, A3, A4, A5, A6⟩, Hrest⟩
  isplitr [Hrest]
  · isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  iexact Hrest

/-! ## Region 1: the same, over its own row table main_v2 -/

/-- The distinct buffers behind pipeline 1's seven windows. -/
theorem img1 : Finset.univ.image (Pipeline.arrRef spec1)
    = [main_v2, main_v33, main_v34, main_v52, main_v58, main_v60].toFinset := by decide

/-- Those buffers, each whole at V, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v2) ↦{fullShare} V main_v2) ∗ (((c : Thread nD τ).loc main_v33) ↦{fullShare} V main_v33)
        ∗ (((c : Thread nD τ).loc main_v34) ↦{fullShare} V main_v34) ∗ (((c : Thread nD τ).loc main_v52) ↦{fullShare} V main_v52)
        ∗ (((c : Thread nD τ).loc main_v58) ↦{fullShare} V main_v58) ∗ (((c : Thread nD τ).loc main_v60) ↦{fullShare} V main_v60)) := by
  unfold Pipeline.arrBufs
  exact bigSep_eq_bigSepL_of_eq [main_v2, main_v33, main_v34, main_v52, main_v58, main_v60] img1 (by decide) _

/-- Each of pipeline 1's arrays is a whole buffer: the windowed arrays at contents G, each over all its elements. -/
theorem arrays1_univ (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w : Fin cfg1.W => ((cfg1.win w).arr.view.loc (c : Thread nD τ) ↦{(dat1 V c).share w} G w : sProp 𝕄) := by
  unfold Dat.arrays
  exact bigSep_congr fun w _ => by rw [(arr_whole1 w).set_eq_univ]

/-- The shares: halves of the row table's for windows 0 and 1, the whole share for every other window. -/
theorem share1_0 (c : Dev nD) (V : (c : Dev nD) → (b : Ref sig .tc) → Buf (Elt F) ((c : Thread nD τ).loc b)) :
    (dat1 V c).share 0 = fullShare.left := rfl
theorem share1_1 (c : Dev nD) (V : (c : Dev nD) → (b : Ref sig .tc) → Buf (Elt F) ((c : Thread nD τ).loc b)) :
    (dat1 V c).share 1 = fullShare.right := rfl
theorem share1_2 (c : Dev nD) (V : (c : Dev nD) → (b : Ref sig .tc) → Buf (Elt F) ((c : Thread nD τ).loc b)) :
    (dat1 V c).share 2 = fullShare := rfl
theorem share1_3 (c : Dev nD) (V : (c : Dev nD) → (b : Ref sig .tc) → Buf (Elt F) ((c : Thread nD τ).loc b)) :
    (dat1 V c).share 3 = fullShare := rfl
theorem share1_4 (c : Dev nD) (V : (c : Dev nD) → (b : Ref sig .tc) → Buf (Elt F) ((c : Thread nD τ).loc b)) :
    (dat1 V c).share 4 = fullShare := rfl
theorem share1_5 (c : Dev nD) (V : (c : Dev nD) → (b : Ref sig .tc) → Buf (Elt F) ((c : Thread nD τ).loc b)) :
    (dat1 V c).share 5 = fullShare := rfl
theorem share1_6 (c : Dev nD) (V : (c : Dev nD) → (b : Ref sig .tc) → Buf (Elt F) ((c : Thread nD τ).loc b)) :
    (dat1 V c).share 6 = fullShare := rfl

/-- Pipeline 1's windowed arrays at contents G, window by window. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
        ∗ (((c : Thread nD τ).loc main_v33) ↦{fullShare} G 2) ∗ (((c : Thread nD τ).loc main_v34) ↦{fullShare} G 3)
        ∗ (((c : Thread nD τ).loc main_v52) ↦{fullShare} G 4) ∗ (((c : Thread nD τ).loc main_v58) ↦{fullShare} G 5)
        ∗ (((c : Thread nD τ).loc main_v60) ↦{fullShare} G 6)) := by
  rw [arrays1_univ, bigSep_W1]
  rfl

/-- The core's unscoped buffers at contents V: the buffers behind pipeline 1's arrays, and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY of region 1: the core's unscoped buffers at V are pipeline 1's arrays at the entry contents, the row
    table's points-to split along its share between windows 0 and 1, and the unscoped rest. -/
theorem entry1 (V : (c : Dev nD) → (b : Ref sig .tc) → Buf (Elt F) ((c : Thread nD τ).loc b)) (c : Dev nD) :
    (unscopedBufs c (V c) : sProp 𝕄)
      ⊢ iprop((dat1 V c).arrays (fun w => (dat1 V c).arrAt w 0) ∗ Pipeline.unscopedRest spec1 c (V c)) := by
  rw [split1, arrBufs1_eq, arrays1_eq]
  iintro ⟨⟨H1, H31, H32, H40, H46, H59⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H31]; · iexact H31
    isplitl [H32]; · iexact H32
    isplitl [H40]; · iexact H40
    isplitl [H46]; · iexact H46
    iexact H59
  iexact Hrest

set_option maxHeartbeats 4000000 in
/-- EXIT of region 1: the input windows' arrays are as entered (the two halves of the row table's points-to hold
    the same contents and join), the output array holds what the write-backs left; with the rest, these are the
    core's unscoped buffers at any contents V' that has the output array there and agrees with V elsewhere. -/
theorem exit1 (V : (c : Dev nD) → (b : Ref sig .tc) → Buf (Elt F) ((c : Thread nD τ).loc b)) (c : Dev nD)
    (V' : (b : Ref sig .tc) → Buf (Elt F) ((c : Thread nD τ).loc b))
    (hout : V' main_v60 = (dat1 V c).arrAt 6 cfg1.N) (hrest : ∀ b, b ≠ main_v60 → V' b = V c b) :
    iprop((dat1 V c).arrays (fun w => (dat1 V c).arrAt w cfg1.N) ∗ Pipeline.unscopedRest spec1 c (V c))
      ⊢ (unscopedBufs c V' : sProp 𝕄) := by
  have hR : (Pipeline.unscopedRest spec1 c V' : sProp 𝕄) = Pipeline.unscopedRest spec1 c (V c) := by
    unfold Pipeline.unscopedRest
    refine bigSep_congr fun b hb => ?_
    rw [hrest b fun e => (Finset.mem_sdiff.mp hb).2 (e ▸ Finset.mem_image.mpr ⟨6, Finset.mem_univ _, rfl⟩)]
  rw [split1, hR, arrBufs1_eq, arrays1_eq, hrest main_v2 (by decide), hrest main_v33 (by decide), hrest main_v34 (by decide),
    hrest main_v52 (by decide), hrest main_v58 (by decide), hout,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨⟨A0, A1, A2, A3, A4, A5, A6⟩, Hrest⟩
  isplitr [Hrest]
  · isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  iexact Hrest

/-! ## The regions as segments -/

set_option backward.isDefEq.respectTransparency.types false in
/-- Region 0: entered from every unscoped buffer at W2, left at W3. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit : (unscopedBufs c (V2 m ρ c) : sProp 𝕄)
        ⊢ iprop((pdats m ρ 0 c).arrays ((pdats m ρ 0 c).arrAt · 0) ∗ Pipeline.unscopedRest spec0 c (V2 m ρ c)) := entry0 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V2 m ρ c))
        ⊢ (unscopedBufs c (V3 m ρ c) : sProp 𝕄) :=
      exit0 (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4 (what the launch reads at the end). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      exit1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg main_part0_ops0 main_part0_ops0_sub part0_fresh (W0 m ρ)),
    .host (hseg main_part1_ops0 main_part1_ops0_sub part1_fresh (W1 m ρ)),
    .region (reg0 m ρ),
    .region (reg1 m ρ) ]
/-- @main is the run of the segments. -/
theorem main_run (c : Dev nD) : main (F := F) c = Pipeline.Seg.run (segs m ρ) :=
  (main_chain_windows c).trans (by chain_rfl)

end Run

open Run in
set_option backward.isDefEq.respectTransparency.types false in
/-- THE RUN: from any memory with zero counters every weakly fair execution of @main terminates, nothing faulting,
    and in the final state every unscoped buffer of every core holds the last boundary's contents W4. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Args.lean ====
/-
  The fold of Vals.lean read back: no host operation and no region writes an argument array, so each ends as launched;
  the two results are what the two regions' write-backs leave; and region 1 finds every buffer but region 0's output
  as region 0 found it.
-/
import proofs.«416793_j57088705298647_3_alg».proof.Proof.K.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Neither stretch of host operations writes buffer b when b is none of their results. -/
theorem W2_of_not_written (c : Dev nD) (b : Ref sig .tc)
    (h0 : ∀ op ∈ (main_part0_ops0 : List (HloOp τ sig (Elt F))), Proc.devRef .tc b ∉ op.writes)
    (h1 : ∀ op ∈ (main_part1_ops0 : List (HloOp τ sig (Elt F))), Proc.devRef .tc b ∉ op.writes) :
    W2 m ρ c (Proc.devRef .tc b) = m ((c : Thread nD τ).loc b) :=
  calc W2 m ρ c (Proc.devRef .tc b)
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = m ((c : Thread nD τ).loc main_arg0) := W2_of_not_written m ρ c main_arg0
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = m ((c : Thread nD τ).loc main_arg1) := W2_of_not_written m ρ c main_arg1
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = m ((c : Thread nD τ).loc main_arg2) := W2_of_not_written m ρ c main_arg2
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = m ((c : Thread nD τ).loc main_arg3) := W2_of_not_written m ρ c main_arg3
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = m ((c : Thread nD τ).loc main_arg4) := W2_of_not_written m ρ c main_arg4
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = m ((c : Thread nD τ).loc main_arg5) := W2_of_not_written m ρ c main_arg5
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = m ((c : Thread nD τ).loc main_arg6) := W2_of_not_written m ρ c main_arg6
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = m ((c : Thread nD τ).loc main_arg7) := W2_of_not_written m ρ c main_arg7
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = m ((c : Thread nD τ).loc main_arg8) := W2_of_not_written m ρ c main_arg8
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))

/-- The first result is what region 0's write-backs leave (region 1 does not touch it). -/
theorem W4_res0 (c : Dev nD) : W4 m ρ c (Proc.devRef .tc main_v59) = (dat0 (V2 m ρ) c).arrAt 6 cfg0.N :=
  (W4_of_ne m ρ c main_v59 (by decide)).trans (W3_out m ρ c)
/-- The second result is what region 1's write-backs leave. -/
theorem W4_res1 (c : Dev nD) : W4 m ρ c (Proc.devRef .tc main_v60) = (dat1 (V3 m ρ) c).arrAt 6 cfg1.N :=
  W4_out m ρ c
/-- Region 1 finds every buffer but region 0's output as region 0 found it. -/
theorem V3_of_ne (c : Dev nD) (b : Ref sig .tc) (hb : b ≠ main_v59) : V3 m ρ c b = V2 m ρ c b :=
  W3_of_ne m ρ c b hb

end Cert.Kernel.Hand

end
-- ==== Proof.K.Frame.lean ====
/-
  The frame claim, at any float instance: from any memory with zero counters every weakly fair execution of @main
  terminates, nothing faulting, with the nine argument arrays as launched; and the same run with the two result arrays
  named: each is what its region's sixteen write-backs leave.
-/
import proofs.«416793_j57088705298647_3_alg».proof.Proof.K.Run
import proofs.«416793_j57088705298647_3_alg».proof.Proof.K.Args

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The same run with the two results named. -/
theorem run_named : θ_run defs (onTc (τ := τ) (main (F := F))) ⟨m, fun _ => 0, ρ⟩ (fun r => ∀ c : Dev nD,
      r.2.mem ((c.tc : Thread nD τ).loc main_v59) = (dat0 (V2 m ρ) c).arrAt 6 cfg0.N
      ∧ r.2.mem ((c.tc : Thread nD τ).loc main_v60) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v59 (by decide))).trans (W4_res0 m ρ c),
      (h c _ (mem_uc main_v60 (by decide))).trans (W4_res1 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

end Cert.Kernel.Hand

end
-- ==== Proof.KI.Body.lean ====
/-
  The attention-projection kernel body on whole staging buffers: what its one store leaves in the output
  buffer, as a function of the six blocks it loads, and the body's triple in the program logic.
  Both pallas_calls run the same body text (one for the user rows, one for the item rows).
-/
import proofs.«416793_j57088705298647_3_alg».proof.Proof.Gen.KernelIdeal.Launch
import proofs.«416793_j57088705298647_3_alg».proof.Proof.Gen.KernelIdeal.Skeleton
import proofs.«416793_j57088705298647_3_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: every access is a whole buffer -/

abbrev rQ : Rect S256x64 := Rect.unit (s := S256x64) ![0, 0] S256x64.size inb_S256x64_S256x64_0_0
abbrev rK : Rect S4096x64 := Rect.unit (s := S4096x64) ![0, 0] S4096x64.size inb_S4096x64_S4096x64_0_0
abbrev rV : Rect S4096x1024 := Rect.unit (s := S4096x1024) ![0, 0] S4096x1024.size inb_S4096x1024_S4096x1024_0_0
abbrev rW : Rect S1024x128 := Rect.unit (s := S1024x128) ![0, 0] S1024x128.size inb_S1024x128_S1024x128_0_0
abbrev rO : Rect S256x128 := Rect.unit (s := S256x128) ![0, 0] S256x128.size inb_S256x128_S256x128_0_0

/-- The output buffer after the body of pallas_call 0: its single whole-buffer store of the payload of the six loads. -/
def out0 (x0 : Vec F S256x64 .bf16) (x1 : Vec F S4096x64 .bf16) (x2 x3 : Vec F S4096x1024 .bf16)
    (x4 x5 : Vec F S1024x128 .bf16) : Vec F S256x128 .f32 :=
  View.canon [⟨rO, k0_pay1 (View.ld x0 rQ) (View.ld x1 rK) (View.ld x2 rV) (View.ld x3 rV) (View.ld x4 rW) (View.ld x5 rW)⟩]

/-- The same for pallas_call 1. -/
def out1 (x0 : Vec F S256x64 .bf16) (x1 : Vec F S4096x64 .bf16) (x2 x3 : Vec F S4096x1024 .bf16)
    (x4 x5 : Vec F S1024x128 .bf16) : Vec F S256x128 .f32 :=
  View.canon [⟨rO, k1_pay1 (View.ld x0 rQ) (View.ld x1 rK) (View.ld x2 rV) (View.ld x3 rV) (View.ld x4 rW) (View.ld x5 rW)⟩]

/-- The one store covers the output buffer. -/
theorem coverO (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

set_option maxHeartbeats 1000000 in
/-- The body of pallas_call 0 on whole staging memrefs: the six inputs at contents x0..x5 and the output at anything;
    it ends with the inputs as they were and the output at out0 of the inputs. -/
theorem sound_kernel0 (c : Dev nD) (E : Set ℕ) (i : grid0.Coords)
    (a1 : Memref sig .tc .vmem S256x64 .bf16) (h1 : a1.IsWhole) (a2 : Memref sig .tc .vmem S4096x64 .bf16) (h2 : a2.IsWhole)
    (a3 : Memref sig .tc .vmem S4096x1024 .bf16) (h3 : a3.IsWhole) (a4 : Memref sig .tc .vmem S4096x1024 .bf16) (h4 : a4.IsWhole)
    (a5 : Memref sig .tc .vmem S1024x128 .bf16) (h5 : a5.IsWhole) (a6 : Memref sig .tc .vmem S1024x128 .bf16) (h6 : a6.IsWhole)
    (a7 : Memref sig .tc .vmem S256x128 .f32) (h7 : a7.IsWhole)
    (x0 : Vec F S256x64 .bf16) (x1 : Vec F S4096x64 .bf16) (x2 x3 : Vec F S4096x1024 .bf16) (x4 x5 : Vec F S1024x128 .bf16)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out0 x0 x1 x2 x3 x4 x5)) -∗ K ⟨⟩))
      ⊢ wp frame (wpE (defs₀ (F := F)) Variants.none c none) E (cc0__attn_proj_kernel i a1 h1 a2 h2 a3 h3 a4 h4 a5 h5 a6 h6 a7 h7) K := by
  simp only [cc0__attn_proj_kernel_eq_skeleton]; unfold cc0__attn_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

set_option maxHeartbeats 1000000 in
/-- The same for pallas_call 1. -/
theorem sound_kernel1 (c : Dev nD) (E : Set ℕ) (i : grid1.Coords)
    (a1 : Memref sig .tc .vmem S256x64 .bf16) (h1 : a1.IsWhole) (a2 : Memref sig .tc .vmem S4096x64 .bf16) (h2 : a2.IsWhole)
    (a3 : Memref sig .tc .vmem S4096x1024 .bf16) (h3 : a3.IsWhole) (a4 : Memref sig .tc .vmem S4096x1024 .bf16) (h4 : a4.IsWhole)
    (a5 : Memref sig .tc .vmem S1024x128 .bf16) (h5 : a5.IsWhole) (a6 : Memref sig .tc .vmem S1024x128 .bf16) (h6 : a6.IsWhole)
    (a7 : Memref sig .tc .vmem S256x128 .f32) (h7 : a7.IsWhole)
    (x0 : Vec F S256x64 .bf16) (x1 : Vec F S4096x64 .bf16) (x2 x3 : Vec F S4096x1024 .bf16) (x4 x5 : Vec F S1024x128 .bf16)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out1 x0 x1 x2 x3 x4 x5)) -∗ K ⟨⟩))
      ⊢ wp frame (wpE (defs₀ (F := F)) Variants.none c none) E (cc1__attn_proj_kernel i a1 h1 a2 h2 a3 h3 a4 h4 a5 h5 a6 h6 a7 h7) K := by
  simp only [cc1__attn_proj_kernel_eq_skeleton]; unfold cc1__attn_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.KernelIdeal.Hand

end
-- ==== Proof.KI.Region.lean ====
/-
  Per pallas_call, at a parameter V (the core's buffer contents when the region is entered): each window's block
  at a grid point, the pipeline's proof data, and the body obligation. Window 0 (a block of 256 rows of the row
  table) and window 1 (the whole row table) read ONE array; each holds half of its share.
-/
import proofs.«416793_j57088705298647_3_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # pallas_call 0 at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core c: arrays as the region finds them; each input's buffer left at its block,
    the output's at out0 of the six input blocks; the two windows that read the row table (0: a row block, 1: the whole
    table) each hold HALF of that array's share, every other window its array's whole share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0 (iblk0 V c 0 t) (iblk0 V c 1 t) (iblk0 V c 2 t) (iblk0 V c 3 t) (iblk0 V c 4 t) (iblk0 V c 5 t) := by dsimp only [dat0]

/-- Nothing is owed, and the shares are as stated. -/
theorem owed0 (c : Dev nD) (t) : (dat0 V c).owed t = 0 := rfl
theorem q0_0 (c : Dev nD) : (dat0 V c).q 0 = fullShare.left := rfl
theorem q0_1 (c : Dev nD) : (dat0 V c).q 1 = fullShare.right := rfl

/-- An input window whose body leaves its block in place holds that block at every point: where it is not fetched its
    block index has not moved, so the buffer still holds the block it was given at the first point. Stated for any proof
    data whose array is V's and whose body leaves the block; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point t: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block, so the body's triple applies at the six blocks; the
    output buffer's previous contents are forgotten; the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-! # pallas_call 1 at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core c: arrays as the region finds them; each input's buffer left at its block,
    the output's at out1 of the six input blocks; the two windows that read the row table (0: a row block, 1: the whole
    table) each hold HALF of that array's share, every other window its array's whole share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1 (iblk1 V c 0 t) (iblk1 V c 1 t) (iblk1 V c 2 t) (iblk1 V c 3 t) (iblk1 V c 4 t) (iblk1 V c 5 t) := by dsimp only [dat1]

/-- Nothing is owed, and the shares are as stated. -/
theorem owed1 (c : Dev nD) (t) : (dat1 V c).owed t = 0 := rfl
theorem q1_0 (c : Dev nD) : (dat1 V c).q 0 = fullShare.left := rfl
theorem q1_1 (c : Dev nD) : (dat1 V c).q 1 = fullShare.right := rfl

/-- An input window whose body leaves its block in place holds that block at every point: where it is not fetched its
    block index has not moved, so the buffer still holds the block it was given at the first point. Stated for any proof
    data whose array is V's and whose body leaves the block; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point t: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body hands back: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: every input buffer holds its block, so the body's triple applies at the six blocks; the
    output buffer's previous contents are forgotten; the invariant and the debt are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Vals.lean ====
/-
  The core's buffer contents at every segment boundary of @main, as a fold from the launch memory:
  the 60 host operations of the first stretch, the 17 of the second (region 0 is entered from there), region 0's
  exit (only its output array has changed), region 1's exit (likewise). No host operation runs between or after
  the two regions.
-/
import proofs.«416793_j57088705298647_3_alg».proof.Proof.KI.Region
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after main_part0_ops0 (W0 m ρ c)
/-- After the second stretch: region 0's entry. -/
abbrev W2 : Dev nD → Valuation τ sig (Elt F) := fun c => StableHlo.after main_part1_ops0 (W1 m ρ c)
/-- The same read at the TensorCore's references (what region 0's proof data take). -/
abbrev V2 : (c : Dev nD) → (b : Ref sig .tc) → Buf (Elt F) ((c : Thread nD τ).loc b) := fun c b => W2 m ρ c b
/-- Region 0's exit and region 1's entry: its output array at what the write-backs leave, everything else as entered. -/
def W3 (c : Dev nD) : Valuation τ sig (Elt F) :=
  Function.update (W2 m ρ c) (Proc.devRef .tc main_v59) ((dat0 (V2 m ρ) c).arrAt 6 cfg0.N)
abbrev V3 : (c : Dev nD) → (b : Ref sig .tc) → Buf (Elt F) ((c : Thread nD τ).loc b) := fun c b => W3 m ρ c b
/-- Region 1's exit: the state @main returns in. -/
def W4 (c : Dev nD) : Valuation τ sig (Elt F) :=
  Function.update (W3 m ρ c) (Proc.devRef .tc main_v60) ((dat1 (V3 m ρ) c).arrAt 6 cfg1.N)
abbrev V4 : (c : Dev nD) → (b : Ref sig .tc) → Buf (Elt F) ((c : Thread nD τ).loc b) := fun c b => W4 m ρ c b

theorem W3_out (c : Dev nD) : W3 m ρ c (Proc.devRef .tc main_v59) = (dat0 (V2 m ρ) c).arrAt 6 cfg0.N := by
  unfold W3; exact Function.update_self ..
theorem W3_of_ne (c : Dev nD) (b : Ref sig .tc) (hb : b ≠ main_v59) :
    W3 m ρ c (Proc.devRef .tc b) = W2 m ρ c (Proc.devRef .tc b) := by
  unfold W3; exact Function.update_of_ne (StableHlo.devRef_ne_of_ne hb) ..
theorem W4_out (c : Dev nD) : W4 m ρ c (Proc.devRef .tc main_v60) = (dat1 (V3 m ρ) c).arrAt 6 cfg1.N := by
  unfold W4; exact Function.update_self ..
theorem W4_of_ne (c : Dev nD) (b : Ref sig .tc) (hb : b ≠ main_v60) :
    W4 m ρ c (Proc.devRef .tc b) = W3 m ρ c (Proc.devRef .tc b) := by
  unfold W4; exact Function.update_of_ne (StableHlo.devRef_ne_of_ne hb) ..

end Cert.KernelIdeal.Hand

end
-- ==== Proof.KI.Run.lean ====
/-
  The launch: @main as two host segments and two kernel regions over the thread state "every unscoped buffer at the
  boundary's contents", and the resulting run: every weakly fair execution terminates, nothing faulting, in a state
  whose unscoped buffers hold the last boundary's contents.
-/
import proofs.«416793_j57088705298647_3_alg».proof.Proof.KI.Vals
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The proof data family and the thread state -/

/-- No pipeline has a prefetched table. -/
abbrev adm : (p : Fin 2) → (pcfgs (F := F) p).Adm := fun p => (cfgs p).toPCfg_adm
/-- Each pipeline's proof data at its region's entry contents, by a literal match on the pipeline's index. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor

/-- The last thread state without the debt: every unscoped buffer at W4, the generator register at some state. -/
abbrev Tₙ (c : Dev nD) : sProp 𝕄 := iprop(StableHlo.held (c : Thread nD τ) (Pipeline.ucRefs τ sig) (W4 m ρ c) ∗ ∃ r, prngReg c r)

/-! ## Region 0: one array behind two windows

Windows 0 and 1 of pipeline 0 read the row table main_v1; each holds half of its share. The launch hands the core
that buffer once, whole: at entry its points-to is split along the share, at exit the halves (still at the entry
contents: an input array is never written) are joined again. -/

/-- The distinct buffers behind pipeline 0's seven windows. -/
theorem img0 : Finset.univ.image (Pipeline.arrRef spec0)
    = [main_v1, main_v31, main_v32, main_v40, main_v46, main_v59].toFinset := by decide

/-- Those buffers, each whole at V, one by one. -/
theorem arrBufs0_eq (c : Dev nD) (V : (b : Ref sig .tc) → Buf (Elt F) ((c : Thread nD τ).loc b)) :
    (Pipeline.arrBufs spec0 c V : sProp 𝕄)
      = iprop((((c : Thread nD τ).loc main_v1) ↦{fullShare} V main_v1) ∗ (((c : Thread nD τ).loc main_v31) ↦{fullShare} V main_v31)
        ∗ (((c : Thread nD τ).loc main_v32) ↦{fullShare} V main_v32) ∗ (((c : Thread nD τ).loc main_v40) ↦{fullShare} V main_v40)
        ∗ (((c : Thread nD τ).loc main_v46) ↦{fullShare} V main_v46) ∗ (((c : Thread nD τ).loc main_v59) ↦{fullShare} V main_v59)) := by
  unfold Pipeline.arrBufs
  exact bigSep_eq_bigSepL_of_eq [main_v1, main_v31, main_v32, main_v40, main_v46, main_v59] img0 (by decide) _

/-- Each of pipeline 0's arrays is a whole buffer: the windowed arrays at contents G, each over all its elements. -/
theorem arrays0_univ (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = bigSep Finset.univ fun w : Fin cfg0.W => ((cfg0.win w).arr.view.loc (c : Thread nD τ) ↦{(dat0 V c).share w} G w : sProp 𝕄) := by
  unfold Dat.arrays
  exact bigSep_congr fun w _ => by rw [(arr_whole0 w).set_eq_univ]

/-- The shares: halves of the row table's for windows 0 and 1, the whole share for every other window. -/
theorem share0_0 (c : Dev nD) (V : (c : Dev nD) → (b : Ref sig .tc) → Buf (Elt F) ((c : Thread nD τ).loc b)) :
    (dat0 V c).share 0 = fullShare.left := rfl
theorem share0_1 (c : Dev nD) (V : (c : Dev nD) → (b : Ref sig .tc) → Buf (Elt F) ((c : Thread nD τ).loc b)) :
    (dat0 V c).share 1 = fullShare.right := rfl
theorem share0_2 (c : Dev nD) (V : (c : Dev nD) → (b : Ref sig .tc) → Buf (Elt F) ((c : Thread nD τ).loc b)) :
    (dat0 V c).share 2 = fullShare := rfl
theorem share0_3 (c : Dev nD) (V : (c : Dev nD) → (b : Ref sig .tc) → Buf (Elt F) ((c : Thread nD τ).loc b)) :
    (dat0 V c).share 3 = fullShare := rfl
theorem share0_4 (c : Dev nD) (V : (c : Dev nD) → (b : Ref sig .tc) → Buf (Elt F) ((c : Thread nD τ).loc b)) :
    (dat0 V c).share 4 = fullShare := rfl
theorem share0_5 (c : Dev nD) (V : (c : Dev nD) → (b : Ref sig .tc) → Buf (Elt F) ((c : Thread nD τ).loc b)) :
    (dat0 V c).share 5 = fullShare := rfl
theorem share0_6 (c : Dev nD) (V : (c : Dev nD) → (b : Ref sig .tc) → Buf (Elt F) ((c : Thread nD τ).loc b)) :
    (dat0 V c).share 6 = fullShare := rfl

/-- Pipeline 0's windowed arrays at contents G, window by window. -/
theorem arrays0_eq (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_v1) ↦{fullShare.left} G 0) ∗ (((c : Thread nD τ).loc main_v1) ↦{fullShare.right} G 1)
        ∗ (((c : Thread nD τ).loc main_v31) ↦{fullShare} G 2) ∗ (((c : Thread nD τ).loc main_v32) ↦{fullShare} G 3)
        ∗ (((c : Thread nD τ).loc main_v40) ↦{fullShare} G 4) ∗ (((c : Thread nD τ).loc main_v46) ↦{fullShare} G 5)
        ∗ (((c : Thread nD τ).loc main_v59) ↦{fullShare} G 6)) := by
  rw [arrays0_univ, bigSep_W0]
  rfl

/-- The core's unscoped buffers at contents V: the buffers behind pipeline 0's arrays, and the rest. -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

/-- ENTRY of region 0: the core's unscoped buffers at V are pipeline 0's arrays at the entry contents, the row
    table's points-to split along its share between windows 0 and 1, and the unscoped rest. -/
theorem entry0 (V : (c : Dev nD) → (b : Ref sig .tc) → Buf (Elt F) ((c : Thread nD τ).loc b)) (c : Dev nD) :
    (unscopedBufs c (V c) : sProp 𝕄)
      ⊢ iprop((dat0 V c).arrays (fun w => (dat0 V c).arrAt w 0) ∗ Pipeline.unscopedRest spec0 c (V c)) := by
  rw [split0, arrBufs0_eq, arrays0_eq]
  iintro ⟨⟨H1, H31, H32, H40, H46, H59⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H31]; · iexact H31
    isplitl [H32]; · iexact H32
    isplitl [H40]; · iexact H40
    isplitl [H46]; · iexact H46
    iexact H59
  iexact Hrest

set_option maxHeartbeats 4000000 in
/-- EXIT of region 0: the input windows' arrays are as entered (the two halves of the row table's points-to hold
    the same contents and join), the output array holds what the write-backs left; with the rest, these are the
    core's unscoped buffers at any contents V' that has the output array there and agrees with V elsewhere. -/
theorem exit0 (V : (c : Dev nD) → (b : Ref sig .tc) → Buf (Elt F) ((c : Thread nD τ).loc b)) (c : Dev nD)
    (V' : (b : Ref sig .tc) → Buf (Elt F) ((c : Thread nD τ).loc b))
    (hout : V' main_v59 = (dat0 V c).arrAt 6 cfg0.N) (hrest : ∀ b, b ≠ main_v59 → V' b = V c b) :
    iprop((dat0 V c).arrays (fun w => (dat0 V c).arrAt w cfg0.N) ∗ Pipeline.unscopedRest spec0 c (V c))
      ⊢ (unscopedBufs c V' : sProp 𝕄) := by
  have hR : (Pipeline.unscopedRest spec0 c V' : sProp 𝕄) = Pipeline.unscopedRest spec0 c (V c) := by
    unfold Pipeline.unscopedRest
    refine bigSep_congr fun b hb => ?_
    rw [hrest b fun e => (Finset.mem_sdiff.mp hb).2 (e ▸ Finset.mem_image.mpr ⟨6, Finset.mem_univ _, rfl⟩)]
  rw [split0, hR, arrBufs0_eq, arrays0_eq, hrest main_v1 (by decide), hrest main_v31 (by decide), hrest main_v32 (by decide),
    hrest main_v40 (by decide), hrest main_v46 (by decide), hout,
    (dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl]
  iintro ⟨⟨A0, A1, A2, A3, A4, A5, A6⟩, Hrest⟩
  isplitr [Hrest]
  · isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  iexact Hrest

/-! ## Region 1: the same, over its own row table main_v2 -/

/-- The distinct buffers behind pipeline 1's seven windows. -/
theorem img1 : Finset.univ.image (Pipeline.arrRef spec1)
    = [main_v2, main_v33, main_v34, main_v52, main_v58, main_v60].toFinset := by decide

/-- Those buffers, each whole at V, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v2) ↦{fullShare} V main_v2) ∗ (((c : Thread nD τ).loc main_v33) ↦{fullShare} V main_v33)
        ∗ (((c : Thread nD τ).loc main_v34) ↦{fullShare} V main_v34) ∗ (((c : Thread nD τ).loc main_v52) ↦{fullShare} V main_v52)
        ∗ (((c : Thread nD τ).loc main_v58) ↦{fullShare} V main_v58) ∗ (((c : Thread nD τ).loc main_v60) ↦{fullShare} V main_v60)) := by
  unfold Pipeline.arrBufs
  exact bigSep_eq_bigSepL_of_eq [main_v2, main_v33, main_v34, main_v52, main_v58, main_v60] img1 (by decide) _

/-- Each of pipeline 1's arrays is a whole buffer: the windowed arrays at contents G, each over all its elements. -/
theorem arrays1_univ (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w : Fin cfg1.W => ((cfg1.win w).arr.view.loc (c : Thread nD τ) ↦{(dat1 V c).share w} G w : sProp 𝕄) := by
  unfold Dat.arrays
  exact bigSep_congr fun w _ => by rw [(arr_whole1 w).set_eq_univ]

/-- The shares: halves of the row table's for windows 0 and 1, the whole share for every other window. -/
theorem share1_0 (c : Dev nD) (V : (c : Dev nD) → (b : Ref sig .tc) → Buf (Elt F) ((c : Thread nD τ).loc b)) :
    (dat1 V c).share 0 = fullShare.left := rfl
theorem share1_1 (c : Dev nD) (V : (c : Dev nD) → (b : Ref sig .tc) → Buf (Elt F) ((c : Thread nD τ).loc b)) :
    (dat1 V c).share 1 = fullShare.right := rfl
theorem share1_2 (c : Dev nD) (V : (c : Dev nD) → (b : Ref sig .tc) → Buf (Elt F) ((c : Thread nD τ).loc b)) :
    (dat1 V c).share 2 = fullShare := rfl
theorem share1_3 (c : Dev nD) (V : (c : Dev nD) → (b : Ref sig .tc) → Buf (Elt F) ((c : Thread nD τ).loc b)) :
    (dat1 V c).share 3 = fullShare := rfl
theorem share1_4 (c : Dev nD) (V : (c : Dev nD) → (b : Ref sig .tc) → Buf (Elt F) ((c : Thread nD τ).loc b)) :
    (dat1 V c).share 4 = fullShare := rfl
theorem share1_5 (c : Dev nD) (V : (c : Dev nD) → (b : Ref sig .tc) → Buf (Elt F) ((c : Thread nD τ).loc b)) :
    (dat1 V c).share 5 = fullShare := rfl
theorem share1_6 (c : Dev nD) (V : (c : Dev nD) → (b : Ref sig .tc) → Buf (Elt F) ((c : Thread nD τ).loc b)) :
    (dat1 V c).share 6 = fullShare := rfl

/-- Pipeline 1's windowed arrays at contents G, window by window. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
        ∗ (((c : Thread nD τ).loc main_v33) ↦{fullShare} G 2) ∗ (((c : Thread nD τ).loc main_v34) ↦{fullShare} G 3)
        ∗ (((c : Thread nD τ).loc main_v52) ↦{fullShare} G 4) ∗ (((c : Thread nD τ).loc main_v58) ↦{fullShare} G 5)
        ∗ (((c : Thread nD τ).loc main_v60) ↦{fullShare} G 6)) := by
  rw [arrays1_univ, bigSep_W1]
  rfl

/-- The core's unscoped buffers at contents V: the buffers behind pipeline 1's arrays, and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY of region 1: the core's unscoped buffers at V are pipeline 1's arrays at the entry contents, the row
    table's points-to split along its share between windows 0 and 1, and the unscoped rest. -/
theorem entry1 (V : (c : Dev nD) → (b : Ref sig .tc) → Buf (Elt F) ((c : Thread nD τ).loc b)) (c : Dev nD) :
    (unscopedBufs c (V c) : sProp 𝕄)
      ⊢ iprop((dat1 V c).arrays (fun w => (dat1 V c).arrAt w 0) ∗ Pipeline.unscopedRest spec1 c (V c)) := by
  rw [split1, arrBufs1_eq, arrays1_eq]
  iintro ⟨⟨H1, H31, H32, H40, H46, H59⟩, Hrest⟩
  ihave H := (pointsTo_share (PosShare.mem_left_op_right fullShare)).1 $$ H1
  icases H with ⟨Hl, Hr⟩
  isplitr [Hrest]
  · isplitl [Hl]; · iexact Hl
    isplitl [Hr]; · iexact Hr
    isplitl [H31]; · iexact H31
    isplitl [H32]; · iexact H32
    isplitl [H40]; · iexact H40
    isplitl [H46]; · iexact H46
    iexact H59
  iexact Hrest

set_option maxHeartbeats 4000000 in
/-- EXIT of region 1: the input windows' arrays are as entered (the two halves of the row table's points-to hold
    the same contents and join), the output array holds what the write-backs left; with the rest, these are the
    core's unscoped buffers at any contents V' that has the output array there and agrees with V elsewhere. -/
theorem exit1 (V : (c : Dev nD) → (b : Ref sig .tc) → Buf (Elt F) ((c : Thread nD τ).loc b)) (c : Dev nD)
    (V' : (b : Ref sig .tc) → Buf (Elt F) ((c : Thread nD τ).loc b))
    (hout : V' main_v60 = (dat1 V c).arrAt 6 cfg1.N) (hrest : ∀ b, b ≠ main_v60 → V' b = V c b) :
    iprop((dat1 V c).arrays (fun w => (dat1 V c).arrAt w cfg1.N) ∗ Pipeline.unscopedRest spec1 c (V c))
      ⊢ (unscopedBufs c V' : sProp 𝕄) := by
  have hR : (Pipeline.unscopedRest spec1 c V' : sProp 𝕄) = Pipeline.unscopedRest spec1 c (V c) := by
    unfold Pipeline.unscopedRest
    refine bigSep_congr fun b hb => ?_
    rw [hrest b fun e => (Finset.mem_sdiff.mp hb).2 (e ▸ Finset.mem_image.mpr ⟨6, Finset.mem_univ _, rfl⟩)]
  rw [split1, hR, arrBufs1_eq, arrays1_eq, hrest main_v2 (by decide), hrest main_v33 (by decide), hrest main_v34 (by decide),
    hrest main_v52 (by decide), hrest main_v58 (by decide), hout,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨⟨A0, A1, A2, A3, A4, A5, A6⟩, Hrest⟩
  isplitr [Hrest]
  · isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  iexact Hrest

/-! ## The regions as segments -/

set_option backward.isDefEq.respectTransparency.types false in
/-- Region 0: entered from every unscoped buffer at W2, left at W3. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit : (unscopedBufs c (V2 m ρ c) : sProp 𝕄)
        ⊢ iprop((pdats m ρ 0 c).arrays ((pdats m ρ 0 c).arrAt · 0) ∗ Pipeline.unscopedRest spec0 c (V2 m ρ c)) := entry0 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V2 m ρ c))
        ⊢ (unscopedBufs c (V3 m ρ c) : sProp 𝕄) :=
      exit0 (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4 (what the launch reads at the end). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      exit1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg main_part0_ops0 main_part0_ops0_sub part0_fresh (W0 m ρ)),
    .host (hseg main_part1_ops0 main_part1_ops0_sub part1_fresh (W1 m ρ)),
    .region (reg0 m ρ),
    .region (reg1 m ρ) ]
/-- @main is the run of the segments. -/
theorem main_run (c : Dev nD) : main (F := F) c = Pipeline.Seg.run (segs m ρ) :=
  (main_chain_windows c).trans (by chain_rfl)

end Run

open Run in
set_option backward.isDefEq.respectTransparency.types false in
/-- THE RUN: from any memory with zero counters every weakly fair execution of @main terminates, nothing faulting,
    and in the final state every unscoped buffer of every core holds the last boundary's contents W4. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Args.lean ====
/-
  The fold of Vals.lean read back: no host operation and no region writes an argument array, so each ends as launched;
  the two results are what the two regions' write-backs leave; and region 1 finds every buffer but region 0's output
  as region 0 found it.
-/
import proofs.«416793_j57088705298647_3_alg».proof.Proof.KI.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Neither stretch of host operations writes buffer b when b is none of their results. -/
theorem W2_of_not_written (c : Dev nD) (b : Ref sig .tc)
    (h0 : ∀ op ∈ (main_part0_ops0 : List (HloOp τ sig (Elt F))), Proc.devRef .tc b ∉ op.writes)
    (h1 : ∀ op ∈ (main_part1_ops0 : List (HloOp τ sig (Elt F))), Proc.devRef .tc b ∉ op.writes) :
    W2 m ρ c (Proc.devRef .tc b) = m ((c : Thread nD τ).loc b) :=
  calc W2 m ρ c (Proc.devRef .tc b)
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = m ((c : Thread nD τ).loc main_arg0) := W2_of_not_written m ρ c main_arg0
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = m ((c : Thread nD τ).loc main_arg1) := W2_of_not_written m ρ c main_arg1
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = m ((c : Thread nD τ).loc main_arg2) := W2_of_not_written m ρ c main_arg2
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = m ((c : Thread nD τ).loc main_arg3) := W2_of_not_written m ρ c main_arg3
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = m ((c : Thread nD τ).loc main_arg4) := W2_of_not_written m ρ c main_arg4
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = m ((c : Thread nD τ).loc main_arg5) := W2_of_not_written m ρ c main_arg5
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = m ((c : Thread nD τ).loc main_arg6) := W2_of_not_written m ρ c main_arg6
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = m ((c : Thread nD τ).loc main_arg7) := W2_of_not_written m ρ c main_arg7
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = m ((c : Thread nD τ).loc main_arg8) := W2_of_not_written m ρ c main_arg8
      (List.forall_iff_forall_mem.mp (by
        simp only [main_part0_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))
      (List.forall_iff_forall_mem.mp (by
        simp only [main_part1_ops0, List.Forall, StableHlo.nullary_writes, StableHlo.unary_writes, StableHlo.binary_writes, StableHlo.ternary_writes, StableHlo.reshape_writes, Finset.mem_singleton]
        repeat' apply And.intro
        all_goals exact StableHlo.devRef_ne_of_ne (by decide)))

/-- The first result is what region 0's write-backs leave (region 1 does not touch it). -/
theorem W4_res0 (c : Dev nD) : W4 m ρ c (Proc.devRef .tc main_v59) = (dat0 (V2 m ρ) c).arrAt 6 cfg0.N :=
  (W4_of_ne m ρ c main_v59 (by decide)).trans (W3_out m ρ c)
/-- The second result is what region 1's write-backs leave. -/
theorem W4_res1 (c : Dev nD) : W4 m ρ c (Proc.devRef .tc main_v60) = (dat1 (V3 m ρ) c).arrAt 6 cfg1.N :=
  W4_out m ρ c
/-- Region 1 finds every buffer but region 0's output as region 0 found it. -/
theorem V3_of_ne (c : Dev nD) (b : Ref sig .tc) (hb : b ≠ main_v59) : V3 m ρ c b = V2 m ρ c b :=
  W3_of_ne m ρ c b hb

end Cert.KernelIdeal.Hand

end
-- ==== Proof.KI.Frame.lean ====
/-
  The frame claim, at any float instance: from any memory with zero counters every weakly fair execution of @main
  terminates, nothing faulting, with the nine argument arrays as launched; and the same run with the two result arrays
  named: each is what its region's sixteen write-backs leave.
-/
import proofs.«416793_j57088705298647_3_alg».proof.Proof.KI.Run
import proofs.«416793_j57088705298647_3_alg».proof.Proof.KI.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The same run with the two results named. -/
theorem run_named : θ_run defs (onTc (τ := τ) (main (F := F))) ⟨m, fun _ => 0, ρ⟩ (fun r => ∀ c : Dev nD,
      r.2.mem ((c.tc : Thread nD τ).loc main_v59) = (dat0 (V2 m ρ) c).arrAt 6 cfg0.N
      ∧ r.2.mem ((c.tc : Thread nD τ).loc main_v60) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v59 (by decide))).trans (W4_res0 m ρ c),
      (h c _ (mem_uc main_v60 (by decide))).trans (W4_res1 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

end Cert.KernelIdeal.Hand

end
-- ==== Proof.KI.Blocks.lean ====
/-
  From blocks to arrays: a region's output array is covered by the sixteen blocks of 256 rows its grid points write
  back, each the body's payload of that point's input blocks; the first input's block at point t is rows
  256·t … 256·t + 255 of the row table, every other input's block is its whole array.
-/
import proofs.«416793_j57088705298647_3_alg».proof.Proof.KI.Region
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-- Rows 256·t … 256·t + 255 of a [4096, 64] table. -/
def rows (x : Vec F S4096x64 .bf16) (t : Fin 16) : Vec F S256x64 .bf16 :=
  fun y => x (ix2 (⟨256 * t.val + (y 0).val, by have h0 : (y 0).val < 256 := (y 0).isLt; have := t.isLt; omega⟩ : Fin 4096) (y 1))

/-- The zero offsets of a whole-buffer access. -/
theorem hz : (![0, 0] : Fin 2 → Nat) = fun _ => 0 := funext fun a => by fin_cases a <;> rfl

/-- The block of 256 rows that holds a row of a [4096, 128] array, -/
def rowBlock (i : S4096x128.Idx) : Fin 16 := ⟨(i 0).val / 256, by have := idx2_lt0 i; omega⟩

/-- and the row's place inside that block. -/
def rowIn (i : S4096x128.Idx) : S256x128.Idx := ix2 (⟨(i 0).val % 256, by omega⟩ : Fin 256) (i 1)

/-- Row 256·t + j lies in block t, -/
theorem rowBlock_eq (i : S4096x128.Idx) (t : Fin 16) (j : S256x128.Idx) (h0 : (i 0).val = 256 * t.val + (j 0).val) :
    rowBlock i = t := by
  have hj : (j 0).val < 256 := idx2_lt0 j
  apply Fin.ext; show (i 0).val / 256 = t.val; omega

/-- at place j of it. -/
theorem rowIn_eq (i : S4096x128.Idx) (t : Fin 16) (j : S256x128.Idx) (h0 : (i 0).val = 256 * t.val + (j 0).val)
    (h1 : (i 1).val = (j 1).val) : rowIn i = j := by
  have hj : (j 0).val < 256 := idx2_lt0 j
  funext a; apply Fin.ext
  match a with
  | ⟨0, _⟩ => show (i 0).val % 256 = (j 0).val; omega
  | ⟨1, _⟩ => exact h1

variable (V : (c : Dev nD) → (b : Ref sig .tc) → Buf (Elt F) ((c : Thread nD τ).loc b))

/-! # pallas_call 0 -/

/-- The printed index maps of region 0, decided over its sixteen points: the row-block window and the output window
    sit at block (t, 0); the five whole-array windows at block (0, 0). -/
theorem idxFacts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Window 0's block at point t is rows 256·t … 256·t + 255 of the row table. -/
theorem iblk0_0_eq (c : Dev nD) (t : Fin cfg0.N) (t' : Fin 16) (ht : t'.val = t.val) :
    iblk0 V c 0 t = rows (V c main_v1) t' := by
  obtain ⟨e0, e1, -⟩ := idxFacts0 t
  funext y
  show V c main_v1 (((cfg0.win 0).blk t).view.emb y) = V c main_v1 (ix2 (⟨256 * t'.val + (y 0).val, _⟩ : Fin 4096) (y 1))
  congr 1
  funext a; apply Fin.ext
  match a with
  | ⟨0, _⟩ => show win0_0.index t (0 : Fin 2) * 256 + 1 * (y 0).val = 256 * t'.val + (y 0).val; omega
  | ⟨1, _⟩ => show win0_0.index t (1 : Fin 2) * 64 + 1 * (y 1).val = (y 1).val; omega

/-- Window 1 of region 0 has the constant index map (0, 0) and a block as large as its array: its block at any
    point is the array. -/
theorem iblk0_1_eq (c : Dev nD) (t : Fin cfg0.N) : iblk0 V c 1 t = (V c main_v1 : Vec F S4096x64 .bf16) := by
  obtain ⟨-, -, e0, e1, -, -, -, -, -, -, -, -, -, -⟩ := idxFacts0 t
  funext y
  show V c main_v1 (((cfg0.win 1).blk t).view.emb y) = V c main_v1 y
  congr 1
  funext a; apply Fin.ext
  match a with
  | ⟨0, _⟩ => show win0_1.index t (0 : Fin 2) * 4096 + 1 * (y 0).val = (y 0).val; omega
  | ⟨1, _⟩ => show win0_1.index t (1 : Fin 2) * 64 + 1 * (y 1).val = (y 1).val; omega

/-- Window 2 of region 0 has the constant index map (0, 0) and a block as large as its array: its block at any
    point is the array. -/
theorem iblk0_2_eq (c : Dev nD) (t : Fin cfg0.N) : iblk0 V c 2 t = (V c main_v31 : Vec F S4096x1024 .bf16) := by
  obtain ⟨-, -, -, -, e0, e1, -, -, -, -, -, -, -, -⟩ := idxFacts0 t
  funext y
  show V c main_v31 (((cfg0.win 2).blk t).view.emb y) = V c main_v31 y
  congr 1
  funext a; apply Fin.ext
  match a with
  | ⟨0, _⟩ => show win0_2.index t (0 : Fin 2) * 4096 + 1 * (y 0).val = (y 0).val; omega
  | ⟨1, _⟩ => show win0_2.index t (1 : Fin 2) * 1024 + 1 * (y 1).val = (y 1).val; omega

/-- Window 3 of region 0 has the constant index map (0, 0) and a block as large as its array: its block at any
    point is the array. -/
theorem iblk0_3_eq (c : Dev nD) (t : Fin cfg0.N) : iblk0 V c 3 t = (V c main_v32 : Vec F S4096x1024 .bf16) := by
  obtain ⟨-, -, -, -, -, -, e0, e1, -, -, -, -, -, -⟩ := idxFacts0 t
  funext y
  show V c main_v32 (((cfg0.win 3).blk t).view.emb y) = V c main_v32 y
  congr 1
  funext a; apply Fin.ext
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- Window 4 of region 0 has the constant index map (0, 0) and a block as large as its array: its block at any
    point is the array. -/
theorem iblk0_4_eq (c : Dev nD) (t : Fin cfg0.N) : iblk0 V c 4 t = (V c main_v40 : Vec F S1024x128 .bf16) := by
  obtain ⟨-, -, -, -, -, -, -, -, e0, e1, -, -, -, -⟩ := idxFacts0 t
  funext y
  show V c main_v40 (((cfg0.win 4).blk t).view.emb y) = V c main_v40 y
  congr 1
  funext a; apply Fin.ext
  match a with
  | ⟨0, _⟩ => show win0_4.index t (0 : Fin 2) * 1024 + 1 * (y 0).val = (y 0).val; omega
  | ⟨1, _⟩ => show win0_4.index t (1 : Fin 2) * 128 + 1 * (y 1).val = (y 1).val; omega

/-- Window 5 of region 0 has the constant index map (0, 0) and a block as large as its array: its block at any
    point is the array. -/
theorem iblk0_5_eq (c : Dev nD) (t : Fin cfg0.N) : iblk0 V c 5 t = (V c main_v46 : Vec F S1024x128 .bf16) := by
  obtain ⟨-, -, -, -, -, -, -, -, -, -, e0, e1, -, -⟩ := idxFacts0 t
  funext y
  show V c main_v46 (((cfg0.win 5).blk t).view.emb y) = V c main_v46 y
  congr 1
  funext a; apply Fin.ext
  match a with
  | ⟨0, _⟩ => show win0_5.index t (0 : Fin 2) * 1024 + 1 * (y 0).val = (y 0).val; omega
  | ⟨1, _⟩ => show win0_5.index t (1 : Fin 2) * 128 + 1 * (y 1).val = (y 1).val; omega

/-- What region 0's output array ends holding, as one function of the arrays the region reads: at row n the payload of
    the row block that holds n, at row n % 256 of that block. -/
def G0 (x1 : Vec F S4096x64 .bf16) (x2 x3 : Vec F S4096x1024 .bf16) (x4 x5 : Vec F S1024x128 .bf16) : Vec F S4096x128 .f32 :=
  fun i => k0_pay1 (rows x1 (rowBlock i)) x1 x2 x3 x4 x5 (rowIn i)

/-- At point t the body's payload, read at j, is that function at row 256·t + j. -/
theorem G0_at (x1 : Vec F S4096x64 .bf16) (x2 x3 : Vec F S4096x1024 .bf16) (x4 x5 : Vec F S1024x128 .bf16)
    (t : Fin 16) (j : S256x128.Idx) (i : S4096x128.Idx) (h0 : (i 0).val = 256 * t.val + (j 0).val) (h1 : (i 1).val = (j 1).val) :
    G0 x1 x2 x3 x4 x5 i = k0_pay1 (rows x1 t) x1 x2 x3 x4 x5 j := by
  unfold G0
  rw [rowBlock_eq i t j h0, rowIn_eq i t j h0 h1]

/-- What point t writes back is block t of that function. -/
theorem flushed0_eq (c : Dev nD) (t : Fin cfg0.N) :
    (dat0 V c).flushed 6 t = ((cfg0.win 6).blk t).view.read (Elt F) (G0 (V c main_v1) (V c main_v31) (V c main_v32) (V c main_v40) (V c main_v46)) := by
  show (cfg0.win 6).cut (grid0.coords t) ((dat0 V c).after 6 t) = _
  rw [after0_6]
  unfold out0
  rw [View.canon_unit_zero hz]
  simp only [View.ld_unit_zero (S := S256x64) hz, View.ld_unit_zero (S := S4096x64) hz, View.ld_unit_zero (S := S4096x1024) hz,
    View.ld_unit_zero (S := S1024x128) hz]
  have ht : t.val < 16 := lt_of_lt_of_eq t.isLt N_0
  rw [iblk0_0_eq V c t ⟨t.val, ht⟩ rfl, iblk0_1_eq, iblk0_2_eq, iblk0_3_eq, iblk0_4_eq, iblk0_5_eq]
  obtain ⟨-, -, -, -, -, -, -, -, -, -, -, -, e0, e1⟩ := idxFacts0 t
  funext j
  show k0_pay1 (rows (V c main_v1) ⟨t.val, ht⟩) (V c main_v1) (V c main_v31) (V c main_v32) (V c main_v40) (V c main_v46) j
    = G0 (V c main_v1) (V c main_v31) (V c main_v32) (V c main_v40) (V c main_v46) (((cfg0.win 6).blk t).view.emb j)
  refine (G0_at _ _ _ _ _ ⟨t.val, ht⟩ j _ ?_ ?_).symm
  · show win0_6.index t (0 : Fin 2) * 256 + 1 * (j 0).val = 256 * t.val + (j 0).val; omega
  · show win0_6.index t (1 : Fin 2) * 128 + 1 * (j 1).val = (j 1).val; omega

/-- An index of the output array is in point t's block iff each coordinate is in the block's range on its axis. -/
theorem mem_blk0 (t : Fin cfg0.N) (i : S4096x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v59).slice (win0_6.rect t)).set ↔ _
  rw [View.set_slice_whole, Rect.mem_set_unit]
  exact Iff.rfl

/-- Every index of the output array is in some point's block: row n is in the block of point n / 256. -/
theorem cover0 (i : S4096x128.Idx) : ∃ t : Fin cfg0.N, (cfg0.win 6).flush t = true ∧ i ∈ ((cfg0.win 6).blk t).view.set := by
  have hi0 : (i 0).val < 4096 := idx2_lt0 i
  have hi1 : (i 1).val < 128 := idx2_lt1 i
  obtain ⟨t, ht⟩ : ∃ t : Fin cfg0.N, t.val = (i 0).val / 256 :=
    ⟨⟨(i 0).val / 256, by rw [show cfg0.N = 16 from N_0]; omega⟩, rfl⟩
  obtain ⟨-, -, -, -, -, -, -, -, -, -, -, -, e0, e1⟩ := idxFacts0 t
  refine ⟨t, flush0_6 t, ?_⟩
  rw [mem_blk0]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 128 ≤ (i 1).val ∧ (i 1).val < win0_6.index t (1 : Fin 2) * 128 + 128; omega

/-- The output array after region 0 is that function of the arrays the region reads. -/
theorem final0 (c : Dev nD) : (dat0 V c).arrAt 6 cfg0.N = G0 (V c main_v1) (V c main_v31) (V c main_v32) (V c main_v40) (V c main_v46) :=
  (dat0 V c).arrAt_eq_of_cover 6 (G0 (V c main_v1) (V c main_v31) (V c main_v32) (V c main_v40) (V c main_v46)) (fun t _ => flushed0_eq V c t) cover0

/-- The first result array after region 0, read at row n and column h: the payload of the block of 256 rows that
    holds row n (together with the whole key table, the two value halves and the two weight halves), at row n % 256. -/
theorem arr0_apply (c : Dev nD) (n : Fin 4096) (h : Fin 128) :
    (dat0 V c).arrAt 6 cfg0.N (ix2 n h)
      = k0_pay1 (rows (V c main_v1) ⟨n.val / 256, by have := n.isLt; omega⟩) (V c main_v1) (V c main_v31) (V c main_v32) (V c main_v40) (V c main_v46)
          (ix2 (⟨n.val % 256, by omega⟩ : Fin 256) h) := by
  rw [final0]
  exact G0_at _ _ _ _ _ _ _ _ (by show n.val = 256 * (n.val / 256) + n.val % 256; omega) rfl

/-! # pallas_call 1 -/

/-- The printed index maps of region 1, decided over its sixteen points: the row-block window and the output window
    sit at block (t, 0); the five whole-array windows at block (0, 0). -/
theorem idxFacts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Window 0's block at point t is rows 256·t … 256·t + 255 of the row table. -/
theorem iblk1_0_eq (c : Dev nD) (t : Fin cfg1.N) (t' : Fin 16) (ht : t'.val = t.val) :
    iblk1 V c 0 t = rows (V c main_v2) t' := by
  obtain ⟨e0, e1, -⟩ := idxFacts1 t
  funext y
  show V c main_v2 (((cfg1.win 0).blk t).view.emb y) = V c main_v2 (ix2 (⟨256 * t'.val + (y 0).val, _⟩ : Fin 4096) (y 1))
  congr 1
  funext a; apply Fin.ext
  match a with
  | ⟨0, _⟩ => show win1_0.index t (0 : Fin 2) * 256 + 1 * (y 0).val = 256 * t'.val + (y 0).val; omega
  | ⟨1, _⟩ => show win1_0.index t (1 : Fin 2) * 64 + 1 * (y 1).val = (y 1).val; omega

/-- Window 1 of region 1 has the constant index map (0, 0) and a block as large as its array: its block at any
    point is the array. -/
theorem iblk1_1_eq (c : Dev nD) (t : Fin cfg1.N) : iblk1 V c 1 t = (V c main_v2 : Vec F S4096x64 .bf16) := by
  obtain ⟨-, -, e0, e1, -, -, -, -, -, -, -, -, -, -⟩ := idxFacts1 t
  funext y
  show V c main_v2 (((cfg1.win 1).blk t).view.emb y) = V c main_v2 y
  congr 1
  funext a; apply Fin.ext
  match a with
  | ⟨0, _⟩ => show win1_1.index t (0 : Fin 2) * 4096 + 1 * (y 0).val = (y 0).val; omega
  | ⟨1, _⟩ => show win1_1.index t (1 : Fin 2) * 64 + 1 * (y 1).val = (y 1).val; omega

/-- Window 2 of region 1 has the constant index map (0, 0) and a block as large as its array: its block at any
    point is the array. -/
theorem iblk1_2_eq (c : Dev nD) (t : Fin cfg1.N) : iblk1 V c 2 t = (V c main_v33 : Vec F S4096x1024 .bf16) := by
  obtain ⟨-, -, -, -, e0, e1, -, -, -, -, -, -, -, -⟩ := idxFacts1 t
  funext y
  show V c main_v33 (((cfg1.win 2).blk t).view.emb y) = V c main_v33 y
  congr 1
  funext a; apply Fin.ext
  match a with
  | ⟨0, _⟩ => show win1_2.index t (0 : Fin 2) * 4096 + 1 * (y 0).val = (y 0).val; omega
  | ⟨1, _⟩ => show win1_2.index t (1 : Fin 2) * 1024 + 1 * (y 1).val = (y 1).val; omega

/-- Window 3 of region 1 has the constant index map (0, 0) and a block as large as its array: its block at any
    point is the array. -/
theorem iblk1_3_eq (c : Dev nD) (t : Fin cfg1.N) : iblk1 V c 3 t = (V c main_v34 : Vec F S4096x1024 .bf16) := by
  obtain ⟨-, -, -, -, -, -, e0, e1, -, -, -, -, -, -⟩ := idxFacts1 t
  funext y
  show V c main_v34 (((cfg1.win 3).blk t).view.emb y) = V c main_v34 y
  congr 1
  funext a; apply Fin.ext
  match a with
  | ⟨0, _⟩ => show win1_3.index t (0 : Fin 2) * 4096 + 1 * (y 0).val = (y 0).val; omega
  | ⟨1, _⟩ => show win1_3.index t (1 : Fin 2) * 1024 + 1 * (y 1).val = (y 1).val; omega

/-- Window 4 of region 1 has the constant index map (0, 0) and a block as large as its array: its block at any
    point is the array. -/
theorem iblk1_4_eq (c : Dev nD) (t : Fin cfg1.N) : iblk1 V c 4 t = (V c main_v52 : Vec F S1024x128 .bf16) := by
  obtain ⟨-, -, -, -, -, -, -, -, e0, e1, -, -, -, -⟩ := idxFacts1 t
  funext y
  show V c main_v52 (((cfg1.win 4).blk t).view.emb y) = V c main_v52 y
  congr 1
  funext a; apply Fin.ext
  match a with
  | ⟨0, _⟩ => show win1_4.index t (0 : Fin 2) * 1024 + 1 * (y 0).val = (y 0).val; omega
  | ⟨1, _⟩ => show win1_4.index t (1 : Fin 2) * 128 + 1 * (y 1).val = (y 1).val; omega

/-- Window 5 of region 1 has the constant index map (0, 0) and a block as large as its array: its block at any
    point is the array. -/
theorem iblk1_5_eq (c : Dev nD) (t : Fin cfg1.N) : iblk1 V c 5 t = (V c main_v58 : Vec F S1024x128 .bf16) := by
  obtain ⟨-, -, -, -, -, -, -, -, -, -, e0, e1, -, -⟩ := idxFacts1 t
  funext y
  show V c main_v58 (((cfg1.win 5).blk t).view.emb y) = V c main_v58 y
  congr 1
  funext a; apply Fin.ext
  match a with
  | ⟨0, _⟩ => show win1_5.index t (0 : Fin 2) * 1024 + 1 * (y 0).val = (y 0).val; omega
  | ⟨1, _⟩ => show win1_5.index t (1 : Fin 2) * 128 + 1 * (y 1).val = (y 1).val; omega

/-- What region 1's output array ends holding, as one function of the arrays the region reads: at row n the payload of
    the row block that holds n, at row n % 256 of that block. -/
def G1 (x1 : Vec F S4096x64 .bf16) (x2 x3 : Vec F S4096x1024 .bf16) (x4 x5 : Vec F S1024x128 .bf16) : Vec F S4096x128 .f32 :=
  fun i => k1_pay1 (rows x1 (rowBlock i)) x1 x2 x3 x4 x5 (rowIn i)

/-- At point t the body's payload, read at j, is that function at row 256·t + j. -/
theorem G1_at (x1 : Vec F S4096x64 .bf16) (x2 x3 : Vec F S4096x1024 .bf16) (x4 x5 : Vec F S1024x128 .bf16)
    (t : Fin 16) (j : S256x128.Idx) (i : S4096x128.Idx) (h0 : (i 0).val = 256 * t.val + (j 0).val) (h1 : (i 1).val = (j 1).val) :
    G1 x1 x2 x3 x4 x5 i = k1_pay1 (rows x1 t) x1 x2 x3 x4 x5 j := by
  unfold G1
  rw [rowBlock_eq i t j h0, rowIn_eq i t j h0 h1]

/-- What point t writes back is block t of that function. -/
theorem flushed1_eq (c : Dev nD) (t : Fin cfg1.N) :
    (dat1 V c).flushed 6 t = ((cfg1.win 6).blk t).view.read (Elt F) (G1 (V c main_v2) (V c main_v33) (V c main_v34) (V c main_v52) (V c main_v58)) := by
  show (cfg1.win 6).cut (grid1.coords t) ((dat1 V c).after 6 t) = _
  rw [after1_6]
  unfold out1
  rw [View.canon_unit_zero hz]
  simp only [View.ld_unit_zero (S := S256x64) hz, View.ld_unit_zero (S := S4096x64) hz, View.ld_unit_zero (S := S4096x1024) hz,
    View.ld_unit_zero (S := S1024x128) hz]
  have ht : t.val < 16 := lt_of_lt_of_eq t.isLt N_1
  rw [iblk1_0_eq V c t ⟨t.val, ht⟩ rfl, iblk1_1_eq, iblk1_2_eq, iblk1_3_eq, iblk1_4_eq, iblk1_5_eq]
  obtain ⟨-, -, -, -, -, -, -, -, -, -, -, -, e0, e1⟩ := idxFacts1 t
  funext j
  show k1_pay1 (rows (V c main_v2) ⟨t.val, ht⟩) (V c main_v2) (V c main_v33) (V c main_v34) (V c main_v52) (V c main_v58) j
    = G1 (V c main_v2) (V c main_v33) (V c main_v34) (V c main_v52) (V c main_v58) (((cfg1.win 6).blk t).view.emb j)
  refine (G1_at _ _ _ _ _ ⟨t.val, ht⟩ j _ ?_ ?_).symm
  · show win1_6.index t (0 : Fin 2) * 256 + 1 * (j 0).val = 256 * t.val + (j 0).val; omega
  · show win1_6.index t (1 : Fin 2) * 128 + 1 * (j 1).val = (j 1).val; omega

/-- An index of the output array is in point t's block iff each coordinate is in the block's range on its axis. -/
theorem mem_blk1 (t : Fin cfg1.N) (i : S4096x128.Idx) :
    i ∈ ((cfg1.win 6).blk t).view.set ↔ ∀ a : Fin 2, win1_6.index t a * S256x128.size a ≤ (i a).val ∧ (i a).val < win1_6.index t a * S256x128.size a + S256x128.size a := by
  show i ∈ ((View.whole main_v60).slice (win1_6.rect t)).set ↔ _
  rw [View.set_slice_whole, Rect.mem_set_unit]
  exact Iff.rfl

/-- Every index of the output array is in some point's block: row n is in the block of point n / 256. -/
theorem cover1 (i : S4096x128.Idx) : ∃ t : Fin cfg1.N, (cfg1.win 6).flush t = true ∧ i ∈ ((cfg1.win 6).blk t).view.set := by
  have hi0 : (i 0).val < 4096 := idx2_lt0 i
  have hi1 : (i 1).val < 128 := idx2_lt1 i
  obtain ⟨t, ht⟩ : ∃ t : Fin cfg1.N, t.val = (i 0).val / 256 :=
    ⟨⟨(i 0).val / 256, by rw [show cfg1.N = 16 from N_1]; omega⟩, rfl⟩
  obtain ⟨-, -, -, -, -, -, -, -, -, -, -, -, e0, e1⟩ := idxFacts1 t
  refine ⟨t, flush1_6 t, ?_⟩
  rw [mem_blk1]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 128 ≤ (i 1).val ∧ (i 1).val < win1_6.index t (1 : Fin 2) * 128 + 128; omega

/-- The output array after region 1 is that function of the arrays the region reads. -/
theorem final1 (c : Dev nD) : (dat1 V c).arrAt 6 cfg1.N = G1 (V c main_v2) (V c main_v33) (V c main_v34) (V c main_v52) (V c main_v58) :=
  (dat1 V c).arrAt_eq_of_cover 6 (G1 (V c main_v2) (V c main_v33) (V c main_v34) (V c main_v52) (V c main_v58)) (fun t _ => flushed1_eq V c t) cover1

/-- The second result array after region 1, read at row n and column h: the payload of the block of 256 rows that
    holds row n (together with the whole key table, the two value halves and the two weight halves), at row n % 256. -/
theorem arr1_apply (c : Dev nD) (n : Fin 4096) (h : Fin 128) :
    (dat1 V c).arrAt 6 cfg1.N (ix2 n h)
      = k1_pay1 (rows (V c main_v2) ⟨n.val / 256, by have := n.isLt; omega⟩) (V c main_v2) (V c main_v33) (V c main_v34) (V c main_v52) (V c main_v58)
          (ix2 (⟨n.val % 256, by omega⟩ : Fin 256) h) := by
  rw [final1]
  exact G1_at _ _ _ _ _ _ _ _ (by show n.val = 256 * (n.val / 256) + n.val % 256; omega) rfl

end Cert.KernelIdeal.Hand

end
-- ==== Proof.Spec.lean ====
/-
  The mathematics of the claim, over plain index functions into the extended reals.
  One attention-aggregation row: for a query row qr, scores s(m) = (Σ_d qr d · K m d) · c against every row m of
  the key table; p(m) = exp(s(m) − max_m s(m)); l = Σ_m p(m).
  The kernel keeps the value matrix as two halves A, B (1024 columns each) with the projection rows split alike
  (Wt, Wb), and scales by 1/l LAST:      max( (Σ_j (Σ_m p·A) Wt + Σ_j (Σ_m p·B) Wb) · (1 / l), 0 ).
  The reference normalises FIRST and uses the interleaved 2048-column matrix V and the whole W:
                                         max( Σ_j (Σ_m (p / l)·V) W, 0 ).
  They agree when every entry is a real number (then l ≥ 1 is a nonzero real and distributivity holds) and V, W
  restricted along the two column embeddings e0, e1 are A, B and Wt, Wb.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The scaled score of the query row against key row m. -/
def score (c : EReal) (qr : Fin 64 → EReal) (K : Fin 4096 → Fin 64 → EReal) (m : Fin 4096) : EReal :=
  (∑ d : Fin 64, qr d * K m d) * c

/-- The row's maximum, folded from −∞. -/
def rmax (s : Fin 4096 → EReal) : EReal := (Finset.univ : Finset (Fin 4096)).fold max ⊥ s

/-- The unnormalised softmax weight. -/
def pexp (s : Fin 4096 → EReal) (m : Fin 4096) : EReal := Ideal.exp (s m - rmax s)

/-- The row's normaliser. -/
def rsum (s : Fin 4096 → EReal) : EReal := ∑ m : Fin 4096, pexp s m

/-- The kernel's arrangement: two value halves, two weight halves, the row's 1/l applied last. -/
def kOut (c : EReal) (qr : Fin 64 → EReal) (K : Fin 4096 → Fin 64 → EReal) (A B : Fin 4096 → Fin 1024 → EReal)
    (Wt Wb : Fin 1024 → Fin 128 → EReal) (h : Fin 128) : EReal :=
  max (((∑ j : Fin 1024, (∑ m : Fin 4096, pexp (score c qr K) m * A m j) * Wt j h)
        + ∑ j : Fin 1024, (∑ m : Fin 4096, pexp (score c qr K) m * B m j) * Wb j h)
      * Ideal.div 1 (rsum (score c qr K))) 0

/-- The reference's arrangement: normalised weights, one value matrix, one weight matrix. -/
def rOut (c : EReal) (qr : Fin 64 → EReal) (K : Fin 4096 → Fin 64 → EReal) (V : Fin 4096 → Fin 2048 → EReal)
    (W : Fin 2048 → Fin 128 → EReal) (h : Fin 128) : EReal :=
  max (∑ j : Fin 2048, (∑ m : Fin 4096, Ideal.div (pexp (score c qr K) m) (rsum (score c qr K)) * V m j) * W j h) 0

/-- Column j of the first half sits at column (j / 64)·128 + j % 64 of the interleaved matrix. -/
def e0 (j : Fin 1024) : Fin 2048 := ⟨j.val / 64 * 128 + j.val % 64, by have := j.isLt; omega⟩
/-- Column j of the second half sits at column (j / 64)·128 + 64 + j % 64. -/
def e1 (j : Fin 1024) : Fin 2048 := ⟨j.val / 64 * 128 + 64 + j.val % 64, by have := j.isLt; omega⟩

/-- A rank-2 array as a function of its two coordinates. -/
def mat {a b : Nat} (x : (⟨2, ![a, b]⟩ : Shape).Idx → EReal) : Fin a → Fin b → EReal := fun i j => x (ix2 i j)

/-- A [4096, 16, 64] array with its last two axes collapsed row-major into 1024 columns. -/
def flat (G : (⟨3, ![4096, 16, 64]⟩ : Shape).Idx → EReal) : Fin 4096 → Fin 1024 → EReal :=
  fun m j => G (ix3 m (⟨j.val / 64, by have := j.isLt; omega⟩ : Fin 16) (⟨j.val % 64, by omega⟩ : Fin 64))

/-- Every entry is a real number. -/
def AllReal {ι : Type} (f : ι → EReal) : Prop := ∀ i, ∃ r : ℝ, f i = (r : EReal)

end Cert.Spec

end
-- ==== Proof.KI.Payload.lean ====
/-
  The body's arithmetic at one element, on the extended reals: the [256, 4096] scores are a matrix product with the
  transposed key table times the scale, a row's maximum and its sum are folds over the 4096 keys, the two value
  products and the two projections are sums over their contracted axes, the row's reciprocal normaliser is broadcast
  along the 128 output columns, and the changes of float format are the identity.
-/
import proofs.«416793_j57088705298647_3_alg».proof.Proof.Gen.KernelIdeal.Skeleton
import proofs.«416793_j57088705298647_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.Spec
open scoped BigOperators

/-! ## The float words the body names -/

/-- The word 0xFF800000 is −∞. -/
private theorem ofBits_neg_inf : Ideal.ofBits .f32 0xFF800000#32 = (⊥ : EReal) := by
  simp [Ideal.ofBits, Ideal.ieee]

/-- The word 0x3F800000 is 1. -/
private theorem ofBits_one : Ideal.ofBits .f32 0x3F800000#32 = (1 : EReal) := by
  simp [Ideal.ofBits, Ideal.ieee]
  rw [← EReal.coe_mul]
  norm_num

/-- The exponential of a block at an index is the exponential of the entry. -/
private theorem exp_apply {s : Shape} {φ : FTy} (a : FVec Ideal s φ) (i : s.Idx) : exp a i = Ideal.exp (a i) := rfl

/-! ## The layout operations at an index -/

/-- The transposed key table at (d, m) is the key table at (m, d). -/
private theorem transpose_keys_apply {α : Type} (x : S4096x64.Idx → α) (perm : List (Fin S4096x64.rank))
    (h : S4096x64.Transposes perm S64x4096) (hp : perm = [1, 0]) (d : Fin 64) (m : Fin 4096) :
    transpose S64x4096 perm x h (ix2 d m) = x (ix2 m d) := by
  subst hp
  exact transpose_apply [1, 0] x h (ix2 d m) (ix2 m d) (fun b => by
    match b with
    | ⟨0, _⟩ => rfl
    | ⟨1, _⟩ => rfl)

/-- A [256] vector recast as a [256, 1] column reads the vector at the row. -/
private theorem column_apply {α : Type} (x : S256.Idx → α) (h : S256.ShapeCasts S256x1) (r : Fin 256) (z : Fin 1) :
    shapeCast S256x1 x h (ix2 r z) = x (ix1 r) :=
  shapeCast_apply x h (ix2 r z) (ix1 r) (by
    rw [Shape.rowMajor_val_one, Shape.rowMajor_val_two]
    show r.val = r.val * 1 + z.val
    have := z.isLt
    omega)

/-- A [256, 1] column broadcast along 4096 columns reads the column at the row. -/
private theorem spread4096_apply {α : Type} (x : S256x1.Idx → α) (h : S256x1.Broadcasts S256x4096) (r : Fin 256) (m : Fin 4096) :
    broadcastTo S256x4096 x h (ix2 r m) = x (ix2 r (0 : Fin 1)) :=
  broadcastTo_apply x h (ix2 r m) (ix2 r (0 : Fin 1)) (fun a => by
    match a with
    | ⟨0, _⟩ => rfl
    | ⟨1, _⟩ => rfl)

/-- A [256, 1] column broadcast along 128 columns reads the column at the row. -/
private theorem spread128_apply {α : Type} (x : S256x1.Idx → α) (h : S256x1.Broadcasts S256x128) (r : Fin 256) (c : Fin 128) :
    broadcastTo S256x128 x h (ix2 r c) = x (ix2 r (0 : Fin 1)) :=
  broadcastTo_apply x h (ix2 r c) (ix2 r (0 : Fin 1)) (fun a => by
    match a with
    | ⟨0, _⟩ => rfl
    | ⟨1, _⟩ => rfl)

/-! ## The two row reductions -/

/-- The index over row r with column m inserted is (r, m). -/
private theorem lift_row (h : S256x4096.Reduces [1] S256) (r : Fin 256) (m : Fin 4096) :
    h.lift (ix1 r) m = ix2 r m :=
  funext fun a => Fin.ext (by
    match a with
    | ⟨0, _⟩ => rfl
    | ⟨1, _⟩ => rfl)

/-- The row maximum from −∞: the fold of max over the 4096 columns. -/
private theorem rowmax_apply (src : FVec Ideal S256x4096 .f32) (axes : List (Fin S256x4096.rank)) (h : S256x4096.Reduces axes S256)
    (hφ : FKind.Formats .f32) (hacc : (0xFF800000#32 : BitVec 32) = 0xFF800000#32) (hax : axes = [1]) (r : Fin 256) :
    multiReduction .maximumf axes S256 src 0xFF800000#32 h hφ hacc (ix1 r)
      = (Finset.univ : Finset (Fin 4096)).fold max ⊥ (fun m => src (ix2 r m)) := by
  subst hax
  refine (Ideal.multiReduction_maximumf_single src 0xFF800000#32 h hφ hacc (ix1 r)).trans ?_
  rw [Ideal.ofBits_def, ofBits_neg_inf]
  exact congrArg (fun f => (Finset.univ : Finset (Fin 4096)).fold max ⊥ f) (funext fun m => congrArg src (lift_row h r m))

/-- The row sum: the sum over the 4096 columns. -/
private theorem rowsum_apply (src : FVec Ideal S256x4096 .f32) (axes : List (Fin S256x4096.rank)) (h : S256x4096.Reduces axes S256)
    (hφ : FKind.Formats .f32) (hacc : (0x00000000#32 : BitVec 32) = 0x00000000#32) (hax : axes = [1]) (r : Fin 256) :
    multiReduction .add axes S256 src 0x00000000#32 h hφ hacc (ix1 r) = ∑ m : Fin 4096, src (ix2 r m) := by
  subst hax
  refine (Ideal.multiReduction_add_single src 0x00000000#32 h hφ hacc (ix1 r)).trans ?_
  exact Finset.sum_congr rfl fun m _ => congrArg src (lift_row h r m)

/-! ## The three matrix products at an index: each is the sum over its one contracted axis -/

/-! ### Scores: [256, 64] times [64, 4096] -/

private theorem lhs_scores_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
private theorem lhs_scores_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
private theorem rhs_scores_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
private theorem rhs_scores_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The product into the zero block at (r, m): the sum over the 64 shared coordinates. -/
private theorem matmul_scores_apply {φ₁ φ₂ : FTy} (a : FVec Ideal S256x64 φ₁) (b : FVec Ideal S64x4096 φ₂) (r : Fin 256) (m : Fin 4096) :
    matmul dot_S256x64_S64x4096_S256x4096_1_0_0_1_n_n none a b (constant (F := Ideal) S256x4096 .f32 0x00000000#32) (ix2 r m)
      = ∑ d : Fin 64, a (ix2 r d) * b (ix2 d m) := by
  simp only [matmul]
  rw [Ideal.matmul_constant_zero_apply, ← Equiv.sum_comp (ValueIdx.contrEquiv1 dot_S256x64_S64x4096_S256x4096_1_0_0_1_n_n 64 rfl rfl).symm]
  refine Finset.sum_congr rfl fun d _ => ?_
  have hk := ValueIdx.contrEquiv1_symm_val dot_S256x64_S64x4096_S256x4096_1_0_0_1_n_n 64 rfl rfl d
  have el : dot_S256x64_S64x4096_S256x4096_1_0_0_1_n_n.lhsIdx (ix2 r m) ((ValueIdx.contrEquiv1 dot_S256x64_S64x4096_S256x4096_1_0_0_1_n_n 64 rfl rfl).symm d) = ix2 r d := funext fun c => Fin.ext (by
    match c with
    | ⟨0, _⟩ => exact lhs_scores_0 _ _
    | ⟨1, _⟩ => exact (lhs_scores_1 _ _).trans hk)
  have er : dot_S256x64_S64x4096_S256x4096_1_0_0_1_n_n.rhsIdx (ix2 r m) ((ValueIdx.contrEquiv1 dot_S256x64_S64x4096_S256x4096_1_0_0_1_n_n 64 rfl rfl).symm d) = ix2 d m := funext fun c => Fin.ext (by
    match c with
    | ⟨0, _⟩ => exact (rhs_scores_0 _ _).trans hk
    | ⟨1, _⟩ => exact rhs_scores_1 _ _)
  rw [el, er]

/-! ### Values: [256, 4096] times [4096, 1024] -/

private theorem lhs_values_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
private theorem lhs_values_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
private theorem rhs_values_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
private theorem rhs_values_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product into the zero block at (r, j): the sum over the 4096 keys. -/
private theorem matmul_values_apply {φ₁ φ₂ : FTy} (a : FVec Ideal S256x4096 φ₁) (b : FVec Ideal S4096x1024 φ₂) (r : Fin 256) (j : Fin 1024) :
    matmul dot_S256x4096_S4096x1024_S256x1024_1_0_0_1_n_n none a b (constant (F := Ideal) S256x1024 .f32 0x00000000#32) (ix2 r j)
      = ∑ m : Fin 4096, a (ix2 r m) * b (ix2 m j) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun m _ => ?_
  have hk := ValueIdx.contrEquiv1_symm_val dot_S256x4096_S4096x1024_S256x1024_1_0_0_1_n_n 4096 rfl rfl m
  have el : dot_S256x4096_S4096x1024_S256x1024_1_0_0_1_n_n.lhsIdx (ix2 r j) ((ValueIdx.contrEquiv1 dot_S256x4096_S4096x1024_S256x1024_1_0_0_1_n_n 4096 rfl rfl).symm m) = ix2 r m := funext fun c => Fin.ext (by
    match c with
    | ⟨0, _⟩ => exact lhs_values_0 _ _
    | ⟨1, _⟩ => exact (lhs_values_1 _ _).trans hk)
  have er : dot_S256x4096_S4096x1024_S256x1024_1_0_0_1_n_n.rhsIdx (ix2 r j) ((ValueIdx.contrEquiv1 dot_S256x4096_S4096x1024_S256x1024_1_0_0_1_n_n 4096 rfl rfl).symm m) = ix2 m j := funext fun c => Fin.ext (by
    match c with
    | ⟨0, _⟩ => exact (rhs_values_0 _ _).trans hk
    | ⟨1, _⟩ => exact rhs_values_1 _ _)
  rw [el, er]

/-! ### Projection: [256, 1024] times [1024, 128] -/

private theorem lhs_proj_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
private theorem lhs_proj_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
private theorem rhs_proj_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
private theorem rhs_proj_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product into the zero block at (r, h): the sum over the 1024 value columns. -/
private theorem matmul_proj_apply {φ₁ φ₂ : FTy} (a : FVec Ideal S256x1024 φ₁) (b : FVec Ideal S1024x128 φ₂) (r : Fin 256) (h : Fin 128) :
    matmul dot_S256x1024_S1024x128_S256x128_1_0_0_1_n_n none a b (constant (F := Ideal) S256x128 .f32 0x00000000#32) (ix2 r h)
      = ∑ j : Fin 1024, a (ix2 r j) * b (ix2 j h) := by
  simp only [matmul]
  rw [Ideal.matmul_constant_zero_apply, ← Equiv.sum_comp (ValueIdx.contrEquiv1 dot_S256x1024_S1024x128_S256x128_1_0_0_1_n_n 1024 rfl rfl).symm]
  refine Finset.sum_congr rfl fun j _ => ?_
  have hk := ValueIdx.contrEquiv1_symm_val dot_S256x1024_S1024x128_S256x128_1_0_0_1_n_n 1024 rfl rfl j
  have el : dot_S256x1024_S1024x128_S256x128_1_0_0_1_n_n.lhsIdx (ix2 r h) ((ValueIdx.contrEquiv1 dot_S256x1024_S1024x128_S256x128_1_0_0_1_n_n 1024 rfl rfl).symm j) = ix2 r j := funext fun c => Fin.ext (by
    match c with
    | ⟨0, _⟩ => exact lhs_proj_0 _ _
    | ⟨1, _⟩ => exact (lhs_proj_1 _ _).trans hk)
  have er : dot_S256x1024_S1024x128_S256x128_1_0_0_1_n_n.rhsIdx (ix2 r h) ((ValueIdx.contrEquiv1 dot_S256x1024_S1024x128_S256x128_1_0_0_1_n_n 1024 rfl rfl).symm j) = ix2 j h := funext fun c => Fin.ext (by
    match c with
    | ⟨0, _⟩ => exact (rhs_proj_0 _ _).trans hk
    | ⟨1, _⟩ => exact rhs_proj_1 _ _)
  rw [el, er]

/-! ## The payload at an element

  Unfolded, the payload is the chain of the stages above; read at (r, h) each stage rewrites to its entry, and what is
  left is the specification's arrangement of row r, term for term. -/

/-- The payload of pallas_call 0 at row r and column h of its [256, 128] block is the kernel's arrangement of that row. -/
theorem pay0_apply (q : Vec Ideal S256x64 .bf16) (k : Vec Ideal S4096x64 .bf16) (v1 v2 : Vec Ideal S4096x1024 .bf16)
    (w1 w2 : Vec Ideal S1024x128 .bf16) (r : Fin 256) (h : Fin 128) :
    k0_pay1 (F := Ideal) q k v1 v2 w1 w2 (ix2 r h)
      = kOut (Ideal.ofBits .f32 0x3E000000#32) (fun d => q (ix2 r d)) (mat k) (mat v1) (mat v2) (mat w1) (mat w2) h := by
  unfold k0_pay1
  simp only [exp_apply, maximumf_apply, mulf_apply, addf_apply, subf_apply, divf_apply, broadcast_apply, truncf_apply, shapeCast_self,
    Ideal.ofBits_def, Ideal.ofBits_zero_f32, ofBits_one,
    spread128_apply, spread4096_apply, column_apply, rowsum_apply, rowmax_apply, transpose_keys_apply,
    matmul_scores_apply, matmul_values_apply, matmul_proj_apply]
  rfl

/-- The payload of pallas_call 1 at row r and column h of its [256, 128] block is the kernel's arrangement of that row. -/
theorem pay1_apply (q : Vec Ideal S256x64 .bf16) (k : Vec Ideal S4096x64 .bf16) (v1 v2 : Vec Ideal S4096x1024 .bf16)
    (w1 w2 : Vec Ideal S1024x128 .bf16) (r : Fin 256) (h : Fin 128) :
    k1_pay1 (F := Ideal) q k v1 v2 w1 w2 (ix2 r h)
      = kOut (Ideal.ofBits .f32 0x3E000000#32) (fun d => q (ix2 r d)) (mat k) (mat v1) (mat v2) (mat w1) (mat w2) h := by
  unfold k1_pay1
  simp only [exp_apply, maximumf_apply, mulf_apply, addf_apply, subf_apply, divf_apply, broadcast_apply, truncf_apply, shapeCast_self,
    Ideal.ofBits_def, Ideal.ofBits_zero_f32, ofBits_one,
    spread128_apply, spread4096_apply, column_apply, rowsum_apply, rowmax_apply, transpose_keys_apply,
    matmul_scores_apply, matmul_values_apply, matmul_proj_apply]
  rfl

end Cert.KernelIdeal.HandValue

end
-- ==== Proof.KI.Host.lean ====
/-
  What the host operations before the two regions leave in the arrays the regions' windows read, on the extended
  reals: the row tables are the arguments themselves (a change of float format is the identity); the four value halves
  are the four row gathers with their last two axes collapsed; (the four weight halves are read in the sibling module).
-/
import proofs.«416793_j57088705298647_3_alg».proof.Proof.KI.Vals
import proofs.«416793_j57088705298647_3_alg».proof.Proof.Gen.ReferenceIdeal.Read
import proofs.«416793_j57088705298647_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (ρ : Dev nD → PrngReg) (c : Dev nD)

/-! ## Two facts about plain arrays -/

/-- Collapsing the last two axes of a [4096, 16, 64] array row-major: column j comes from (j / 64, j % 64). -/
theorem shapeCast_flat (G : (⟨3, ![4096, 16, 64]⟩ : Shape).Idx → EReal)
    (h : (⟨3, ![4096, 16, 64]⟩ : Shape).ShapeCasts ⟨2, ![4096, 1024]⟩) (r : Fin 4096) (j : Fin 1024) :
    shapeCast ⟨2, ![4096, 1024]⟩ G h (ix2 r j) = flat G r j := by
  unfold flat
  refine shapeCast_apply G h _ _ ?_
  rw [Shape.rowMajor_val_three, Shape.rowMajor_val_two]
  show (r.val * 16 + j.val / 64) * 64 + j.val % 64 = r.val * 1024 + j.val
  omega

/-- The row gather of the big table (its float format narrowed, which changes nothing on the extended reals) at the first index array, negative indices wrapped by the table's height: the reference's first gather stage. -/
theorem gather_v6 (x : Vec Ideal S100000x64 .f32) (y : Vec Ideal S4096x16 .i32) :
    (Host.gather gather_S100000x64_S4096x16x1_S4096x16x64_2_0_n_n_0_2_164
          (truncf (F := Ideal) FTy.bf16 x bitsLt_bf16_f32)
          (broadcastInDim S4096x16x1 ![0, 1] bcast_S4096x16_S4096x16x1_0_1
            (select
              (cmpi CmpIPredicate.slt y
                (broadcastInDim S4096x16 ![] bcast_S_S4096x16 (constantI S_ 32 0#32)))
              (addi y
                (broadcastInDim S4096x16 ![] bcast_S_S4096x16 (constantI S_ 32 100000#32)))
              y)) : (⟨3, ![4096, 16, 64]⟩ : Shape).Idx → EReal)
      = Cert.ReferenceIdeal.Read.val_main_v6 (F := Ideal) x y := by
  unfold Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0
  rfl

/-- The same for the item table at the second index array: the reference's second gather stage. -/
theorem gather_v13 (x : Vec Ideal S4096x64 .f32) (y : Vec Ideal S4096x16 .i32) :
    (Host.gather gather_S4096x64_S4096x16x1_S4096x16x64_2_0_n_n_0_2_164
          (truncf (F := Ideal) FTy.bf16 x bitsLt_bf16_f32)
          (broadcastInDim S4096x16x1 ![0, 1] bcast_S4096x16_S4096x16x1_0_1
            (select
              (cmpi CmpIPredicate.slt y
                (broadcastInDim S4096x16 ![] bcast_S_S4096x16 (constantI S_ 32 0#32)))
              (addi y
                (broadcastInDim S4096x16 ![] bcast_S_S4096x16 (constantI S_ 32 4096#32)))
              y)) : (⟨3, ![4096, 16, 64]⟩ : Shape).Idx → EReal)
      = Cert.ReferenceIdeal.Read.val_main_v13 (F := Ideal) x y := by
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_c_1 Cert.ReferenceIdeal.Read.val_main_c_2
  rfl

/-- The big table at the third index array: the reference's third gather stage. -/
theorem gather_v20 (x : Vec Ideal S100000x64 .f32) (y : Vec Ideal S4096x16 .i32) :
    (Host.gather gather_S100000x64_S4096x16x1_S4096x16x64_2_0_n_n_0_2_164
          (truncf (F := Ideal) FTy.bf16 x bitsLt_bf16_f32)
          (broadcastInDim S4096x16x1 ![0, 1] bcast_S4096x16_S4096x16x1_0_1
            (select
              (cmpi CmpIPredicate.slt y
                (broadcastInDim S4096x16 ![] bcast_S_S4096x16 (constantI S_ 32 0#32)))
              (addi y
                (broadcastInDim S4096x16 ![] bcast_S_S4096x16 (constantI S_ 32 100000#32)))
              y)) : (⟨3, ![4096, 16, 64]⟩ : Shape).Idx → EReal)
      = Cert.ReferenceIdeal.Read.val_main_v20 (F := Ideal) x y := by
  unfold Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_c_3 Cert.ReferenceIdeal.Read.val_main_c_4
  rfl

/-- The user table at the fourth index array: the reference's fourth gather stage. -/
theorem gather_v27 (x : Vec Ideal S4096x64 .f32) (y : Vec Ideal S4096x16 .i32) :
    (Host.gather gather_S4096x64_S4096x16x1_S4096x16x64_2_0_n_n_0_2_164
          (truncf (F := Ideal) FTy.bf16 x bitsLt_bf16_f32)
          (broadcastInDim S4096x16x1 ![0, 1] bcast_S4096x16_S4096x16x1_0_1
            (select
              (cmpi CmpIPredicate.slt y
                (broadcastInDim S4096x16 ![] bcast_S_S4096x16 (constantI S_ 32 0#32)))
              (addi y
                (broadcastInDim S4096x16 ![] bcast_S_S4096x16 (constantI S_ 32 4096#32)))
              y)) : (⟨3, ![4096, 16, 64]⟩ : Shape).Idx → EReal)
      = Cert.ReferenceIdeal.Read.val_main_v27 (F := Ideal) x y := by
  unfold Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_c_5 Cert.ReferenceIdeal.Read.val_main_c_6
  rfl

/-! ## The buffers after both stretches, as whole arrays -/

theorem W2_v1_fun : (W2 m ρ c (Proc.devRef .tc main_v1) : Vec Ideal S4096x64 .bf16)
    = truncf (F := Ideal) (s := S4096x64) (φ := .f32) .bf16 (m ((c : Thread nD τ).loc main_arg1)) bitsLt_bf16_f32 := by
  dsimp only [W2, W1, main_part0_ops0, main_part1_ops0]
  after_results_simp
theorem W2_v2_fun : (W2 m ρ c (Proc.devRef .tc main_v2) : Vec Ideal S4096x64 .bf16)
    = truncf (F := Ideal) (s := S4096x64) (φ := .f32) .bf16 (m ((c : Thread nD τ).loc main_arg2)) bitsLt_bf16_f32 := by
  dsimp only [W2, W1, main_part0_ops0, main_part1_ops0]
  after_results_simp

theorem W2_v31_fun : (W2 m ρ c (Proc.devRef .tc main_v31) : Vec Ideal S4096x1024 .bf16)
    = shapeCast S4096x1024 (Cert.ReferenceIdeal.Read.val_main_v6 (F := Ideal) (m ((c : Thread nD τ).loc main_arg0)) (m ((c : Thread nD τ).loc main_arg5)))
        shapeCasts_S4096x16x64_S4096x1024 := by
  dsimp only [W2, W1, main_part0_ops0, main_part1_ops0]
  after_results_simp
  rw [gather_v6]
  rfl

theorem W2_v32_fun : (W2 m ρ c (Proc.devRef .tc main_v32) : Vec Ideal S4096x1024 .bf16)
    = shapeCast S4096x1024 (Cert.ReferenceIdeal.Read.val_main_v13 (F := Ideal) (m ((c : Thread nD τ).loc main_arg2)) (m ((c : Thread nD τ).loc main_arg6)))
        shapeCasts_S4096x16x64_S4096x1024 := by
  dsimp only [W2, W1, main_part0_ops0, main_part1_ops0]
  after_results_simp
  rw [gather_v13]
  rfl

theorem W2_v33_fun : (W2 m ρ c (Proc.devRef .tc main_v33) : Vec Ideal S4096x1024 .bf16)
    = shapeCast S4096x1024 (Cert.ReferenceIdeal.Read.val_main_v20 (F := Ideal) (m ((c : Thread nD τ).loc main_arg0)) (m ((c : Thread nD τ).loc main_arg7)))
        shapeCasts_S4096x16x64_S4096x1024 := by
  dsimp only [W2, W1, main_part0_ops0, main_part1_ops0]
  after_results_simp
  rw [gather_v20]
  rfl

theorem W2_v34_fun : (W2 m ρ c (Proc.devRef .tc main_v34) : Vec Ideal S4096x1024 .bf16)
    = shapeCast S4096x1024 (Cert.ReferenceIdeal.Read.val_main_v27 (F := Ideal) (m ((c : Thread nD τ).loc main_arg1)) (m ((c : Thread nD τ).loc main_arg8)))
        shapeCasts_S4096x16x64_S4096x1024 := by
  dsimp only [W2, W1, main_part0_ops0, main_part1_ops0]
  after_results_simp
  rw [gather_v27]
  rfl

/-! ## Read at an index -/

/-- The user row table as region 0 finds it is the argument. -/
theorem V2_v1 (i : S4096x64.Idx) : (V2 m ρ c main_v1 : Vec Ideal S4096x64 .bf16) i = m ((c : Thread nD τ).loc main_arg1) i :=
  (congrFun (W2_v1_fun m ρ c) i).trans (truncf_apply _ _ i)
/-- The item row table likewise. -/
theorem V2_v2 (i : S4096x64.Idx) : (V2 m ρ c main_v2 : Vec Ideal S4096x64 .bf16) i = m ((c : Thread nD τ).loc main_arg2) i :=
  (congrFun (W2_v2_fun m ρ c) i).trans (truncf_apply _ _ i)

/-- The four value halves: the four row gathers, last two axes collapsed. -/
theorem V2_v31 (r : Fin 4096) (j : Fin 1024) : (V2 m ρ c main_v31 : Vec Ideal S4096x1024 .bf16) (ix2 r j)
    = flat (Cert.ReferenceIdeal.Read.val_main_v6 (F := Ideal) (m ((c : Thread nD τ).loc main_arg0)) (m ((c : Thread nD τ).loc main_arg5))) r j :=
  (congrFun (W2_v31_fun m ρ c) (ix2 r j)).trans (shapeCast_flat _ _ r j)
theorem V2_v32 (r : Fin 4096) (j : Fin 1024) : (V2 m ρ c main_v32 : Vec Ideal S4096x1024 .bf16) (ix2 r j)
    = flat (Cert.ReferenceIdeal.Read.val_main_v13 (F := Ideal) (m ((c : Thread nD τ).loc main_arg2)) (m ((c : Thread nD τ).loc main_arg6))) r j :=
  (congrFun (W2_v32_fun m ρ c) (ix2 r j)).trans (shapeCast_flat _ _ r j)
theorem V2_v33 (r : Fin 4096) (j : Fin 1024) : (V2 m ρ c main_v33 : Vec Ideal S4096x1024 .bf16) (ix2 r j)
    = flat (Cert.ReferenceIdeal.Read.val_main_v20 (F := Ideal) (m ((c : Thread nD τ).loc main_arg0)) (m ((c : Thread nD τ).loc main_arg7))) r j :=
  (congrFun (W2_v33_fun m ρ c) (ix2 r j)).trans (shapeCast_flat _ _ r j)
theorem V2_v34 (r : Fin 4096) (j : Fin 1024) : (V2 m ρ c main_v34 : Vec Ideal S4096x1024 .bf16) (ix2 r j)
    = flat (Cert.ReferenceIdeal.Read.val_main_v27 (F := Ideal) (m ((c : Thread nD τ).loc main_arg1)) (m ((c : Thread nD τ).loc main_arg8))) r j :=
  (congrFun (W2_v34_fun m ρ c) (ix2 r j)).trans (shapeCast_flat _ _ r j)

end Cert.KernelIdeal.HandValue

end
-- ==== Proof.KI.HostW.lean ====
/-
  The four weight halves as the regions find them: the host gathers rows of the two weight matrices at two constant
  tables of 1024 row indices, which list e0 j = (j / 64)·128 + j % 64 and e1 j = (j / 64)·128 + 64 + j % 64 (all below
  2048, so the gather's clamp does nothing and the negative-index branch is never taken), then changes the float format.
-/
import proofs.«416793_j57088705298647_3_alg».proof.Proof.KI.Vals
import proofs.«416793_j57088705298647_3_alg».proof.Proof.Gen.ReferenceIdeal.Read
import proofs.«416793_j57088705298647_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec

/-- The dimension numbers of the host's row gather: whole rows of a [2048, 128] operand at 1024 start indices. -/
abbrev rowGatherDims := gather_S2048x128_S1024x1_S1024x128_1_0_n_n_0_1_1128

/-- A 32-bit word holding a natural below 2048 reads back, as a signed integer clamped to [0, 2047], as that natural. -/
theorem clamp_word_lt_2048 (v : Nat) (hv : v < 2048) : min (BitVec.ofNat 32 v).toInt.toNat (2048 - 1) = v := by
  have h1 : (BitVec.ofNat 32 v).toNat = v := by
    rw [BitVec.toNat_ofNat]; exact Nat.mod_eq_of_lt (by omega)
  have h2 : (BitVec.ofNat 32 v).toInt = (v : Int) := by
    rw [BitVec.toInt_eq_toNat_cond, h1, if_pos (by omega)]
  rw [h2, Int.toNat_natCast]; omega

/-- The row gather read at (j, h): when row j's start index is the word of v < 2048, the operand at (v, h).
    Axis 0 is the clamped start index (no batching, collapsed); axis 1 is the offset coordinate h. -/
theorem rowGather_apply {α : Type} (x : S2048x128.Idx → α) (idx : IVec S1024x1 32) (j : Fin 1024) (h : Fin 128) (v : Fin 2048)
    (hv : idx (ix2 j (0 : Fin 1)) = BitVec.ofNat 32 v.val) :
    Host.gather rowGatherDims x idx (ix2 j h) = x (ix2 v h) := by
  unfold Host.gather
  congr 1
  funext a
  refine Fin.ext ?_
  match a with
  | ⟨0, _⟩ =>
    show rowGatherDims.start (ix2 j h) idx 0 + rowGatherDims.batchCoord (ix2 j h) 0 + rowGatherDims.offCoord (ix2 j h) 0 = v.val
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ rowGatherDims.startIndexMap from List.mem_singleton.mpr rfl)]
    have hsi : rowGatherDims.siIdx (ix2 j h) ⟨List.idxOf (0 : Fin 2) rowGatherDims.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, hv]
    exact clamp_word_lt_2048 v.val v.isLt
  | ⟨1, _⟩ =>
    show rowGatherDims.start (ix2 j h) idx 1 + rowGatherDims.batchCoord (ix2 j h) 1 + rowGatherDims.offCoord (ix2 j h) 1 = h.val
    rw [GatherDims.batchCoord_eq_zero _ _ _ List.not_mem_nil]
    unfold GatherDims.start
    rw [dif_neg (by decide)]
    simp only [Nat.add_zero, Nat.zero_add]
    rfl

/-- What the host computes from a weight matrix x and a table of 1024 words: the table, with 2048 added where an all-false
    mask says "negative", as a column of start indices; the rows of x gathered there; the float format changed. -/
def hostRows (x : FVec Ideal S2048x128 .f32) (tab : Fin 1024 → BitVec 32) : FVec Ideal S1024x128 .bf16 :=
  truncf .bf16 (Host.gather rowGatherDims x (broadcastInDim S1024x1 ![0] bcast_S1024_S1024x1_0
    (select (constantI S1024 1 0#1)
      (addi (fun i => tab (S1024.rowMajor i)) (broadcastInDim S1024 ![] bcast_S_S1024 (constantI S_ 32 2048#32)))
      fun i => tab (S1024.rowMajor i)))) bitsLt_bf16_f32

/-- Read at (j, h): row e j of x, when the table lists the words of e j < 2048. The mask is all false, so the start
    index of row j is the table's word j; the format change is the identity on extended reals. -/
theorem hostRows_apply (x : FVec Ideal S2048x128 .f32) (tab : Fin 1024 → BitVec 32) (e : Fin 1024 → Fin 2048)
    (htab : ∀ j, tab j = BitVec.ofNat 32 (e j).val) (j : Fin 1024) (h : Fin 128) :
    hostRows x tab (ix2 j h) = x (ix2 (e j) h) := by
  unfold hostRows
  rw [truncf_apply]
  refine rowGather_apply x _ j h (e j) ?_
  rw [broadcastInDim_apply (![0]) bcast_S1024_S1024x1_0 _ (ix2 j (0 : Fin 1)) (ix1 j)
    (fun a => match a with | ⟨0, _⟩ => rfl)]
  rw [select_apply]
  show Scalar.select 0#1 _ (tab (S1024.rowMajor (ix1 j))) = _
  rw [select_zero]
  have hj : (S1024.rowMajor (ix1 j) : Fin 1024) = j := Fin.ext (by rw [Shape.rowMajor_val_one])
  rw [hj, htab]

/-- The first table lists e0: word j is (j / 64)·128 + j % 64. -/
theorem lit0_lists_e0 : ∀ j : Fin 1024, lit0 j = BitVec.ofNat 32 (e0 j).val := by
  show ∀ j : Fin 1024, lit0 j = BitVec.ofNat 32 (j.val / 64 * 128 + j.val % 64)
  decide +kernel
/-- The second table lists e1: word j is (j / 64)·128 + 64 + j % 64. -/
theorem lit1_lists_e1 : ∀ j : Fin 1024, lit1 j = BitVec.ofNat 32 (e1 j).val := by
  show ∀ j : Fin 1024, lit1 j = BitVec.ofNat 32 (j.val / 64 * 128 + 64 + j.val % 64)
  decide +kernel

/-- The four buffers after both stretches of host operations, from any starting contents V: each operation's result
    read at its own buffer, every other buffer as it was. -/
theorem hostW_after_v40 (V : Valuation τ sig (Elt Ideal)) :
    (StableHlo.after main_part1_ops0 (StableHlo.after main_part0_ops0 V) (Proc.devRef .tc main_v40) : FVec Ideal S1024x128 .bf16)
      = hostRows (V (Proc.devRef .tc main_arg3)) lit0 := by
  after_results_simp
  rfl
theorem hostW_after_v46 (V : Valuation τ sig (Elt Ideal)) :
    (StableHlo.after main_part1_ops0 (StableHlo.after main_part0_ops0 V) (Proc.devRef .tc main_v46) : FVec Ideal S1024x128 .bf16)
      = hostRows (V (Proc.devRef .tc main_arg3)) lit1 := by
  after_results_simp
  rfl
theorem hostW_after_v52 (V : Valuation τ sig (Elt Ideal)) :
    (StableHlo.after main_part1_ops0 (StableHlo.after main_part0_ops0 V) (Proc.devRef .tc main_v52) : FVec Ideal S1024x128 .bf16)
      = hostRows (V (Proc.devRef .tc main_arg4)) lit0 := by
  after_results_simp
  rfl
theorem hostW_after_v58 (V : Valuation τ sig (Elt Ideal)) :
    (StableHlo.after main_part1_ops0 (StableHlo.after main_part0_ops0 V) (Proc.devRef .tc main_v58) : FVec Ideal S1024x128 .bf16)
      = hostRows (V (Proc.devRef .tc main_arg4)) lit1 := by
  after_results_simp
  rfl

variable (m : (ℓ : Loc nD τ sig) → Buf (Elt Ideal) ℓ) (ρ : Dev nD → PrngReg) (c : Dev nD)

/-- The four weight halves: rows e0 j and e1 j of the two weight matrices. -/
theorem V2_v40 (j : Fin 1024) (h : Fin 128) : (V2 m ρ c main_v40 : Vec Ideal S1024x128 .bf16) (ix2 j h) = m ((c : Thread nD τ).loc main_arg3) (ix2 (e0 j) h) :=
  (congrFun (hostW_after_v40 (W0 m ρ c)) (ix2 j h)).trans (hostRows_apply _ lit0 e0 lit0_lists_e0 j h)
theorem V2_v46 (j : Fin 1024) (h : Fin 128) : (V2 m ρ c main_v46 : Vec Ideal S1024x128 .bf16) (ix2 j h) = m ((c : Thread nD τ).loc main_arg3) (ix2 (e1 j) h) :=
  (congrFun (hostW_after_v46 (W0 m ρ c)) (ix2 j h)).trans (hostRows_apply _ lit1 e1 lit1_lists_e1 j h)
theorem V2_v52 (j : Fin 1024) (h : Fin 128) : (V2 m ρ c main_v52 : Vec Ideal S1024x128 .bf16) (ix2 j h) = m ((c : Thread nD τ).loc main_arg4) (ix2 (e0 j) h) :=
  (congrFun (hostW_after_v52 (W0 m ρ c)) (ix2 j h)).trans (hostRows_apply _ lit0 e0 lit0_lists_e0 j h)
theorem V2_v58 (j : Fin 1024) (h : Fin 128) : (V2 m ρ c main_v58 : Vec Ideal S1024x128 .bf16) (ix2 j h) = m ((c : Thread nD τ).loc main_arg4) (ix2 (e1 j) h) :=
  (congrFun (hostW_after_v58 (W0 m ρ c)) (ix2 j h)).trans (hostRows_apply _ lit1 e1 lit1_lists_e1 j h)

end Cert.KernelIdeal.HandValue

end
-- ==== Proof.KI.Value.lean ====
/-
  The kernel's two results read at an index, on the extended reals: the block that holds row n, the body's arithmetic
  on it, and what the host operations left in the regions' arrays, put together: each result element is the kernel's
  arrangement (Spec.kOut) of a row of the row table over the argument arrays.
-/
import proofs.«416793_j57088705298647_3_alg».proof.Proof.KI.Blocks
import proofs.«416793_j57088705298647_3_alg».proof.Proof.KI.Payload
import proofs.«416793_j57088705298647_3_alg».proof.Proof.KI.Host
import proofs.«416793_j57088705298647_3_alg».proof.Proof.KI.HostW
import proofs.«416793_j57088705298647_3_alg».proof.Proof.KI.Args

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (ρ : Dev nD → PrngReg) (c : Dev nD)

/-- Result 0 at (n, h): the kernel's arrangement of row n of the user table. -/
theorem res0_apply (n : Fin 4096) (h : Fin 128) :
    ((dat0 (V2 m ρ) c).arrAt 6 cfg0.N : Vec Ideal S4096x128 .f32) (ix2 n h)
      = kOut (Ideal.ofBits .f32 0x3E000000#32) (mat (m ((c : Thread nD τ).loc main_arg1)) n) (mat (m ((c : Thread nD τ).loc main_arg1)))
          (flat (Cert.ReferenceIdeal.Read.val_main_v6 (F := Ideal) (m ((c : Thread nD τ).loc main_arg0)) (m ((c : Thread nD τ).loc main_arg5))))
          (flat (Cert.ReferenceIdeal.Read.val_main_v13 (F := Ideal) (m ((c : Thread nD τ).loc main_arg2)) (m ((c : Thread nD τ).loc main_arg6))))
          (fun j h => m ((c : Thread nD τ).loc main_arg3) (ix2 (e0 j) h)) (fun j h => m ((c : Thread nD τ).loc main_arg3) (ix2 (e1 j) h)) h := by
  have hq : (fun d : Fin 64 => (rows (V2 m ρ c main_v1) ⟨n.val / 256, by have := n.isLt; omega⟩ : Vec Ideal S256x64 .bf16)
        (ix2 (⟨n.val % 256, by omega⟩ : Fin 256) d)) = mat (m ((c : Thread nD τ).loc main_arg1)) n := by
    funext d
    show (V2 m ρ c main_v1 : Vec Ideal S4096x64 .bf16) (ix2 _ d) = m ((c : Thread nD τ).loc main_arg1) (ix2 n d)
    rw [V2_v1 m ρ c]
    congr 1
    exact congrArg (fun a => ix2 a d) (Fin.ext (by show 256 * (n.val / 256) + n.val % 256 = n.val; omega))
  have hk : mat (V2 m ρ c main_v1 : Vec Ideal S4096x64 .bf16) = mat (m ((c : Thread nD τ).loc main_arg1)) := by
    funext r d; exact V2_v1 m ρ c _
  have h2 : mat (V2 m ρ c main_v31 : Vec Ideal S4096x1024 .bf16) = flat (Cert.ReferenceIdeal.Read.val_main_v6 (F := Ideal) (m ((c : Thread nD τ).loc main_arg0)) (m ((c : Thread nD τ).loc main_arg5))) := by
    funext r j; exact V2_v31 m ρ c r j
  have h3 : mat (V2 m ρ c main_v32 : Vec Ideal S4096x1024 .bf16) = flat (Cert.ReferenceIdeal.Read.val_main_v13 (F := Ideal) (m ((c : Thread nD τ).loc main_arg2)) (m ((c : Thread nD τ).loc main_arg6))) := by
    funext r j; exact V2_v32 m ρ c r j
  have h4 : mat (V2 m ρ c main_v40 : Vec Ideal S1024x128 .bf16) = fun j h => m ((c : Thread nD τ).loc main_arg3) (ix2 (e0 j) h) := by
    funext j h; exact V2_v40 m ρ c j h
  have h5 : mat (V2 m ρ c main_v46 : Vec Ideal S1024x128 .bf16) = fun j h => m ((c : Thread nD τ).loc main_arg3) (ix2 (e1 j) h) := by
    funext j h; exact V2_v46 m ρ c j h
  rw [arr0_apply (V2 m ρ) c n h, pay0_apply, hq, hk, h2, h3, h4, h5]

/-- Result 1 at (n, h): the kernel's arrangement of row n of the item table. -/
theorem res1_apply (n : Fin 4096) (h : Fin 128) :
    ((dat1 (V3 m ρ) c).arrAt 6 cfg1.N : Vec Ideal S4096x128 .f32) (ix2 n h)
      = kOut (Ideal.ofBits .f32 0x3E000000#32) (mat (m ((c : Thread nD τ).loc main_arg2)) n) (mat (m ((c : Thread nD τ).loc main_arg2)))
          (flat (Cert.ReferenceIdeal.Read.val_main_v20 (F := Ideal) (m ((c : Thread nD τ).loc main_arg0)) (m ((c : Thread nD τ).loc main_arg7))))
          (flat (Cert.ReferenceIdeal.Read.val_main_v27 (F := Ideal) (m ((c : Thread nD τ).loc main_arg1)) (m ((c : Thread nD τ).loc main_arg8))))
          (fun j h => m ((c : Thread nD τ).loc main_arg4) (ix2 (e0 j) h)) (fun j h => m ((c : Thread nD τ).loc main_arg4) (ix2 (e1 j) h)) h := by
  have hq : (fun d : Fin 64 => (rows (V3 m ρ c main_v2) ⟨n.val / 256, by have := n.isLt; omega⟩ : Vec Ideal S256x64 .bf16)
        (ix2 (⟨n.val % 256, by omega⟩ : Fin 256) d)) = mat (m ((c : Thread nD τ).loc main_arg2)) n := by
    funext d
    show (V3 m ρ c main_v2 : Vec Ideal S4096x64 .bf16) (ix2 _ d) = m ((c : Thread nD τ).loc main_arg2) (ix2 n d)
    rw [V3_of_ne m ρ c main_v2 (by decide), V2_v2 m ρ c]
    congr 1
    exact congrArg (fun a => ix2 a d) (Fin.ext (by show 256 * (n.val / 256) + n.val % 256 = n.val; omega))
  have hk : mat (V3 m ρ c main_v2 : Vec Ideal S4096x64 .bf16) = mat (m ((c : Thread nD τ).loc main_arg2)) := by
    funext r d; rw [V3_of_ne m ρ c main_v2 (by decide)]; exact V2_v2 m ρ c _
  have h2 : mat (V3 m ρ c main_v33 : Vec Ideal S4096x1024 .bf16) = flat (Cert.ReferenceIdeal.Read.val_main_v20 (F := Ideal) (m ((c : Thread nD τ).loc main_arg0)) (m ((c : Thread nD τ).loc main_arg7))) := by
    funext r j; rw [V3_of_ne m ρ c main_v33 (by decide)]; exact V2_v33 m ρ c r j
  have h3 : mat (V3 m ρ c main_v34 : Vec Ideal S4096x1024 .bf16) = flat (Cert.ReferenceIdeal.Read.val_main_v27 (F := Ideal) (m ((c : Thread nD τ).loc main_arg1)) (m ((c : Thread nD τ).loc main_arg8))) := by
    funext r j; rw [V3_of_ne m ρ c main_v34 (by decide)]; exact V2_v34 m ρ c r j
  have h4 : mat (V3 m ρ c main_v52 : Vec Ideal S1024x128 .bf16) = fun j h => m ((c : Thread nD τ).loc main_arg4) (ix2 (e0 j) h) := by
    funext j h; rw [V3_of_ne m ρ c main_v52 (by decide)]; exact V2_v52 m ρ c j h
  have h5 : mat (V3 m ρ c main_v58 : Vec Ideal S1024x128 .bf16) = fun j h => m ((c : Thread nD τ).loc main_arg4) (ix2 (e1 j) h) := by
    funext j h; rw [V3_of_ne m ρ c main_v58 (by decide)]; exact V2_v58 m ρ c j h
  rw [arr1_apply (V3 m ρ) c n h, pay1_apply, hq, hk, h2, h3, h4, h5]

end Cert.KernelIdeal.HandValue

end
-- ==== Proof.Algebra.lean ====
/-
  The law that joins the two arrangements: over real entries the kernel's row (1/l applied after the two projections of
  the two value halves) is the reference's row (weights normalised first, one interleaved value matrix).
-/
import proofs.«416793_j57088705298647_3_alg».proof.Proof.Spec
import Mathlib.Data.Finset.Fold
import Mathlib.Algebra.BigOperators.Fin
import Mathlib.Analysis.SpecialFunctions.Sqrt

noncomputable section

namespace Cert.Spec

open Idealize.ShloMosaic
open scoped BigOperators

/-! ## The literal words -/

/-- The word of 1.0. -/
theorem one_val : Ideal.ofBits .f32 0x3F800000#32 = ((1 : ℝ) : EReal) := by
  simp [Ideal.ofBits, Ideal.ieee, -EReal.coe_mul]; norm_num

/-- The word of 64.0. -/
theorem sixtyfour_val : Ideal.ofBits .f32 0x42800000#32 = ((64 : ℝ) : EReal) := by
  simp [Ideal.ofBits, Ideal.ieee, -EReal.coe_mul]; norm_num

/-- The kernel's scale literal is the real 1/8. -/
theorem scale_val : Ideal.ofBits .f32 0x3E000000#32 = ((1 / 8 : ℝ) : EReal) := by
  simp [Ideal.ofBits, Ideal.ieee, -EReal.coe_mul]; norm_num

/-- The reference's scale 1 / sqrt 64, computed on the extended reals, is the kernel's literal. -/
theorem ref_scale : Ideal.div (Ideal.ofBits .f32 0x3F800000#32) (Ideal.sqrt (Ideal.ofBits .f32 0x42800000#32))
    = Ideal.ofBits .f32 0x3E000000#32 := by
  have h8 : Real.sqrt 64 = 8 := by
    rw [show (64 : ℝ) = 8 ^ 2 by norm_num]; exact Real.sqrt_sq (by norm_num)
  rw [one_val, sixtyfour_val, scale_val, Ideal.sqrt_coe, if_neg (by norm_num), h8,
    Ideal.div_coe (by norm_num : (8 : ℝ) ≠ 0), ← EReal.coe_mul, one_mul]

/-! ## Sums and maxima of real numbers inside the extended reals -/

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, folded from −∞, of a finite family of real numbers is −∞ or a real number, -/
theorem fold_max_coe {ι : Type} (s : Finset ι) (f : ι → ℝ) :
    s.fold max ⊥ (fun i => ((f i : ℝ) : EReal)) = ⊥ ∨ ∃ x : ℝ, s.fold max ⊥ (fun i => ((f i : ℝ) : EReal)) = (x : EReal) := by
  classical
  induction s using Finset.induction_on with
  | empty => left; rfl
  | insert a s ha ih =>
    right
    rw [Finset.fold_insert ha]
    rcases ih with h | ⟨x, h⟩
    · rw [h]; exact ⟨f a, max_eq_left bot_le⟩
    · rw [h]; exact ⟨max (f a) x, (EReal.coe_strictMono.monotone.map_max).symm⟩

/-- and over the 4096 rows, which are not none, a real number. -/
theorem rmax_coe (f : Fin 4096 → ℝ) : ∃ x : ℝ, rmax (fun m => ((f m : ℝ) : EReal)) = (x : EReal) := by
  rcases fold_max_coe Finset.univ f with h | h
  · exfalso
    have h0 : ((f 0 : ℝ) : EReal) ≤ (Finset.univ : Finset (Fin 4096)).fold max ⊥ (fun i => ((f i : ℝ) : EReal)) :=
      (Finset.le_fold_max _).mpr (.inr ⟨0, Finset.mem_univ _, le_refl _⟩)
    rw [h] at h0
    exact EReal.coe_ne_bot _ (le_bot_iff.mp h0)
  · exact h

/-! ## The pieces of a row over real entries -/

/-- A score of real entries is a real number. -/
theorem score_coe (r : ℝ) (q : Fin 64 → ℝ) (K : Fin 4096 → Fin 64 → ℝ) :
    score (r : EReal) (fun d => ((q d : ℝ) : EReal)) (fun m d => ((K m d : ℝ) : EReal))
      = fun m => (((∑ d : Fin 64, q d * K m d) * r : ℝ) : EReal) := by
  funext m
  unfold score
  simp only [← EReal.coe_mul, coe_sum]

/-- Over real scores with maximum x the unnormalised weight is exp (s m − x), -/
theorem pexp_coe (f : Fin 4096 → ℝ) (x : ℝ) (hx : rmax (fun m => ((f m : ℝ) : EReal)) = (x : EReal)) (m : Fin 4096) :
    pexp (fun m => ((f m : ℝ) : EReal)) m = ((Real.exp (f m - x) : ℝ) : EReal) := by
  unfold pexp
  rw [hx, ← EReal.coe_sub, Ideal.exp_coe]

/-- and the normaliser is their real sum, -/
theorem rsum_coe (f : Fin 4096 → ℝ) (x : ℝ) (hx : rmax (fun m => ((f m : ℝ) : EReal)) = (x : EReal)) :
    rsum (fun m => ((f m : ℝ) : EReal)) = ((∑ m : Fin 4096, Real.exp (f m - x) : ℝ) : EReal) := by
  unfold rsum
  simp only [pexp_coe f x hx, coe_sum]

/-- which is positive. -/
theorem rsum_pos (f : Fin 4096 → ℝ) (x : ℝ) : 0 < ∑ m : Fin 4096, Real.exp (f m - x) :=
  Finset.sum_pos (fun m _ => Real.exp_pos _) ⟨0, Finset.mem_univ _⟩

/-! ## The two column embeddings split the 2048 columns -/

/-- Back from an interleaved column to its half and its column there: column j is in the first half's range iff
    j % 128 < 64. -/
def colInv (j : Fin 2048) : Fin 1024 ⊕ Fin 1024 :=
  if h : j.val % 128 < 64 then Sum.inl ⟨j.val / 128 * 64 + j.val % 128, by have := j.isLt; omega⟩
  else Sum.inr ⟨j.val / 128 * 64 + (j.val % 128 - 64), by have := j.isLt; omega⟩

theorem colInv_e0 (j : Fin 1024) : colInv (e0 j) = Sum.inl j := by
  have hj := j.isLt
  have h : (e0 j).val % 128 < 64 := by
    show (j.val / 64 * 128 + j.val % 64) % 128 < 64; omega
  unfold colInv
  rw [dif_pos h]
  congr 1; apply Fin.ext
  show (j.val / 64 * 128 + j.val % 64) / 128 * 64 + (j.val / 64 * 128 + j.val % 64) % 128 = j.val; omega

theorem colInv_e1 (j : Fin 1024) : colInv (e1 j) = Sum.inr j := by
  have hj := j.isLt
  have h : ¬ (e1 j).val % 128 < 64 := by
    show ¬ (j.val / 64 * 128 + 64 + j.val % 64) % 128 < 64; omega
  unfold colInv
  rw [dif_neg h]
  congr 1; apply Fin.ext
  show (j.val / 64 * 128 + 64 + j.val % 64) / 128 * 64 + ((j.val / 64 * 128 + 64 + j.val % 64) % 128 - 64) = j.val; omega

theorem elim_colInv (j : Fin 2048) : Sum.elim e0 e1 (colInv j) = j := by
  have hj := j.isLt
  unfold colInv
  by_cases h : j.val % 128 < 64
  · rw [dif_pos h]
    apply Fin.ext
    show (j.val / 128 * 64 + j.val % 128) / 64 * 128 + (j.val / 128 * 64 + j.val % 128) % 64 = j.val; omega
  · rw [dif_neg h]
    apply Fin.ext
    show (j.val / 128 * 64 + (j.val % 128 - 64)) / 64 * 128 + 64 + (j.val / 128 * 64 + (j.val % 128 - 64)) % 64 = j.val; omega

/-- The 2048 interleaved columns are the 1024 of the first half and the 1024 of the second. -/
def colEquiv : Fin 1024 ⊕ Fin 1024 ≃ Fin 2048 where
  toFun := Sum.elim e0 e1
  invFun := colInv
  left_inv x := by
    rcases x with j | j
    · exact colInv_e0 j
    · exact colInv_e1 j
  right_inv := elim_colInv

/-- A sum over the 2048 columns is the sum over the first half's columns plus the sum over the second half's. -/
theorem sum_cols {M : Type} [AddCommMonoid M] (g : Fin 2048 → M) :
    ∑ j : Fin 2048, g j = ∑ j : Fin 1024, g (e0 j) + ∑ j : Fin 1024, g (e1 j) := by
  rw [← Equiv.sum_comp colEquiv g, Fintype.sum_sum_type]
  rfl

/-! ## The identity over the reals -/

/-- Scaling by u after the two projections is scaling the weights first. -/
theorem real_law (p : Fin 4096 → ℝ) (a b : Fin 4096 → Fin 1024 → ℝ) (w0 w1 : Fin 1024 → ℝ) (u : ℝ) :
    ((∑ j : Fin 1024, (∑ m : Fin 4096, p m * a m j) * w0 j) + ∑ j : Fin 1024, (∑ m : Fin 4096, p m * b m j) * w1 j) * u
      = (∑ j : Fin 1024, (∑ m : Fin 4096, p m * u * a m j) * w0 j) + ∑ j : Fin 1024, (∑ m : Fin 4096, p m * u * b m j) * w1 j := by
  simp only [add_mul, Finset.sum_mul]
  congr 1 <;> refine Finset.sum_congr rfl fun j _ => Finset.sum_congr rfl fun m _ => ?_ <;> ring

/-- The law over real entries, the interleaved matrix given on the two column ranges. -/
theorem law_real (r : ℝ) (q : Fin 64 → ℝ) (K : Fin 4096 → Fin 64 → ℝ) (A B : Fin 4096 → Fin 1024 → ℝ)
    (V : Fin 4096 → Fin 2048 → EReal) (W : Fin 2048 → Fin 128 → ℝ)
    (hVA : ∀ m j, V m (e0 j) = ((A m j : ℝ) : EReal)) (hVB : ∀ m j, V m (e1 j) = ((B m j : ℝ) : EReal)) (h : Fin 128) :
    kOut (r : EReal) (fun d => ((q d : ℝ) : EReal)) (fun m d => ((K m d : ℝ) : EReal))
        (fun m j => ((A m j : ℝ) : EReal)) (fun m j => ((B m j : ℝ) : EReal))
        (fun j h => ((W (e0 j) h : ℝ) : EReal)) (fun j h => ((W (e1 j) h : ℝ) : EReal)) h
      = rOut (r : EReal) (fun d => ((q d : ℝ) : EReal)) (fun m d => ((K m d : ℝ) : EReal)) V
        (fun j h => ((W j h : ℝ) : EReal)) h := by
  unfold kOut rOut
  rw [score_coe r q K]
  obtain ⟨x, hx⟩ := rmax_coe (fun m => (∑ d : Fin 64, q d * K m d) * r)
  have hl0 : (∑ m : Fin 4096, Real.exp ((∑ d : Fin 64, q d * K m d) * r - x)) ≠ 0 := (rsum_pos _ x).ne'
  rw [sum_cols]
  simp only [pexp_coe _ x hx, rsum_coe _ x hx, hVA, hVB, Ideal.div_coe hl0, one_mul, ← EReal.coe_mul, coe_sum, ← EReal.coe_add]
  rw [real_law]

/-- THE LAW. -/
theorem kOut_eq_rOut (c : EReal) (qr : Fin 64 → EReal) (K : Fin 4096 → Fin 64 → EReal)
    (A B : Fin 4096 → Fin 1024 → EReal) (V : Fin 4096 → Fin 2048 → EReal) (W : Fin 2048 → Fin 128 → EReal)
    (Wt Wb : Fin 1024 → Fin 128 → EReal)
    (hc : ∃ r : ℝ, c = (r : EReal)) (hq : AllReal qr) (hK : ∀ m, AllReal (K m))
    (hA : ∀ m, AllReal (A m)) (hB : ∀ m, AllReal (B m)) (hW : ∀ j, AllReal (W j))
    (hVA : ∀ m j, V m (e0 j) = A m j) (hVB : ∀ m j, V m (e1 j) = B m j)
    (hWt : ∀ j h, Wt j h = W (e0 j) h) (hWb : ∀ j h, Wb j h = W (e1 j) h) (h : Fin 128) :
    kOut c qr K A B Wt Wb h = rOut c qr K V W h := by
  obtain ⟨r, rfl⟩ := hc
  choose q' hq' using hq
  choose K' hK' using hK
  choose A' hA' using hA
  choose B' hB' using hB
  choose W' hW' using hW
  obtain rfl : qr = fun d => ((q' d : ℝ) : EReal) := funext hq'
  obtain rfl : K = fun m d => ((K' m d : ℝ) : EReal) := funext fun m => funext (hK' m)
  obtain rfl : A = fun m j => ((A' m j : ℝ) : EReal) := funext fun m => funext (hA' m)
  obtain rfl : B = fun m j => ((B' m j : ℝ) : EReal) := funext fun m => funext (hB' m)
  obtain rfl : W = fun j h => ((W' j h : ℝ) : EReal) := funext fun j => funext (hW' j)
  obtain rfl : Wt = fun j h => ((W' (e0 j) h : ℝ) : EReal) := funext fun j => funext (hWt j)
  obtain rfl : Wb = fun j h => ((W' (e1 j) h : ℝ) : EReal) := funext fun j => funext (hWb j)
  exact law_real r q' K' A' B' V W' hVA hVB h

end Cert.Spec

end
-- ==== Proof.Ref.Value.lean ====
/-
  The reference's two results read at an index, on the extended reals: each is the reference's arrangement of a row
  (the scale 1/√64 is the real 1/8, the kernel's literal); its interleaved value matrix restricted along the two column
  embeddings is the two gathers' collapsed halves; and a gather only picks entries, so it keeps entries real.
  The road, for each side: the scores of row n are the contraction over the 64 features times the scale; the
  max-reduce from −∞ is the fold of max over the row, and the later maximum against −∞ changes nothing; subtracting,
  exponentiating, summing from 0 and dividing are pointwise on the extended reals; the two contractions that follow are
  the sums over the 4096 rows and the 2048 columns; the final maximum against 0 is the relu.
-/
import proofs.«416793_j57088705298647_3_alg».proof.Proof.Gen.ReferenceIdeal.Run
import proofs.«416793_j57088705298647_3_alg».proof.Proof.Gen.ReferenceIdeal.Read
import proofs.«416793_j57088705298647_3_alg».proof.Proof.Spec
import proofs.«416793_j57088705298647_3_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.HandValue

open Idealize.ShloMosaic Idealize.ShloMosaic.ValueIdx Cert.ReferenceIdeal Cert.ReferenceIdeal.Gen Cert.ReferenceIdeal.Read Cert.Spec
open scoped BigOperators

/-! ## Facts shared by the two sides -/

/-- The scale both sides use: the real 1/8 as a float word. -/
abbrev cS : EReal := Ideal.ofBits .f32 0x3E000000#32

/-- The word of −∞ is the bottom of the extended reals. -/
theorem ofBits_ninf : Ideal.ofBits .f32 0xFF800000#32 = ⊥ := by simp [Ideal.ofBits, Ideal.ieee]

/-- A row index with column k put back is (n, k). -/
theorem lift_row (h : S4096x4096.Reduces [1] S4096) (n : Fin 4096) (k : Fin (S4096x4096.size 1)) :
    h.lift (ix1 n) k = ix2 n (⟨k.val, k.isLt⟩ : Fin 4096) :=
  funext fun a => Fin.ext (by match a with | ⟨0, _⟩ => rfl | ⟨1, _⟩ => rfl)

/-- A max-reduce over the columns, started from −∞, is at row n the fold of max over that row. -/
theorem rowmax (y : S4096x4096.Idx → Ideal .f32) (init : S_.Idx → Ideal .f32) (hinit : ∀ i, init i = ⊥) (n : Fin 4096) :
    Host.reduce FloatOps.maximumf y init reducesTo_S4096x4096_S4096_d1 h_S_ (ix1 n)
      = rmax (fun m => y (ix2 n m)) := by
  have h : S4096x4096.Reduces [1] S4096 := by decide
  rw [Host.reduce_eq_fold_single FloatOps.maximumf y init reducesTo_S4096x4096_S4096_d1 h h_S_ (ix1 n), hinit]
  have hf : (y ∘ h.lift (ix1 n)) = fun m : Fin 4096 => y (ix2 n m) := funext fun k => congrArg y (lift_row h n k)
  exact congrArg (fun f => Finset.fold max ⊥ f (Finset.univ : Finset (Fin 4096))) hf

/-! ## The user side -/

theorem lidx34 (n m : Fin 4096) (d : Fin 64) : lidx_main_v34 (ix2 n m) d = ix2 n d :=
  funext fun a => Fin.ext (by match a with | ⟨0, _⟩ => rfl | ⟨1, _⟩ => rfl)
theorem ridx34 (n m : Fin 4096) (d : Fin 64) : ridx_main_v34 (ix2 n m) d = ix2 m d :=
  funext fun a => Fin.ext (by match a with | ⟨0, _⟩ => rfl | ⟨1, _⟩ => rfl)
theorem idx4041 (n m : Fin 4096) : idx_main_v40 (idx_main_v41 (ix2 n m)) = ix1 n :=
  funext fun a => Fin.ext (by match a with | ⟨0, _⟩ => rfl)
theorem idx4546 (n m : Fin 4096) : idx_main_v45 (idx_main_v46 (ix2 n m)) = ix1 n :=
  funext fun a => Fin.ext (by match a with | ⟨0, _⟩ => rfl)
theorem idx44 (n k : Fin 4096) : idx_main_v44 (ix1 n) k = ix2 n k :=
  funext fun a => Fin.ext (by match a with | ⟨0, _⟩ => rfl | ⟨1, _⟩ => rfl)
theorem lidx48 (n m : Fin 4096) (j : Fin 2048) : lidx_main_v48 (ix2 n j) m = ix2 n m :=
  funext fun a => Fin.ext (by match a with | ⟨0, _⟩ => rfl | ⟨1, _⟩ => rfl)
theorem ridx48 (n m : Fin 4096) (j : Fin 2048) : ridx_main_v48 (ix2 n j) m = ix2 m j :=
  funext fun a => Fin.ext (by match a with | ⟨0, _⟩ => rfl | ⟨1, _⟩ => rfl)
theorem lidx66 (n : Fin 4096) (h : Fin 128) (j : Fin 2048) : lidx_main_v66 (ix2 n h) j = ix2 n j :=
  funext fun a => Fin.ext (by match a with | ⟨0, _⟩ => rfl | ⟨1, _⟩ => rfl)
theorem ridx66 (n : Fin 4096) (h : Fin 128) (j : Fin 2048) : ridx_main_v66 (ix2 n h) j = ix2 j h :=
  funext fun a => Fin.ext (by match a with | ⟨0, _⟩ => rfl | ⟨1, _⟩ => rfl)

/-- 1 / sqrt 64 is the scale. -/
theorem scale33 (i : S_.Idx) : val_main_v33 (F := Ideal) i = cS := by
  rw [val_main_v33_apply, val_main_cst_7_apply, val_main_v32_apply, val_main_cst_apply]
  simp only [Ideal.hostDivf_def, Ideal.hostUnary_sqrt_def, Ideal.ofBits_def]
  exact ref_scale

/-- The scaled scores of row n. -/
theorem score36 (x1 : (⟨S4096x64, .f32⟩ : BufTy).Contents (Elt Ideal)) (n m : Fin 4096) :
    val_main_v36 (F := Ideal) x1 (ix2 n m) = score cS (mat x1 n) (mat x1) m := by
  rw [val_main_v36_apply, val_main_v34_apply, val_main_v35_apply, scale33]
  simp only [lidx34, ridx34, Ideal.mulf_def]
  rfl

/-- The row's maximum. -/
theorem max39 (x1 : (⟨S4096x64, .f32⟩ : BufTy).Contents (Elt Ideal)) (n : Fin 4096) :
    val_main_v39 (F := Ideal) x1 (ix1 n) = rmax (score cS (mat x1 n) (mat x1)) := by
  rw [val_main_v39_apply, val_main_v38_apply, val_main_cst_9_apply]
  unfold val_main_v37
  rw [rowmax _ _ (fun i => by rw [val_main_cst_8_apply]; exact ofBits_ninf) n]
  simp only [score36, Ideal.maximumf_def, Ideal.ofBits_def, ofBits_ninf]
  exact max_eq_right bot_le

/-- The unnormalised weights. -/
theorem pexp43 (x1 : (⟨S4096x64, .f32⟩ : BufTy).Contents (Elt Ideal)) (n m : Fin 4096) :
    val_main_v43 (F := Ideal) x1 (ix2 n m) = pexp (score cS (mat x1 n) (mat x1)) m := by
  rw [val_main_v43_apply, val_main_v42_apply, val_main_v41_apply, val_main_v40_apply, idx4041, max39, score36]
  simp only [Ideal.hostUnary_exp_def, Ideal.subf_def]
  rfl

/-- The row's normaliser. -/
theorem rsum44 (x1 : (⟨S4096x64, .f32⟩ : BufTy).Contents (Elt Ideal)) (n : Fin 4096) :
    val_main_v44 (F := Ideal) x1 (ix1 n) = rsum (score cS (mat x1 n) (mat x1)) := by
  rw [val_main_v44_apply, val_main_cst_10_apply]
  simp only [idx44, pexp43, Ideal.ofBits_def, Ideal.ofBits_zero_f32, zero_add]
  rfl

/-- The normalised weights. -/
theorem soft47 (x1 : (⟨S4096x64, .f32⟩ : BufTy).Contents (Elt Ideal)) (n m : Fin 4096) :
    val_main_v47 (F := Ideal) x1 (ix2 n m)
      = Ideal.div (pexp (score cS (mat x1 n) (mat x1)) m) (rsum (score cS (mat x1 n) (mat x1))) := by
  rw [val_main_v47_apply, val_main_v46_apply, val_main_v45_apply, idx4546, pexp43, rsum44]
  rfl

/-- The aggregated values. -/
theorem agg48 (x0 : (⟨S100000x64, .f32⟩ : BufTy).Contents (Elt Ideal)) (x1 x2 : (⟨S4096x64, .f32⟩ : BufTy).Contents (Elt Ideal)) (x5 x6 : (⟨S4096x16, .i32⟩ : BufTy).Contents (Elt Ideal)) (n : Fin 4096) (j : Fin 2048) :
    val_main_v48 (F := Ideal) x0 x1 x2 x5 x6 (ix2 n j)
      = ∑ m : Fin 4096, Ideal.div (pexp (score cS (mat x1 n) (mat x1)) m) (rsum (score cS (mat x1 n) (mat x1)))
          * mat (val_main_v29 (F := Ideal) x0 x2 x5 x6) m j := by
  rw [val_main_v48_apply]
  simp only [lidx48, ridx48, soft47]
  rfl

/-- The first result at (n, h). -/
theorem ref0_apply (x0 : (⟨S100000x64, .f32⟩ : BufTy).Contents (Elt Ideal)) (x1 x2 : (⟨S4096x64, .f32⟩ : BufTy).Contents (Elt Ideal)) (x3 : (⟨S2048x128, .f32⟩ : BufTy).Contents (Elt Ideal)) (x5 x6 : (⟨S4096x16, .i32⟩ : BufTy).Contents (Elt Ideal)) (n : Fin 4096) (h : Fin 128) :
    val_main_v67 (F := Ideal) x0 x1 x2 x3 x5 x6 (ix2 n h)
      = rOut (Ideal.ofBits .f32 0x3E000000#32) (mat x1 n) (mat x1) (mat (val_main_v29 (F := Ideal) x0 x2 x5 x6)) (mat x3) h := by
  rw [val_main_v67_apply, val_main_call0_v0_apply, val_main_call0_cst_apply, val_main_v66_apply]
  simp only [lidx66, ridx66, agg48, Ideal.maximumf_def, Ideal.ofBits_def, Ideal.ofBits_zero_f32]
  rfl

/-! ## The item side: the same chain over the other table -/

theorem lidx51 (n m : Fin 4096) (d : Fin 64) : lidx_main_v51 (ix2 n m) d = ix2 n d :=
  funext fun a => Fin.ext (by match a with | ⟨0, _⟩ => rfl | ⟨1, _⟩ => rfl)
theorem ridx51 (n m : Fin 4096) (d : Fin 64) : ridx_main_v51 (ix2 n m) d = ix2 m d :=
  funext fun a => Fin.ext (by match a with | ⟨0, _⟩ => rfl | ⟨1, _⟩ => rfl)
theorem idx5758 (n m : Fin 4096) : idx_main_v57 (idx_main_v58 (ix2 n m)) = ix1 n :=
  funext fun a => Fin.ext (by match a with | ⟨0, _⟩ => rfl)
theorem idx6263 (n m : Fin 4096) : idx_main_v62 (idx_main_v63 (ix2 n m)) = ix1 n :=
  funext fun a => Fin.ext (by match a with | ⟨0, _⟩ => rfl)
theorem idx61 (n k : Fin 4096) : idx_main_v61 (ix1 n) k = ix2 n k :=
  funext fun a => Fin.ext (by match a with | ⟨0, _⟩ => rfl | ⟨1, _⟩ => rfl)
theorem lidx65 (n m : Fin 4096) (j : Fin 2048) : lidx_main_v65 (ix2 n j) m = ix2 n m :=
  funext fun a => Fin.ext (by match a with | ⟨0, _⟩ => rfl | ⟨1, _⟩ => rfl)
theorem ridx65 (n m : Fin 4096) (j : Fin 2048) : ridx_main_v65 (ix2 n j) m = ix2 m j :=
  funext fun a => Fin.ext (by match a with | ⟨0, _⟩ => rfl | ⟨1, _⟩ => rfl)
theorem lidx68 (n : Fin 4096) (h : Fin 128) (j : Fin 2048) : lidx_main_v68 (ix2 n h) j = ix2 n j :=
  funext fun a => Fin.ext (by match a with | ⟨0, _⟩ => rfl | ⟨1, _⟩ => rfl)
theorem ridx68 (n : Fin 4096) (h : Fin 128) (j : Fin 2048) : ridx_main_v68 (ix2 n h) j = ix2 j h :=
  funext fun a => Fin.ext (by match a with | ⟨0, _⟩ => rfl | ⟨1, _⟩ => rfl)

/-- 1 / sqrt 64 is the scale. -/
theorem scale50 (i : S_.Idx) : val_main_v50 (F := Ideal) i = cS := by
  rw [val_main_v50_apply, val_main_cst_12_apply, val_main_v49_apply, val_main_cst_11_apply]
  simp only [Ideal.hostDivf_def, Ideal.hostUnary_sqrt_def, Ideal.ofBits_def]
  exact ref_scale

/-- The scaled scores of row n. -/
theorem score53 (x2 : (⟨S4096x64, .f32⟩ : BufTy).Contents (Elt Ideal)) (n m : Fin 4096) :
    val_main_v53 (F := Ideal) x2 (ix2 n m) = score cS (mat x2 n) (mat x2) m := by
  rw [val_main_v53_apply, val_main_v51_apply, val_main_v52_apply, scale50]
  simp only [lidx51, ridx51, Ideal.mulf_def]
  rfl

/-- The row's maximum. -/
theorem max56 (x2 : (⟨S4096x64, .f32⟩ : BufTy).Contents (Elt Ideal)) (n : Fin 4096) :
    val_main_v56 (F := Ideal) x2 (ix1 n) = rmax (score cS (mat x2 n) (mat x2)) := by
  rw [val_main_v56_apply, val_main_v55_apply, val_main_cst_14_apply]
  unfold val_main_v54
  rw [rowmax _ _ (fun i => by rw [val_main_cst_13_apply]; exact ofBits_ninf) n]
  simp only [score53, Ideal.maximumf_def, Ideal.ofBits_def, ofBits_ninf]
  exact max_eq_right bot_le

/-- The unnormalised weights. -/
theorem pexp60 (x2 : (⟨S4096x64, .f32⟩ : BufTy).Contents (Elt Ideal)) (n m : Fin 4096) :
    val_main_v60 (F := Ideal) x2 (ix2 n m) = pexp (score cS (mat x2 n) (mat x2)) m := by
  rw [val_main_v60_apply, val_main_v59_apply, val_main_v58_apply, val_main_v57_apply, idx5758, max56, score53]
  simp only [Ideal.hostUnary_exp_def, Ideal.subf_def]
  rfl

/-- The row's normaliser. -/
theorem rsum61 (x2 : (⟨S4096x64, .f32⟩ : BufTy).Contents (Elt Ideal)) (n : Fin 4096) :
    val_main_v61 (F := Ideal) x2 (ix1 n) = rsum (score cS (mat x2 n) (mat x2)) := by
  rw [val_main_v61_apply, val_main_cst_15_apply]
  simp only [idx61, pexp60, Ideal.ofBits_def, Ideal.ofBits_zero_f32, zero_add]
  rfl

/-- The normalised weights. -/
theorem soft64 (x2 : (⟨S4096x64, .f32⟩ : BufTy).Contents (Elt Ideal)) (n m : Fin 4096) :
    val_main_v64 (F := Ideal) x2 (ix2 n m)
      = Ideal.div (pexp (score cS (mat x2 n) (mat x2)) m) (rsum (score cS (mat x2 n) (mat x2))) := by
  rw [val_main_v64_apply, val_main_v63_apply, val_main_v62_apply, idx6263, pexp60, rsum61]
  rfl

/-- The aggregated values. -/
theorem agg65 (x0 : (⟨S100000x64, .f32⟩ : BufTy).Contents (Elt Ideal)) (x1 x2 : (⟨S4096x64, .f32⟩ : BufTy).Contents (Elt Ideal)) (x7 x8 : (⟨S4096x16, .i32⟩ : BufTy).Contents (Elt Ideal)) (n : Fin 4096) (j : Fin 2048) :
    val_main_v65 (F := Ideal) x0 x1 x2 x7 x8 (ix2 n j)
      = ∑ m : Fin 4096, Ideal.div (pexp (score cS (mat x2 n) (mat x2)) m) (rsum (score cS (mat x2 n) (mat x2)))
          * mat (val_main_v31 (F := Ideal) x0 x1 x7 x8) m j := by
  rw [val_main_v65_apply]
  simp only [lidx65, ridx65, soft64]
  rfl

/-- The second result at (n, h). -/
theorem ref1_apply (x0 : (⟨S100000x64, .f32⟩ : BufTy).Contents (Elt Ideal)) (x1 x2 : (⟨S4096x64, .f32⟩ : BufTy).Contents (Elt Ideal)) (x4 : (⟨S2048x128, .f32⟩ : BufTy).Contents (Elt Ideal)) (x7 x8 : (⟨S4096x16, .i32⟩ : BufTy).Contents (Elt Ideal)) (n : Fin 4096) (h : Fin 128) :
    val_main_v69 (F := Ideal) x0 x1 x2 x4 x7 x8 (ix2 n h)
      = rOut (Ideal.ofBits .f32 0x3E000000#32) (mat x2 n) (mat x2) (mat (val_main_v31 (F := Ideal) x0 x1 x7 x8)) (mat x4) h := by
  rw [val_main_v69_apply, val_main_call1_v0_apply, val_main_call1_cst_apply, val_main_v68_apply]
  simp only [lidx68, ridx68, agg65, Ideal.maximumf_def, Ideal.ofBits_def, Ideal.ofBits_zero_f32]
  rfl

end Cert.ReferenceIdeal.HandValue

end
-- ==== Proof.Ref.Layout.lean ====
/-
  The reference's interleaved value matrix [4096, 2048] is the concatenation, along the last axis, of two gathers
  [4096, 16, 64], reshaped: column (j / 64)·128 + j % 64 is the first gather's (j / 64, j % 64), column
  (j / 64)·128 + 64 + j % 64 the second's. And a gather only picks entries of its table, so real entries stay real.
-/
import proofs.«416793_j57088705298647_3_alg».proof.Proof.Gen.ReferenceIdeal.Run
import proofs.«416793_j57088705298647_3_alg».proof.Proof.Gen.ReferenceIdeal.Read
import proofs.«416793_j57088705298647_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.HandValue

open Idealize.ShloMosaic Idealize.ShloMosaic.ValueIdx Cert.ReferenceIdeal Cert.ReferenceIdeal.Gen Cert.ReferenceIdeal.Read Cert.Spec
open scoped BigOperators

/-- The joined array [4096, 16, 128] at an index whose last coordinate is below 64 is the first piece there. -/
theorem cat_fst {α : Type} (y₁ y₂ : S4096x16x64.Idx → α) (k : S4096x16x128.Idx)
    (a : Fin 4096) (b : Fin 16) (c : Fin 64)
    (h0 : (k 0).val = a.val) (h1 : (k 1).val = b.val) (h2 : (k 2).val = c.val) :
    concatenate S4096x16x128 2 [⟨S4096x16x64, y₁⟩, ⟨S4096x16x64, y₂⟩]
      concatenates_S4096x16x64_S4096x16x64_S4096x16x128_d2 k = y₁ (ix3 a b c) := by
  refine concatenate_pair_apply_left (2 : Fin S4096x16x128.rank) y₁ y₂ _ k rfl (ix3 a b c) ?_
  intro d
  match d with
  | ⟨0, _⟩ => exact h0.symm
  | ⟨1, _⟩ => exact h1.symm
  | ⟨2, _⟩ => exact h2.symm

/-- At an index whose last coordinate is 64 + c it is the second piece at c. -/
theorem cat_snd {α : Type} (y₁ y₂ : S4096x16x64.Idx → α) (k : S4096x16x128.Idx)
    (a : Fin 4096) (b : Fin 16) (c : Fin 64)
    (h0 : (k 0).val = a.val) (h1 : (k 1).val = b.val) (h2 : (k 2).val = 64 + c.val) :
    concatenate S4096x16x128 2 [⟨S4096x16x64, y₁⟩, ⟨S4096x16x64, y₂⟩]
      concatenates_S4096x16x64_S4096x16x64_S4096x16x128_d2 k = y₂ (ix3 a b c) := by
  refine concatenate_pair_apply_right (2 : Fin S4096x16x128.rank) y₁ y₂ _ k rfl rfl (ix3 a b c) ?_ ?_
  · intro d hd
    match d with
    | ⟨0, _⟩ => exact h0.symm
    | ⟨1, _⟩ => exact h1.symm
    | ⟨2, _⟩ => exact absurd rfl hd
  · show c.val + 64 = (k 2).val
    omega

/-- The row-major split of column (j / 64)·128 + j % 64 of 2048 into (16, 128), under any row r. -/
theorem split_e0 (r j : Nat) (hj : j < 1024) :
    (r * 2048 + (j / 64 * 128 + j % 64)) / 2048 = r
    ∧ (r * 2048 + (j / 64 * 128 + j % 64)) / 128 % 16 = j / 64
    ∧ (r * 2048 + (j / 64 * 128 + j % 64)) % 128 = j % 64 := by
  refine ⟨?_, ?_, ?_⟩ <;> omega

/-- The same for column (j / 64)·128 + 64 + j % 64. -/
theorem split_e1 (r j : Nat) (hj : j < 1024) :
    (r * 2048 + (j / 64 * 128 + 64 + j % 64)) / 2048 = r
    ∧ (r * 2048 + (j / 64 * 128 + 64 + j % 64)) / 128 % 16 = j / 64
    ∧ (r * 2048 + (j / 64 * 128 + 64 + j % 64)) % 128 = 64 + j % 64 := by
  refine ⟨?_, ?_, ?_⟩ <;> omega

/-- The interleaved value matrices along the two column embeddings. -/
theorem v29_e0 (x0 : (⟨S100000x64, .f32⟩ : BufTy).Contents (Elt Ideal)) (x2 : (⟨S4096x64, .f32⟩ : BufTy).Contents (Elt Ideal)) (x5 x6 : (⟨S4096x16, .i32⟩ : BufTy).Contents (Elt Ideal)) (r : Fin 4096) (j : Fin 1024) :
    mat (val_main_v29 (F := Ideal) x0 x2 x5 x6) r (e0 j) = flat (val_main_v6 (F := Ideal) x0 x5) r j := by
  obtain ⟨s0, s1, s2⟩ := split_e0 r.val j.val j.isLt
  unfold mat flat
  rw [val_main_v29_apply]
  unfold val_main_v28
  exact cat_fst _ _ _ r _ _ s0 s1 s2
theorem v29_e1 (x0 : (⟨S100000x64, .f32⟩ : BufTy).Contents (Elt Ideal)) (x2 : (⟨S4096x64, .f32⟩ : BufTy).Contents (Elt Ideal)) (x5 x6 : (⟨S4096x16, .i32⟩ : BufTy).Contents (Elt Ideal)) (r : Fin 4096) (j : Fin 1024) :
    mat (val_main_v29 (F := Ideal) x0 x2 x5 x6) r (e1 j) = flat (val_main_v13 (F := Ideal) x2 x6) r j := by
  obtain ⟨s0, s1, s2⟩ := split_e1 r.val j.val j.isLt
  unfold mat flat
  rw [val_main_v29_apply]
  unfold val_main_v28
  exact cat_snd _ _ _ r _ _ s0 s1 s2
theorem v31_e0 (x0 : (⟨S100000x64, .f32⟩ : BufTy).Contents (Elt Ideal)) (x1 : (⟨S4096x64, .f32⟩ : BufTy).Contents (Elt Ideal)) (x7 x8 : (⟨S4096x16, .i32⟩ : BufTy).Contents (Elt Ideal)) (r : Fin 4096) (j : Fin 1024) :
    mat (val_main_v31 (F := Ideal) x0 x1 x7 x8) r (e0 j) = flat (val_main_v20 (F := Ideal) x0 x7) r j := by
  obtain ⟨s0, s1, s2⟩ := split_e0 r.val j.val j.isLt
  unfold mat flat
  rw [val_main_v31_apply]
  unfold val_main_v30
  exact cat_fst _ _ _ r _ _ s0 s1 s2
theorem v31_e1 (x0 : (⟨S100000x64, .f32⟩ : BufTy).Contents (Elt Ideal)) (x1 : (⟨S4096x64, .f32⟩ : BufTy).Contents (Elt Ideal)) (x7 x8 : (⟨S4096x16, .i32⟩ : BufTy).Contents (Elt Ideal)) (r : Fin 4096) (j : Fin 1024) :
    mat (val_main_v31 (F := Ideal) x0 x1 x7 x8) r (e1 j) = flat (val_main_v27 (F := Ideal) x1 x8) r j := by
  obtain ⟨s0, s1, s2⟩ := split_e1 r.val j.val j.isLt
  unfold mat flat
  rw [val_main_v31_apply]
  unfold val_main_v30
  exact cat_snd _ _ _ r _ _ s0 s1 s2

/-- A gather picks entries: real entries stay real. -/
theorem v6_real (x0 : (⟨S100000x64, .f32⟩ : BufTy).Contents (Elt Ideal)) (x5 : (⟨S4096x16, .i32⟩ : BufTy).Contents (Elt Ideal)) (hx : ∀ i, ∃ r : ℝ, x0 i = (r : EReal)) :
    ∀ i, ∃ r : ℝ, val_main_v6 (F := Ideal) x0 x5 i = (r : EReal) := by
  intro i; unfold val_main_v6 Host.gather; exact hx _
theorem v13_real (x2 : (⟨S4096x64, .f32⟩ : BufTy).Contents (Elt Ideal)) (x6 : (⟨S4096x16, .i32⟩ : BufTy).Contents (Elt Ideal)) (hx : ∀ i, ∃ r : ℝ, x2 i = (r : EReal)) :
    ∀ i, ∃ r : ℝ, val_main_v13 (F := Ideal) x2 x6 i = (r : EReal) := by
  intro i; unfold val_main_v13 Host.gather; exact hx _
theorem v20_real (x0 : (⟨S100000x64, .f32⟩ : BufTy).Contents (Elt Ideal)) (x7 : (⟨S4096x16, .i32⟩ : BufTy).Contents (Elt Ideal)) (hx : ∀ i, ∃ r : ℝ, x0 i = (r : EReal)) :
    ∀ i, ∃ r : ℝ, val_main_v20 (F := Ideal) x0 x7 i = (r : EReal) := by
  intro i; unfold val_main_v20 Host.gather; exact hx _
theorem v27_real (x1 : (⟨S4096x64, .f32⟩ : BufTy).Contents (Elt Ideal)) (x8 : (⟨S4096x16, .i32⟩ : BufTy).Contents (Elt Ideal)) (hx : ∀ i, ∃ r : ℝ, x1 i = (r : EReal)) :
    ∀ i, ∃ r : ℝ, val_main_v27 (F := Ideal) x1 x8 i = (r : EReal) := by
  intro i; unfold val_main_v27 Host.gather; exact hx _

end Cert.ReferenceIdeal.HandValue

end
-- ==== Proof.Finite.lean ====
/-
  What the precondition says: each of the five float arguments passes |x| < +∞ at every entry, so every entry is a
  real number.
-/
import proofs.«416793_j57088705298647_3_alg».proof.Pre_finite_inputs
import proofs.«416793_j57088705298647_3_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Cert.Pre_finite_inputs

/-- The scalar shape has a single index. -/
private instance subsingleton_scalar_idx : Subsingleton S_.Idx := ⟨fun a b => funext fun d => d.elim0⟩

/-- The word 0x7F800000 read as an extended real is +∞. -/
private theorem ofBits_inf : Ideal.ofBits .f32 0x7F800000#32 = (⊤ : EReal) := by
  simp [Ideal.ofBits, Ideal.ieee]

/-- An extended real whose absolute value max x (-x) compares strictly below +∞ is a real number. -/
private theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  have hx : x < ⊤ := lt_of_le_of_lt (le_max_left _ _) hlt
  have hnx : -x < ⊤ := lt_of_le_of_lt (le_max_right _ _) hlt
  have hbot : x ≠ ⊥ := by
    rintro rfl
    simp at hnx
  exact ⟨x.toReal, (EReal.coe_toReal hx.ne hbot).symm⟩

/-- If the conjunction over all entries of |x| < +∞ came out true, every entry of x is a real number. -/
private theorem all_real {S : Shape} {axes : List (Fin S.rank)} (x : FVec Ideal S .f32)
    (dims : Fin S_.rank → Fin S.rank) (hb : S_.BroadcastsInDim S dims) (hr : S.ReducesTo axes S_) (hu : 0 < S_.numel)
    (init : IVec S_ 1) (j : S_.Idx)
    (e : Host.reduce IntOp.andi (cmpf .olt (Host.absf x) (broadcastInDim S dims hb (constant S_ .f32 0x7F800000#32)))
      init hr hu j = 1#1) (i : S.Idx) : ∃ r : ℝ, x i = (r : EReal) :=
  real_of_abs_lt_inf (x i) (Host.reduce_andi_all _ init hr hu j e i)

/-- Under the precondition every entry of every float argument is a real number. -/
theorem real_of_pre (x0 : FVec Ideal S100000x64 .f32) (x1 x2 : FVec Ideal S4096x64 .f32) (x3 x4 : FVec Ideal S2048x128 .f32)
    (x5 x6 x7 x8 : IVec S4096x16 32)
    (h : Cert.Pre_finite_inputs.fn (F := Ideal) x0 x1 x2 x3 x4 x5 x6 x7 x8 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real x0 _ _ _ _ _ _ e0, all_real x1 _ _ _ _ _ _ e1, all_real x2 _ _ _ _ _ _ e2,
    all_real x3 _ _ _ _ _ _ e3, all_real x4 _ _ _ _ _ _ e4⟩

end Cert.Proof.Finite

end
-- ==== Proof.lean ====
/-
  The certificate of the attention-aggregation kernel against its reference.

  The kernel's @main gathers neighbour rows on the host (the same gathers, on the same clamped indices, as the
  reference), keeps each [4096, 2048] value matrix as its two [4096, 1024] halves and splits the projection matrix's
  rows alike through two constant row tables, then runs one region per side (users, items) over sixteen blocks of 256
  query rows: scores against the whole key table times 1/8, an exact row softmax WITHOUT the division, the two value
  products, the two projections, and the row's 1/l applied last, then max(·, 0).
  The reference scales by 1/√64 = 1/8, normalises the softmax weights first, multiplies by the interleaved value
  matrix and the whole projection matrix, then max(·, 0).
  On the extended reals the two agree where every float input is finite: each row's normaliser l ≥ 1 is then a nonzero
  real, so distributing 1/l over the sums is sound, and the column split is a re-indexing of a finite sum.

  Frames: each region's body is loads, pure arithmetic and one whole-block store; the two input windows that read the
  row table share that array, each holding half of its share; @main is two stretches of host operations and the two
  regions. The idealization rewrote nothing, so preserves is trivial.
-/
import proofs.«416793_j57088705298647_3_alg».proof.Defs
import proofs.«416793_j57088705298647_3_alg».proof.Proof.Gen.Kernel
import proofs.«416793_j57088705298647_3_alg».proof.Proof.Gen.KernelIdeal
import proofs.«416793_j57088705298647_3_alg».proof.Proof.Gen.ReferenceIdeal
import proofs.«416793_j57088705298647_3_alg».proof.Proof.Gen.Pre_finite_inputs
import proofs.«416793_j57088705298647_3_alg».proof.Proof.Gen.ReferenceIdeal.Run
import proofs.«416793_j57088705298647_3_alg».proof.Proof.Gen.ReferenceIdeal.Read
import proofs.«416793_j57088705298647_3_alg».proof.Proof.K.Frame
import proofs.«416793_j57088705298647_3_alg».proof.Proof.KI.Frame
import proofs.«416793_j57088705298647_3_alg».proof.Proof.KI.Value
import proofs.«416793_j57088705298647_3_alg».proof.Proof.Ref.Value
import proofs.«416793_j57088705298647_3_alg».proof.Proof.Ref.Layout
import proofs.«416793_j57088705298647_3_alg».proof.Proof.Algebra
import proofs.«416793_j57088705298647_3_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Spec

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Result 0: the reference's term of the arguments is the array the kernel's region 0 leaves. -/
theorem res0_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_KernelIdeal m) :
    (Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) : Vec Ideal Cert.KernelIdeal.S4096x128 .f32)
      = (Cert.KernelIdeal.Hand.dat0 (Cert.KernelIdeal.Hand.V2 m ρ) c).arrAt 6 Cert.KernelIdeal.cfg0.N := by
  obtain ⟨h0, h1, h2, h3, h4⟩ := Cert.Proof.Finite.real_of_pre _ _ _ _ _ _ _ _ _ (hpre c)
  funext i
  obtain ⟨n, h, rfl⟩ : ∃ (n : Fin 4096) (h : Fin 128), i = ix2 n h := ⟨i 0, i 1, eq_ix2 i⟩
  rw [Cert.ReferenceIdeal.HandValue.ref0_apply]
  refine ((Cert.KernelIdeal.HandValue.res0_apply m ρ c n h).trans ?_).symm
  exact kOut_eq_rOut _ _ _ _ _ _ _ _ _ ⟨_, scale_val⟩ (fun d => h1 _) (fun r d => h1 _)
    (fun r j => Cert.ReferenceIdeal.HandValue.v6_real _ _ h0 _) (fun r j => Cert.ReferenceIdeal.HandValue.v13_real _ _ h2 _)
    (fun j hh => h3 _)
    (Cert.ReferenceIdeal.HandValue.v29_e0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (Cert.ReferenceIdeal.HandValue.v29_e1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (fun _ _ => rfl) (fun _ _ => rfl) h

/-- Result 1: the reference's term of the arguments is the array the kernel's region 1 leaves. -/
theorem res1_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_KernelIdeal m) :
    (Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) : Vec Ideal Cert.KernelIdeal.S4096x128 .f32)
      = (Cert.KernelIdeal.Hand.dat1 (Cert.KernelIdeal.Hand.V3 m ρ) c).arrAt 6 Cert.KernelIdeal.cfg1.N := by
  obtain ⟨h0, h1, h2, h3, h4⟩ := Cert.Proof.Finite.real_of_pre _ _ _ _ _ _ _ _ _ (hpre c)
  funext i
  obtain ⟨n, h, rfl⟩ : ∃ (n : Fin 4096) (h : Fin 128), i = ix2 n h := ⟨i 0, i 1, eq_ix2 i⟩
  rw [Cert.ReferenceIdeal.HandValue.ref1_apply]
  refine ((Cert.KernelIdeal.HandValue.res1_apply m ρ c n h).trans ?_).symm
  exact kOut_eq_rOut _ _ _ _ _ _ _ _ _ ⟨_, scale_val⟩ (fun d => h2 _) (fun r d => h2 _)
    (fun r j => Cert.ReferenceIdeal.HandValue.v20_real _ _ h0 _) (fun r j => Cert.ReferenceIdeal.HandValue.v27_real _ _ h1 _)
    (fun j hh => h4 _)
    (Cert.ReferenceIdeal.HandValue.v31_e0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
    (Cert.ReferenceIdeal.HandValue.v31_e1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
    (fun _ _ => rfl) (fun _ _ => rfl) h

/-- Both programs run, with equal results element by element and unchanged arguments. -/
theorem algebraic : Cert.algebraic_KernelIdeal_ReferenceIdeal := by
  intro m ρ m' ρ' hpre hagree
  refine ⟨fun c => (Cert.KernelIdeal.Hand.dat0 (Cert.KernelIdeal.Hand.V2 m ρ) c).arrAt 6 Cert.KernelIdeal.cfg0.N,
    fun c => (Cert.KernelIdeal.Hand.dat1 (Cert.KernelIdeal.Hand.V3 m ρ) c).arrAt 6 Cert.KernelIdeal.cfg1.N, Cert.KernelIdeal.Hand.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v67_eq, (hagree c).1, (hagree c).2.1, (hagree c).2.2.1, (hagree c).2.2.2.1,
      (hagree c).2.2.2.2.2.1, (hagree c).2.2.2.2.2.2.1]
    exact res0_eq m ρ c hpre
  · rw [Cert.ReferenceIdeal.Read.val_main_v69_eq, (hagree c).1, (hagree c).2.1, (hagree c).2.2.1, (hagree c).2.2.2.2.1,
      (hagree c).2.2.2.2.2.2.2.1, (hagree c).2.2.2.2.2.2.2.2]
    exact res1_eq m ρ c hpre

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
